-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x64x4 : Shape := ⟨3, ![8, 64, 4]⟩
abbrev S_ : Shape := ⟨0, ![]⟩
abbrev S8x64x1 : Shape := ⟨3, ![8, 64, 1]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  slices_S8x64x4_S8x64x1_0_0_0 : S8x64x4.Slices ![0, 0, 0] S8x64x1
  slices_S8x64x4_S8x64x1_0_0_2 : S8x64x4.Slices ![0, 0, 2] S8x64x1
  reducesTo_S8x64x1_S_d0_1_2 : S8x64x1.ReducesTo [0, 1, 2] S_
  slices_S8x64x4_S8x64x1_0_0_1 : S8x64x4.Slices ![0, 0, 1] S8x64x1
  slices_S8x64x4_S8x64x1_0_0_3 : S8x64x4.Slices ![0, 0, 3] S8x64x1

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S8x1024x1024 .f32) (main_arg1 : FVec F S8x1024x1024 .f32) (main_arg2 : IVec S8x64x4 32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_v9 : IVec S8x64x1 32 := (extractStridedSlice S8x64x1 ![0, 0, 0] · slices_S8x64x4_S8x64x1_0_0_0) main_arg2
  let main_v10 : IVec S8x64x1 32 := (extractStridedSlice S8x64x1 ![0, 0, 2] · slices_S8x64x4_S8x64x1_0_0_2) main_arg2
  let main_v11 : IVec S8x64x1 1 := cmpi .sle main_v9 main_v10
  let main_c_2 : IVec S_ 1 := constantI S_ 1 1#1
  let main_v12 : IVec S_ 1 := (fun x v => Host.reduce IntOp.andi x v reducesTo_S8x64x1_S_d0_1_2 h_S_) main_v11 main_c_2
  let main_v13 : IVec S_ 1 := andi main_v8 main_v12
  let main_v14 : IVec S8x64x1 32 := (extractStridedSlice S8x64x1 ![0, 0, 1] · slices_S8x64x4_S8x64x1_0_0_1) main_arg2
  let main_v15 : IVec S8x64x1 32 := (extractStridedSlice S8x64x1 ![0, 0, 3] · slices_S8x64x4_S8x64x1_0_0_3) main_arg2
  let main_v16 : IVec S8x64x1 1 := cmpi .sle main_v14 main_v15
  let main_c_3 : IVec S_ 1 := constantI S_ 1 1#1
  let main_v17 : IVec S_ 1 := (fun x v => Host.reduce IntOp.andi x v reducesTo_S8x64x1_S_d0_1_2 h_S_) main_v16 main_c_3
  fn_part1 (F := F) main_v13 main_v17
-- ==== Kernel.lean ====
abbrev S8x1024x1024 : Shape := ⟨3, ![8, 1024, 1024]⟩
abbrev S8x64x4 : Shape := ⟨3, ![8, 64, 4]⟩
abbrev S8x4x64 : Shape := ⟨3, ![8, 4, 64]⟩
abbrev S1x1024x1024 : Shape := ⟨3, ![1, 1024, 1024]⟩
abbrev S1x64x4 : Shape := ⟨3, ![1, 64, 4]⟩
abbrev S1x4x64 : Shape := ⟨3, ![1, 4, 64]⟩
abbrev S64x4 : Shape := ⟨2, ![64, 4]⟩
abbrev S64x1 : Shape := ⟨2, ![64, 1]⟩
abbrev S64 : Shape := ⟨1, ![64]⟩
abbrev S4x64 : Shape := ⟨2, ![4, 64]⟩
abbrev S1x64 : Shape := ⟨2, ![1, 64]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x64x4, .i32⟩
  | .hbm, ⟨3, _⟩ => ⟨S8x4x64, .i32⟩
  | .hbm, ⟨4, _⟩ => ⟨S8x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x64x4, .i32⟩
  | .local _ .vmem, ⟨3, _⟩ => ⟨S1x64x4, .i32⟩
  | .local _ .vmem, ⟨4, _⟩ => ⟨S1x4x64, .i32⟩
  | .local _ .vmem, ⟨5, _⟩ => ⟨S1x4x64, .i32⟩
  | .local _ .vmem, ⟨6, _⟩ => ⟨S1x1024x1024, .f32⟩
  | .local _ .vmem, ⟨7, _⟩ => ⟨S1x1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x64x4_S8x4x64_0_2_1 : S8x64x4.Transposes [0, 2, 1] S8x4x64
  inb_S1x64x4_S1x64x4_0_0_0 : ∀ a, (![0, 0, 0] : Fin 3 → Nat) a + S1x64x4.size a ≤ S1x64x4.size a
  h_S1x64x4 : 0 < S1x64x4.numel
  shapeCasts_S1x64x4_S64x4 : S1x64x4.ShapeCasts S64x4
  slices_S64x4_o0_0_S64x1 : S64x4.Slices ![0, 0] S64x1
  shapeCasts_S64x1_S64 : S64x1.ShapeCasts S64
  slices_S64x4_o0_2_S64x1 : S64x4.Slices ![0, 2] S64x1
  inb_S1x4x64_S1x4x64_0_0_0 : ∀ a, (![0, 0, 0] : Fin 3 → Nat) a + S1x4x64.size a ≤ S1x4x64.size a
  h_S1x4x64 : 0 < S1x4x64.numel
  shapeCasts_S1x4x64_S4x64 : S1x4x64.ShapeCasts S4x64
  slices_S4x64_o1_0_S1x64 : S4x64.Slices ![1, 0] S1x64
  shapeCasts_S1x64_S64 : S1x64.ShapeCasts S64
  slices_S4x64_o3_0_S1x64 : S4x64.Slices ![3, 0] S1x64
  iota_S1024x64_d0_w32 : S1024x64.Iotas .tc 32 [0]
  shapeCasts_S64_S1x64 : S64.ShapeCasts S1x64
  shapeCasts_S1x64_S1x64 : S1x64.ShapeCasts S1x64
  broadcasts_S1x64_S1024x64 : S1x64.Broadcasts S1024x64
  natLt_1_32 : 1 < 32
  bitsLt_bf16_f32 : FTy.bits .bf16 < FTy.bits .f32
  iota_S64x1024_d1_w32 : S64x1024.Iotas .tc 32 [1]
  shapeCasts_S64_S64x1 : S64.ShapeCasts S64x1
  shapeCasts_S64x1_S64x1 : S64x1.ShapeCasts S64x1
  broadcasts_S64x1_S64x1024 : S64x1.Broadcasts S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4.size a ≤ S8x64x4.size a
  hwx0_1 : ∀ i : grid0.Coords, EltTy.bits .i32 = 32 ∨ (Rect.block (s := S8x64x4) S1x64x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x64.size a ≤ S8x4x64.size a
  hwx0_2 : ∀ i : grid0.Coords, EltTy.bits .i32 = 32 ∨ (Rect.block (s := S8x4x64) S1x4x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x64x4 : Shape := ⟨3, ![8, 64, 4]⟩
abbrev S8x64x1 : Shape := ⟨3, ![8, 64, 1]⟩
abbrev S8x64 : Shape := ⟨2, ![8, 64]⟩
abbrev S_ : Shape := ⟨0, ![]⟩
abbrev S8 : Shape := ⟨1, ![8]⟩
abbrev S8x1 : Shape := ⟨2, ![8, 1]⟩
abbrev S8x1025x1025 : Shape := ⟨3, ![8, 1025, 1025]⟩
abbrev S8x64x3 : Shape := ⟨3, ![8, 64, 3]⟩

abbrev nBuf : Space → Nat
  | .hbm => 178
  | .vmem => 0
  | .smem => 0
  | _ => 0

abbrev hbmTy0_0 (i : Nat) : BufTy := match i % 128 with
  | 0 => ⟨S8x1024x1024, .f32⟩
  | 1 => ⟨S8x1024x1024, .f32⟩
  | 2 => ⟨S8x64x4, .i32⟩
  | 3 => ⟨S8x64x1, .i32⟩
  | 4 => ⟨S8x64, .i32⟩
  | 5 => ⟨S_, .i32⟩
  | 6 => ⟨S_, .i32⟩
  | 7 => ⟨S_, .i32⟩
  | 8 => ⟨S8x64, .i32⟩
  | 9 => ⟨S8x64, .i32⟩
  | 10 => ⟨S_, .i32⟩
  | 11 => ⟨S8x64, .i32⟩
  | 12 => ⟨S8x64, .i32⟩
  | 13 => ⟨S8x64x1, .i32⟩
  | 14 => ⟨S8x64, .i32⟩
  | 15 => ⟨S_, .i32⟩
  | 16 => ⟨S_, .i32⟩
  | 17 => ⟨S_, .i32⟩
  | 18 => ⟨S8x64, .i32⟩
  | 19 => ⟨S8x64, .i32⟩
  | 20 => ⟨S_, .i32⟩
  | 21 => ⟨S8x64, .i32⟩
  | 22 => ⟨S8x64, .i32⟩
  | 23 => ⟨S8x64x1, .i32⟩
  | 24 => ⟨S8x64, .i32⟩
  | 25 => ⟨S_, .i32⟩
  | 26 => ⟨S_, .i32⟩
  | 27 => ⟨S_, .i32⟩
  | 28 => ⟨S8x64, .i32⟩
  | 29 => ⟨S8x64, .i32⟩
  | 30 => ⟨S_, .i32⟩
  | 31 => ⟨S8x64, .i32⟩
  | 32 => ⟨S8x64, .i32⟩
  | 33 => ⟨S8x64x1, .i32⟩
  | 34 => ⟨S8x64, .i32⟩
  | 35 => ⟨S_, .i32⟩
  | 36 => ⟨S_, .i32⟩
  | 37 => ⟨S_, .i32⟩
  | 38 => ⟨S8x64, .i32⟩
  | 39 => ⟨S8x64, .i32⟩
  | 40 => ⟨S_, .i32⟩
  | 41 => ⟨S8x64, .i32⟩
  | 42 => ⟨S8x64, .i32⟩
  | 43 => ⟨S8, .i32⟩
  | 44 => ⟨S8x1, .i32⟩
  | 45 => ⟨S8x64, .i32⟩
  | 46 => ⟨S_, .i32⟩
  | 47 => ⟨S8x64, .i32⟩
  | 48 => ⟨S_, .i32⟩
  | 49 => ⟨S8x1025x1025, .i32⟩
  | 50 => ⟨S_, .i32⟩
  | 51 => ⟨S8x64, .i32⟩
  | 52 => ⟨S8x64, .i1⟩
  | 53 => ⟨S_, .i32⟩
  | 54 => ⟨S8x64, .i32⟩
  | 55 => ⟨S8x64, .i32⟩
  | 56 => ⟨S8x64, .i32⟩
  | 57 => ⟨S_, .i32⟩
  | 58 => ⟨S8x64, .i32⟩
  | 59 => ⟨S8x64, .i1⟩
  | 60 => ⟨S_, .i32⟩
  | 61 => ⟨S8x64, .i32⟩
  | 62 => ⟨S8x64, .i32⟩
  | 63 => ⟨S8x64, .i32⟩
  | 64 => ⟨S_, .i32⟩
  | 65 => ⟨S8x64, .i32⟩
  | 66 => ⟨S8x64, .i1⟩
  | 67 => ⟨S_, .i32⟩
  | 68 => ⟨S8x64, .i32⟩
  | 69 => ⟨S8x64, .i32⟩
  | 70 => ⟨S8x64, .i32⟩
  | 71 => ⟨S8x64x1, .i32⟩
  | 72 => ⟨S8x64x1, .i32⟩
  | 73 => ⟨S8x64x1, .i32⟩
  | 74 => ⟨S8x64x3, .i32⟩
  | 75 => ⟨S8x1025x1025, .i32⟩
  | 76 => ⟨S8x64, .i32⟩
  | 77 => ⟨S_, .i32⟩
  | 78 => ⟨S8x64, .i32⟩
  | 79 => ⟨S8x64, .i1⟩
  | 80 => ⟨S_, .i32⟩
  | 81 => ⟨S8x64, .i32⟩
  | 82 => ⟨S8x64, .i32⟩
  | 83 => ⟨S8x64, .i32⟩
  | 84 => ⟨S_, .i32⟩
  | 85 => ⟨S8x64, .i32⟩
  | 86 => ⟨S8x64, .i1⟩
  | 87 => ⟨S_, .i32⟩
  | 88 => ⟨S8x64, .i32⟩
  | 89 => ⟨S8x64, .i32⟩
  | 90 => ⟨S8x64, .i32⟩
  | 91 => ⟨S_, .i32⟩
  | 92 => ⟨S8x64, .i32⟩
  | 93 => ⟨S8x64, .i1⟩
  | 94 => ⟨S_, .i32⟩
  | 95 => ⟨S8x64, .i32⟩
  | 96 => ⟨S8x64, .i32⟩
  | 97 => ⟨S8x64, .i32⟩
  | 98 => ⟨S8x64x1, .i32⟩
  | 99 => ⟨S8x64x1, .i32⟩
  | 100 => ⟨S8x64x1, .i32⟩
  | 101 => ⟨S8x64x3, .i32⟩
  | 102 => ⟨S8x1025x1025, .i32⟩
  | 103 => ⟨S8x64, .i32⟩
  | 104 => ⟨S_, .i32⟩
  | 105 => ⟨S8x64, .i32⟩
  | 106 => ⟨S8x64, .i1⟩
  | 107 => ⟨S_, .i32⟩
  | 108 => ⟨S8x64, .i32⟩
  | 109 => ⟨S8x64, .i32⟩
  | 110 => ⟨S8x64, .i32⟩
  | 111 => ⟨S_, .i32⟩
  | 112 => ⟨S8x64, .i32⟩
  | 113 => ⟨S8x64, .i1⟩
  | 114 => ⟨S_, .i32⟩
  | 115 => ⟨S8x64, .i32⟩
  | 116 => ⟨S8x64, .i32⟩
  | 117 => ⟨S8x64, .i32⟩
  | 118 => ⟨S_, .i32⟩
  | 119 => ⟨S8x64, .i32⟩
  | 120 => ⟨S8x64, .i1⟩
  | 121 => ⟨S_, .i32⟩
  | 122 => ⟨S8x64, .i32⟩
  | 123 => ⟨S8x64, .i32⟩
  | 124 => ⟨S8x64, .i32⟩
  | 125 => ⟨S8x64x1, .i32⟩
  | 126 => ⟨S8x64x1, .i32⟩
  | 127 => ⟨S8x64x1, .i32⟩
  | _ => ⟨S8x1024x1024, .f32⟩

abbrev hbmTy0_1 (i : Nat) : BufTy := match i % 128 with
  | 0 => ⟨S8x64x3, .i32⟩
  | 1 => ⟨S8x1025x1025, .i32⟩
  | 2 => ⟨S_, .i32⟩
  | 3 => ⟨S8x64, .i32⟩
  | 4 => ⟨S8x64, .i1⟩
  | 5 => ⟨S_, .i32⟩
  | 6 => ⟨S8x64, .i32⟩
  | 7 => ⟨S8x64, .i32⟩
  | 8 => ⟨S8x64, .i32⟩
  | 9 => ⟨S_, .i32⟩
  | 10 => ⟨S8x64, .i32⟩
  | 11 => ⟨S8x64, .i1⟩
  | 12 => ⟨S_, .i32⟩
  | 13 => ⟨S8x64, .i32⟩
  | 14 => ⟨S8x64, .i32⟩
  | 15 => ⟨S8x64, .i32⟩
  | 16 => ⟨S_, .i32⟩
  | 17 => ⟨S8x64, .i32⟩
  | 18 => ⟨S8x64, .i1⟩
  | 19 => ⟨S_, .i32⟩
  | 20 => ⟨S8x64, .i32⟩
  | 21 => ⟨S8x64, .i32⟩
  | 22 => ⟨S8x64, .i32⟩
  | 23 => ⟨S8x64x1, .i32⟩
  | 24 => ⟨S8x64x1, .i32⟩
  | 25 => ⟨S8x64x1, .i32⟩
  | 26 => ⟨S8x64x3, .i32⟩
  | 27 => ⟨S8x1025x1025, .i32⟩
  | 28 => ⟨S_, .i32⟩
  | 29 => ⟨S_, .i32⟩
  | 30 => ⟨S8x1025x1025, .i32⟩
  | 31 => ⟨S_, .i32⟩
  | 32 => ⟨S_, .i32⟩
  | 33 => ⟨S8x1025x1025, .i32⟩
  | 34 => ⟨S8x1024x1024, .i32⟩
  | 35 => ⟨S_, .i32⟩
  | 36 => ⟨S8x1024x1024, .i32⟩
  | 37 => ⟨S8x1024x1024, .i1⟩
  | 38 => ⟨S_, .f32⟩
  | 39 => ⟨S_, .f32⟩
  | 40 => ⟨S8x1024x1024, .f32⟩
  | 41 => ⟨S8x1024x1024, .f32⟩
  | 42 => ⟨S8x1024x1024, .f32⟩
  | 43 => ⟨S8x1024x1024, .f32⟩
  | 44 => ⟨S_, .f32⟩
  | 45 => ⟨S8x1024x1024, .f32⟩
  | 46 => ⟨S8x1024x1024, .f32⟩
  | 47 => ⟨S_, .f32⟩
  | 48 => ⟨S8x1024x1024, .f32⟩
  | 49 => ⟨S8x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_c_2 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_3 : Ref sig .tc := ⟨.hbm, 25, rfl⟩
abbrev main_c_4 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_5 : Ref sig .tc := ⟨.hbm, 35, rfl⟩
abbrev main_c_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_7 : Ref sig .tc := ⟨.hbm, 46, rfl⟩
abbrev main_v15 : Ref sig .tc := ⟨.hbm, 47, rfl⟩
abbrev main_c_8 : Ref sig .tc := ⟨.hbm, 48, rfl⟩
abbrev main_v16 : Ref sig .tc := ⟨.hbm, 49, rfl⟩
abbrev main_c_9 : Ref sig .tc := ⟨.hbm, 50, rfl⟩
abbrev main_v17 : Ref sig .tc := ⟨.hbm, 51, rfl⟩
abbrev main_v18 : Ref sig .tc := ⟨.hbm, 52, rfl⟩
abbrev main_c_10 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c_11 : Ref sig .tc := ⟨.hbm, 57, rfl⟩
abbrev main_v22 : Ref sig .tc := ⟨.hbm, 58, rfl⟩
abbrev main_v23 : Ref sig .tc := ⟨.hbm, 59, rfl⟩
abbrev main_c_12 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c_13 : Ref sig .tc := ⟨.hbm, 64, rfl⟩
abbrev main_v27 : Ref sig .tc := ⟨.hbm, 65, rfl⟩
abbrev main_v28 : Ref sig .tc := ⟨.hbm, 66, rfl⟩
abbrev main_c_14 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_15 : Ref sig .tc := ⟨.hbm, 77, rfl⟩
abbrev main_v38 : Ref sig .tc := ⟨.hbm, 78, rfl⟩
abbrev main_v39 : Ref sig .tc := ⟨.hbm, 79, rfl⟩
abbrev main_c_16 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_17 : Ref sig .tc := ⟨.hbm, 84, rfl⟩
abbrev main_v43 : Ref sig .tc := ⟨.hbm, 85, rfl⟩
abbrev main_v44 : Ref sig .tc := ⟨.hbm, 86, rfl⟩
abbrev main_c_18 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_19 : Ref sig .tc := ⟨.hbm, 91, rfl⟩
abbrev main_v48 : Ref sig .tc := ⟨.hbm, 92, rfl⟩
abbrev main_v49 : Ref sig .tc := ⟨.hbm, 93, rfl⟩
abbrev main_c_20 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_21 : Ref sig .tc := ⟨.hbm, 104, rfl⟩
abbrev main_v59 : Ref sig .tc := ⟨.hbm, 105, rfl⟩
abbrev main_v60 : Ref sig .tc := ⟨.hbm, 106, rfl⟩
abbrev main_c_22 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_23 : Ref sig .tc := ⟨.hbm, 111, rfl⟩
abbrev main_v64 : Ref sig .tc := ⟨.hbm, 112, rfl⟩
abbrev main_v65 : Ref sig .tc := ⟨.hbm, 113, rfl⟩
abbrev main_c_24 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_25 : Ref sig .tc := ⟨.hbm, 118, rfl⟩
abbrev main_v69 : Ref sig .tc := ⟨.hbm, 119, rfl⟩
abbrev main_v70 : Ref sig .tc := ⟨.hbm, 120, rfl⟩
abbrev main_c_26 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_27 : Ref sig .tc := ⟨.hbm, 130, rfl⟩
abbrev main_v79 : Ref sig .tc := ⟨.hbm, 131, rfl⟩
abbrev main_v80 : Ref sig .tc := ⟨.hbm, 132, rfl⟩
abbrev main_c_28 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_29 : Ref sig .tc := ⟨.hbm, 137, rfl⟩
abbrev main_v84 : Ref sig .tc := ⟨.hbm, 138, rfl⟩
abbrev main_v85 : Ref sig .tc := ⟨.hbm, 139, rfl⟩
abbrev main_c_30 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_c_31 : Ref sig .tc := ⟨.hbm, 144, rfl⟩
abbrev main_v89 : Ref sig .tc := ⟨.hbm, 145, rfl⟩
abbrev main_v90 : Ref sig .tc := ⟨.hbm, 146, rfl⟩
abbrev main_c_32 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_call4_call0_c : Ref sig .tc := ⟨.hbm, 156, rfl⟩
abbrev main_call4_call0_v0 : Ref sig .tc := ⟨.hbm, 157, rfl⟩
abbrev main_v99 : Ref sig .tc := ⟨.hbm, 158, rfl⟩
abbrev main_call5_call0_c : Ref sig .tc := ⟨.hbm, 159, rfl⟩
abbrev main_call5_call0_v0 : Ref sig .tc := ⟨.hbm, 160, rfl⟩
abbrev main_v100 : Ref sig .tc := ⟨.hbm, 161, rfl⟩
abbrev main_v101 : Ref sig .tc := ⟨.hbm, 162, rfl⟩
abbrev main_c_33 : Ref sig .tc := ⟨.hbm, 163, rfl⟩
abbrev main_v102 : Ref sig .tc := ⟨.hbm, 164, rfl⟩
abbrev main_v103 : Ref sig .tc := ⟨.hbm, 165, rfl⟩
abbrev main_cst : Ref sig .tc := ⟨.hbm, 166, rfl⟩
abbrev main_cst_34 : Ref sig .tc := ⟨.hbm, 167, rfl⟩
abbrev main_call6_v0 : Ref sig .tc := ⟨.hbm, 168, rfl⟩
abbrev main_call6_v1 : Ref sig .tc := ⟨.hbm, 169, rfl⟩
abbrev main_v104 : Ref sig .tc := ⟨.hbm, 170, rfl⟩
abbrev main_v105 : Ref sig .tc := ⟨.hbm, 171, rfl⟩
abbrev main_cst_35 : Ref sig .tc := ⟨.hbm, 172, rfl⟩
abbrev main_v106 : Ref sig .tc := ⟨.hbm, 173, rfl⟩
abbrev main_v107 : Ref sig .tc := ⟨.hbm, 174, rfl⟩
abbrev main_cst_36 : Ref sig .tc := ⟨.hbm, 175, rfl⟩
abbrev main_v108 : Ref sig .tc := ⟨.hbm, 176, rfl⟩
abbrev main_v109 : Ref sig .tc := ⟨.hbm, 177, rfl⟩

abbrev nD : Nat := 1
abbrev τ : Topo := Topo.v7x

variable {F : FTy → Type} [FloatOps F]

class Facts₀ : Prop where
  slices_S8x64x4_S8x64x1_0_0_0 : S8x64x4.Slices ![0, 0, 0] S8x64x1
  shapeCasts_S8x64x1_S8x64 : S8x64x1.ShapeCasts S8x64
  bcast_S_S8x64 : S_.BroadcastsInDim S8x64 (![] : Fin 0 → Fin S8x64.rank)
  slices_S8x64x4_S8x64x1_0_0_1 : S8x64x4.Slices ![0, 0, 1] S8x64x1
  slices_S8x64x4_S8x64x1_0_0_2 : S8x64x4.Slices ![0, 0, 2] S8x64x1
  slices_S8x64x4_S8x64x1_0_0_3 : S8x64x4.Slices ![0, 0, 3] S8x64x1
  bcast_S8_S8x1_0 : S8.BroadcastsInDim S8x1 (![0] : Fin 1 → Fin S8x1.rank)
  bcast_S8x1_S8x64_0_1 : S8x1.BroadcastsInDim S8x64 (![0, 1] : Fin 2 → Fin S8x64.rank)
  bcast_S_S8x1025x1025 : S_.BroadcastsInDim S8x1025x1025 (![] : Fin 0 → Fin S8x1025x1025.rank)
  bcast_S8x64_S8x64x1_0_1 : S8x64.BroadcastsInDim S8x64x1 (![0, 1] : Fin 2 → Fin S8x64x1.rank)
  concatenates_S8x64x1_S8x64x1_S8x64x1_S8x64x3_d2 : Shape.Concatenates [S8x64x1, S8x64x1, S8x64x1] S8x64x3 2
  bcast_S_S_ : S_.BroadcastsInDim S_ (![] : Fin 0 → Fin S_.rank)
  reduceWindows_S8x1025x1025_S8x1025x1025_w1s1p0_0_w1025s1p1024_0_w1s1p0_0 : S8x1025x1025.ReduceWindows (![1, 1025, 1] : Fin 3 → Nat) ![1, 1, 1] ![0, 1024, 0] ![0, 0, 0] S8x1025x1025
  h_S_ : 0 < S_.numel
  reduceWindows_S8x1025x1025_S8x1025x1025_w1s1p0_0_w1s1p0_0_w1025s1p1024_0 : S8x1025x1025.ReduceWindows (![1, 1, 1025] : Fin 3 → Nat) ![1, 1, 1] ![0, 0, 1024] ![0, 0, 0] S8x1025x1025
  slices_S8x1025x1025_S8x1024x1024_0_0_0 : S8x1025x1025.Slices ![0, 0, 0] S8x1024x1024
  bcast_S_S8x1024x1024 : S_.BroadcastsInDim S8x1024x1024 (![] : Fin 0 → Fin S8x1024x1024.rank)
  scatter_S8x1025x1025_S8x64x3_S8x64_n_012_012_2_wf : ScatterDims.WF S8x1025x1025 S8x64x3 S8x64 [] [0, 1, 2] [0, 1, 2] 2

variable [Facts₀]

def scatter_S8x1025x1025_S8x64x3_S8x64_n_012_012_2 : ScatterDims S8x1025x1025 S8x64x3 S8x64 where
  updateWindowDims := []
  insertedWindowDims := [0, 1, 2]
  scatterDimsToOperandDims := [0, 1, 2]
  indexVectorDim := 2
  wf := scatter_S8x1025x1025_S8x64x3_S8x64_n_012_012_2_wf

class Facts : Prop extends Facts₀ where

variable [Facts]
-- ==== Proof.Spec.lean ====
/-
  What both programs compute, as one function of the argument arrays.

  A box table `bb : [8, 64, 4]` holds, for image `b` and box `n`, the corners (x1, y1, x2, y2) as signed words.
  Each corner is clamped to the image, `min 1024 (max 0 ·)`, and box `n` covers pixel (y, x) when
  y1 ≤ y < y2 and x1 ≤ x < x2 on the clamped corners. A pixel is foreground when some box covers it; its loss is
  weighted 10 there and 1 elsewhere, then scaled by 1/1048576 (the pixels of an image) and by 1/8 (the images).
-/
import Idealize.ShloMosaic.PureOps.Ideal
import Idealize.ShloMosaic.Lib.ValueIdx

noncomputable section

namespace Cert.Spec

open Idealize.ShloMosaic Idealize.ShloMosaic.ValueIdx

/-- The box table's shape. -/
abbrev SBox : Shape := ⟨3, ![8, 64, 4]⟩
/-- The images' shape. -/
abbrev SImg : Shape := ⟨3, ![8, 1024, 1024]⟩

/-- A corner coordinate, read signed and clamped to the image: min 1024 (max 0 w). -/
def clamp (w : BitVec 32) : ℕ := (min 1024 (max 0 w.toInt)).toNat

theorem clamp_le (w : BitVec 32) : clamp w ≤ 1024 := by
  unfold clamp; omega

/-- Clamping is monotone in the signed value. -/
theorem clamp_mono {v w : BitVec 32} (h : v.toInt ≤ w.toInt) : clamp v ≤ clamp w := by
  unfold clamp; omega

/-- Box `n` of image `b` covers pixel (y, x): y1 ≤ y < y2 and x1 ≤ x < x2 on the clamped corners. -/
def InBox (bb : IVec SBox 32) (b : Fin 8) (n : Fin 64) (y x : ℕ) : Prop :=
  clamp (bb (ix3 b n (1 : Fin 4))) ≤ y ∧ y < clamp (bb (ix3 b n (3 : Fin 4)))
    ∧ clamp (bb (ix3 b n (0 : Fin 4))) ≤ x ∧ x < clamp (bb (ix3 b n (2 : Fin 4)))

/-- Pixel (y, x) of image `b` is foreground: some box covers it. -/
def Covered (bb : IVec SBox 32) (b : Fin 8) (y x : ℕ) : Prop := ∃ n : Fin 64, InBox bb b n y x

/-- Every box has its corners in order: x1 ≤ x2 and y1 ≤ y2, read signed. -/
def Ordered (bb : IVec SBox 32) : Prop :=
  ∀ (b : Fin 8) (n : Fin 64),
    (bb (ix3 b n (0 : Fin 4))).toInt ≤ (bb (ix3 b n (2 : Fin 4))).toInt
      ∧ (bb (ix3 b n (1 : Fin 4))).toInt ≤ (bb (ix3 b n (3 : Fin 4))).toInt

open Classical in
/-- The result at one pixel from the loss there: weighted 10 on the foreground and 1 off it, then scaled. -/
def Gat (l : EReal) (bb : IVec SBox 32) (b : Fin 8) (y x : Fin 1024) : EReal :=
  l * (if Covered bb b y.val x.val then ((10 : ℝ) : EReal) else ((1 : ℝ) : EReal))
    * ((1 / 1048576 : ℝ) : EReal) * ((1 / 8 : ℝ) : EReal)

theorem Gat_of_covered {l : EReal} {bb : IVec SBox 32} {b : Fin 8} {y x : Fin 1024} (h : Covered bb b y.val x.val) :
    Gat l bb b y x = l * ((10 : ℝ) : EReal) * ((1 / 1048576 : ℝ) : EReal) * ((1 / 8 : ℝ) : EReal) := by
  unfold Gat; rw [if_pos h]

theorem Gat_of_not_covered {l : EReal} {bb : IVec SBox 32} {b : Fin 8} {y x : Fin 1024} (h : ¬ Covered bb b y.val x.val) :
    Gat l bb b y x = l * ((1 : ℝ) : EReal) * ((1 / 1048576 : ℝ) : EReal) * ((1 / 8 : ℝ) : EReal) := by
  unfold Gat; rw [if_neg h]

/-- The whole result array as a function of the loss array and the box table. -/
def G (loss : SImg.Idx → EReal) (bb : IVec SBox 32) : SImg.Idx → EReal :=
  fun i => Gat (loss i) bb (i 0) (i 1) (i 2)

theorem G_apply (loss : SImg.Idx → EReal) (bb : IVec SBox 32) (b : Fin 8) (y x : Fin 1024) :
    G loss bb (ix3 b y x) = Gat (loss (ix3 b y x)) bb b y x := rfl

end Cert.Spec

end
-- ==== Proof.Payload.lean ====
/-
  The kernel body's stored block read at a pixel, at the exact instance.

  The body clamps the four corner words of each of the 64 boxes to [0, 1024], forms the 0/1 matrices
  rowin[h, n] = [y1 n ≤ h < y2 n] and colin[n, w] = [x1 n ≤ w < x2 n], multiplies them (the entry at (h, w) counts
  the boxes covering the pixel), and stores loss · (1 + 9 · min(count, 1)) · 2⁻²⁰ · 2⁻³. Below: the literal words as
  reals; a clamped word's value; each layout step read at an index; each indicator entry as an `if`; the matrix
  product at an index as a sum over the boxes; and the two cases of the count.
-/
import proofs.«416528_j24180665877233_3_alg».proof.Proof.Gen.KernelIdeal.Frame
import proofs.«416528_j24180665877233_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.Payload

open Cert.KernelIdeal Cert.KernelIdeal.Gen Idealize.ShloMosaic Idealize.ShloMosaic.ValueIdx Idealize.ShloMosaic.TcCoe
open Idealize.ShloMosaic.StableHlo.Predicate
open scoped BigOperators

/-- Box `n` of the two staged box blocks covers pixel (h, w): the y corners come from rows 1 and 3 of the transposed
    block `x2 : [1, 4, 64]`, the x corners from columns 0 and 2 of the block `x1 : [1, 64, 4]`, each clamped to the image. -/
def InBoxBlk (x1 : Vec Ideal S1x64x4 .i32) (x2 : Vec Ideal S1x4x64 .i32) (n : Fin 64) (h w : ℕ) : Prop :=
  Cert.Spec.clamp (x2 (ix3 (0 : Fin 1) (1 : Fin 4) n)) ≤ h ∧ h < Cert.Spec.clamp (x2 (ix3 (0 : Fin 1) (3 : Fin 4) n))
    ∧ Cert.Spec.clamp (x1 (ix3 (0 : Fin 1) n (0 : Fin 4))) ≤ w ∧ w < Cert.Spec.clamp (x1 (ix3 (0 : Fin 1) n (2 : Fin 4)))

/-! ## The literal words: 1, 9, 1/1048576 and 1/8 -/
theorem one_bits : Ideal.ofBits .f32 0x3F800000#32 = ((1 : ℝ) : EReal) := by
  simp [Ideal.ofBits, Ideal.ieee, -EReal.coe_mul]; norm_num
theorem nine_bits : Ideal.ofBits .f32 0x41100000#32 = ((9 : ℝ) : EReal) := by
  simp [Ideal.ofBits, Ideal.ieee, -EReal.coe_mul]; norm_num
theorem invhw_bits : Ideal.ofBits .f32 0x35800000#32 = ((1 / 1048576 : ℝ) : EReal) := by
  simp [Ideal.ofBits, Ideal.ieee, -EReal.coe_mul]; norm_num
theorem invb_bits : Ideal.ofBits .f32 0x3E000000#32 = ((1 / 8 : ℝ) : EReal) := by
  simp [Ideal.ofBits, Ideal.ieee, -EReal.coe_mul]; norm_num

/-- A corner word clamped to the image: min 1024 (max 0 w), on signed words. -/
def clampWord (w : BitVec 32) : BitVec 32 := IntOp.minsi 1024#32 (IntOp.maxsi 0#32 w)

/-- Read signed, the clamped word is min 1024 (max 0 ·) of the word read signed. -/
theorem clampWord_toInt (w : BitVec 32) : (clampWord w).toInt = min 1024 (max 0 w.toInt) := by
  unfold clampWord IntOp.minsi IntOp.maxsi
  have h0 : (0#32 : BitVec 32).toInt = 0 := by decide
  have h1 : (1024#32 : BitVec 32).toInt = 1024 := by decide
  simp only [BitVec.slt, h0, h1]
  by_cases hw : w.toInt < 0
  · simp only [hw, decide_true, if_true, h0]
    simp only [show ¬ ((1024:ℤ) < 0) by omega, decide_false, if_false, h0, Bool.false_eq_true]
    omega
  · simp only [hw, decide_false, if_false, Bool.false_eq_true]
    by_cases h2 : (1024 : ℤ) < w.toInt
    · simp only [h2, decide_true, if_true, h1]; omega
    · simp only [h2, decide_false, if_false, Bool.false_eq_true]; omega

/-- It lies in [0, 1024], so read unsigned it is the specification's clamp. -/
theorem clampWord_toNat (w : BitVec 32) : (clampWord w).toNat = Cert.Spec.clamp w := by
  have h := clampWord_toInt w
  unfold Cert.Spec.clamp
  rw [← h]
  have hc := BitVec.toInt_eq_toNat_cond (clampWord w)
  have hlt := (clampWord w).isLt
  split at hc <;> omega

/-- A clamped word is far below 2³¹: signed and unsigned comparisons agree on it. -/
theorem clampWord_lt (w : BitVec 32) : (clampWord w).toNat < 2 ^ 31 := by
  rw [clampWord_toNat]; have := Cert.Spec.clamp_le w; omega

/-! ## Layout: the clamped corner vectors at an index -/

/-- The zero offsets of a whole-block rectangle of rank 3. -/
theorem hz3 : (![0, 0, 0] : Fin 3 → Nat) = fun _ => 0 := funext fun a => by fin_cases a <;> rfl

/-- [a, 1] cast to [a] reads (i, 0). -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- [a] cast to [a, 1] reads i at (i, u). -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The clamped x2 corner of box n. -/
theorem pay3_apply (v : Vec Ideal S1x64x4 .i32) (n : Fin 64) :
    k0_pay3 (F := Ideal) v (ix1 n) = clampWord (v (ix3 (0 : Fin 1) n (2 : Fin 4))) := by
  unfold k0_pay3 k0_pay2
  show IntOp.minsi 1024#32 (IntOp.maxsi 0#32 (shapeCast S64 _ _ (ix1 n))) = _
  rw [shapeCast_a1_a_apply, slice2_axis1_apply 2 _ _ n (0 : Fin 1) (2 : Fin 4) rfl, shapeCast_1ab_ab_apply]
  rfl

/-- The clamped x1 corner of box n, broadcast along the row. -/
theorem pay5_apply (v : Vec Ideal S1x64x4 .i32) (n : Fin 64) (w : Fin 1024) :
    k0_pay5 (F := Ideal) v (ix2 n w) = clampWord (v (ix3 (0 : Fin 1) n (0 : Fin 4))) := by
  unfold k0_pay5 k0_pay2
  rw [broadcastTo_a1_ab_apply, shapeCast_self, shapeCast_a_a1_apply]
  show IntOp.minsi 1024#32 (IntOp.maxsi 0#32 (shapeCast S64 _ _ (ix1 n))) = _
  rw [shapeCast_a1_a_apply, slice2_axis1_apply 0 _ _ n (0 : Fin 1) (0 : Fin 4) rfl, shapeCast_1ab_ab_apply]
  rfl

/-! ## The two indicator entries as words -/

/-- A 0/1 word read signed, as an extended real. -/
theorem bit_real (b : BitVec 1) : (((b.setWidth 32).toInt : ℝ) : EReal) = if b = 1#1 then 1 else 0 := by
  rcases BitVec.eq_zero_or_eq_one b with rfl | rfl
  · simp
  · simp

/-- The conjunction of two one-bit words is set exactly when both are. -/
theorem andi_bit_iff (x y : BitVec 1) : IntOp.andi x y = 1#1 ↔ x = 1#1 ∧ y = 1#1 := by
  rcases BitVec.eq_zero_or_eq_one x with rfl | rfl <;> rcases BitVec.eq_zero_or_eq_one y with rfl | rfl <;> decide

/-- [lo ≤ t < hi] on a pixel coordinate and two clamped words, as the 0/1 extended real the body computes. -/
theorem indicator_word (t : ℕ) (ht : t < 1024) (a b : BitVec 32) :
    ((((IntOp.andi (IntOp.cmpi .sge (BitVec.ofNat 32 t) (clampWord a)) (IntOp.cmpi .slt (BitVec.ofNat 32 t) (clampWord b))).setWidth 32).toInt : ℝ) : EReal)
      = if Cert.Spec.clamp a ≤ t ∧ t < Cert.Spec.clamp b then 1 else 0 := by
  have htn : (BitVec.ofNat 32 t).toNat = t := by
    rw [BitVec.toNat_ofNat]; exact Nat.mod_eq_of_lt (by omega)
  have ht31 : (BitVec.ofNat 32 t).toNat < 2 ^ 31 := by rw [htn]; omega
  have hge := sge_iff_toNat (a := BitVec.ofNat 32 t) (b := clampWord a) ht31 (clampWord_lt a)
  have hlt := slt_iff_toNat (a := BitVec.ofNat 32 t) (b := clampWord b) ht31 (clampWord_lt b)
  rw [htn, clampWord_toNat] at hge hlt
  rw [bit_real]
  exact if_congr ((andi_bit_iff _ _).trans (and_congr hge hlt)) rfl rfl

/-- rowin[h, n]: the 0/1 entry "box n's clamped y-range holds row h". -/
theorem pay4_apply (v : Vec Ideal S1x4x64 .i32) (h : Fin 1024) (n : Fin 64) :
    k0_pay4 (F := Ideal) v (ix2 h n)
      = if Cert.Spec.clamp (v (ix3 (0 : Fin 1) (1 : Fin 4) n)) ≤ h.val ∧ h.val < Cert.Spec.clamp (v (ix3 (0 : Fin 1) (3 : Fin 4) n))
        then (1 : EReal) else 0 := by
  unfold k0_pay4
  rw [truncf_apply, sitofp_apply]
  show ((((IntOp.andi (IntOp.cmpi .sge (iota .tc S1024x64 32 [0] _ (ix2 h n)) (broadcastTo S1024x64 _ _ (ix2 h n)))
    (IntOp.cmpi .slt (iota .tc S1024x64 32 [0] _ (ix2 h n)) (broadcastTo S1024x64 _ _ (ix2 h n)))).setWidth 32).toInt : ℝ) : EReal) = _
  rw [iota_single_apply, broadcastTo_1b_ab_apply, broadcastTo_1b_ab_apply, shapeCast_self, shapeCast_self,
    shapeCast_a_1a_apply, shapeCast_a_1a_apply]
  show ((((IntOp.andi (IntOp.cmpi .sge (BitVec.ofNat 32 h.val) (clampWord (shapeCast S64 _ _ (ix1 n))))
    (IntOp.cmpi .slt (BitVec.ofNat 32 h.val) (clampWord (shapeCast S64 _ _ (ix1 n))))).setWidth 32).toInt : ℝ) : EReal) = _
  rw [shapeCast_1a_a_apply, shapeCast_1a_a_apply,
    slice2_axis0_apply 1 _ _ (0 : Fin 1) n (1 : Fin 4) rfl, slice2_axis0_apply 3 _ _ (0 : Fin 1) n (3 : Fin 4) rfl,
    shapeCast_1ab_ab_apply, shapeCast_1ab_ab_apply]
  exact indicator_word h.val h.isLt _ _

/-! ## The count: the matmul of the two indicator matrices at a pixel -/

/-- The left operand's index at output index j and contraction index k: row (j 0), column k … -/
theorem lhs_ax0 (j : S1024x1024.Idx) (k : dot_S1024x64_S64x1024_S1024x1024_1_0_0_1_n_n.contr.Idx) :
    (dot_S1024x64_S64x1024_S1024x1024_1_0_0_1_n_n.lhsIdx j k 0 : ℕ) = j 0 := by
  simp [DotDims.lhsIdx, dot_S1024x64_S64x1024_S1024x1024_1_0_0_1_n_n]; rfl
theorem lhs_ax1 (j : S1024x1024.Idx) (k : dot_S1024x64_S64x1024_S1024x1024_1_0_0_1_n_n.contr.Idx) :
    (dot_S1024x64_S64x1024_S1024x1024_1_0_0_1_n_n.lhsIdx j k 1 : ℕ) = k ⟨0, by decide⟩ :=
  dot_S1024x64_S64x1024_S1024x1024_1_0_0_1_n_n.lhsIdx_val_of_single (cl := 1) rfl j k
/-- … and the right operand's: row k, column (j 1). -/
theorem rhs_ax0 (j : S1024x1024.Idx) (k : dot_S1024x64_S64x1024_S1024x1024_1_0_0_1_n_n.contr.Idx) :
    (dot_S1024x64_S64x1024_S1024x1024_1_0_0_1_n_n.rhsIdx j k 0 : ℕ) = k ⟨0, by decide⟩ :=
  dot_S1024x64_S64x1024_S1024x1024_1_0_0_1_n_n.rhsIdx_val_of_single (cr := 0) rfl j k
theorem rhs_ax1 (j : S1024x1024.Idx) (k : dot_S1024x64_S64x1024_S1024x1024_1_0_0_1_n_n.contr.Idx) :
    (dot_S1024x64_S64x1024_S1024x1024_1_0_0_1_n_n.rhsIdx j k 1 : ℕ) = j 1 := by
  simp [DotDims.rhsIdx, dot_S1024x64_S64x1024_S1024x1024_1_0_0_1_n_n]; rfl

/-- The product of a [1024, 64] by a [64, 1024] matrix into the zero accumulator, read at (h, w), is the sum over
    the 64 contracted positions of the products of the entries. -/
theorem count_apply (A : FVec Ideal S1024x64 .bf16) (B : FVec Ideal S64x1024 .bf16) (h w : Fin 1024) :
    matmul dot_S1024x64_S64x1024_S1024x1024_1_0_0_1_n_n none A B (constant (F := Ideal) S1024x1024 .f32 0x00000000#32) (ix2 h w)
      = ∑ n : Fin 64, A (ix2 h n) * B (ix2 n w) := by
  show FloatOps.matmul _ none A B _ (ix2 h w) = _
  rw [Ideal.matmul_constant_zero_apply,
    ← Equiv.sum_comp (contrEquiv1 dot_S1024x64_S64x1024_S1024x1024_1_0_0_1_n_n 64 rfl rfl).symm]
  refine Finset.sum_congr rfl fun n _ => ?_
  have c := contrEquiv1_symm_val dot_S1024x64_S64x1024_S1024x1024_1_0_0_1_n_n 64 rfl rfl n
  have l : dot_S1024x64_S64x1024_S1024x1024_1_0_0_1_n_n.lhsIdx (ix2 h w)
      ((contrEquiv1 dot_S1024x64_S64x1024_S1024x1024_1_0_0_1_n_n 64 rfl rfl).symm n) = ix2 h n := by
    funext ax; apply Fin.ext
    match ax with
    | ⟨0, _⟩ => exact lhs_ax0 _ _
    | ⟨1, _⟩ => exact (lhs_ax1 _ _).trans c
  have r : dot_S1024x64_S64x1024_S1024x1024_1_0_0_1_n_n.rhsIdx (ix2 h w)
      ((contrEquiv1 dot_S1024x64_S64x1024_S1024x1024_1_0_0_1_n_n 64 rfl rfl).symm n) = ix2 n w := by
    funext ax; apply Fin.ext
    match ax with
    | ⟨0, _⟩ => exact (rhs_ax0 _ _).trans c
    | ⟨1, _⟩ => exact rhs_ax1 _ _
  rw [l, r]

/-! ## The stored payload at a pixel -/

/-- The body's arithmetic at pixel (h, w): the loss there times 1 + 9·min(count, 1), times the two scale words; the
    count is the sum over the boxes of rowin[h, n] times the 0/1 word colin[n, w]. -/
theorem pay1_apply (v13 : IVec S64 32) (v40 : FVec Ideal S1024x64 .bf16) (v41 v44 : IVec S64x1024 32)
    (v61 : Vec Ideal S1x1024x1024 .f32) (h w : Fin 1024) :
    k0_pay1 (F := Ideal) v13 v40 v41 v44 v61 (ix3 (0 : Fin 1) h w)
      = v61 (ix3 (0 : Fin 1) h w)
          * (Ideal.ofBits .f32 0x3F800000#32 + Ideal.ofBits .f32 0x41100000#32
              * min (∑ n : Fin 64, v40 (ix2 h n)
                  * ((((IntOp.andi (IntOp.cmpi .sge (v41 (ix2 n w)) (v44 (ix2 n w)))
                        (IntOp.cmpi .slt (v41 (ix2 n w)) (v13 (ix1 n)))).setWidth 32).toInt : ℝ) : EReal))
                (Ideal.ofBits .f32 0x3F800000#32))
          * Ideal.ofBits .f32 0x35800000#32 * Ideal.ofBits .f32 0x3E000000#32 := by
  unfold k0_pay1
  rw [shapeCast_ab_1ab_apply]
  simp only [mulf_apply, addf_apply, minimumf_apply, broadcast_apply]
  rw [shapeCast_1ab_ab_apply, count_apply]
  simp only [Ideal.ofBits_def]
  refine congrArg (fun s => v61 (ix3 (0 : Fin 1) h w) * (Ideal.ofBits .f32 0x3F800000#32 + Ideal.ofBits .f32 0x41100000#32
      * min s (Ideal.ofBits .f32 0x3F800000#32)) * Ideal.ofBits .f32 0x35800000#32 * Ideal.ofBits .f32 0x3E000000#32)
    (Finset.sum_congr rfl fun n _ => congrArg (v40 (ix2 h n) * ·) ?_)
  rw [truncf_apply, sitofp_apply]
  show ((((IntOp.andi (IntOp.cmpi .sge (v41 (ix2 n w)) (v44 (ix2 n w)))
      (IntOp.cmpi .slt (v41 (ix2 n w)) (broadcastTo S64x1024 _ _ (ix2 n w)))).setWidth 32).toInt : ℝ) : EReal) = _
  rw [broadcastTo_a1_ab_apply, shapeCast_self, shapeCast_a_a1_apply]

/-! ## Counting the covering boxes -/

/-- Box n's boxTerm of the count at pixel (h, w): the product of its row entry and its column entry. -/
def boxTerm (x1 : Vec Ideal S1x64x4 .i32) (x2 : Vec Ideal S1x4x64 .i32) (n : Fin 64) (h w : ℕ) : EReal :=
  (if Cert.Spec.clamp (x2 (ix3 (0 : Fin 1) (1 : Fin 4) n)) ≤ h ∧ h < Cert.Spec.clamp (x2 (ix3 (0 : Fin 1) (3 : Fin 4) n))
      then (1 : EReal) else 0)
    * (if Cert.Spec.clamp (x1 (ix3 (0 : Fin 1) n (0 : Fin 4))) ≤ w ∧ w < Cert.Spec.clamp (x1 (ix3 (0 : Fin 1) n (2 : Fin 4)))
      then (1 : EReal) else 0)

/-- A covering box contributes 1 … -/
theorem boxTerm_eq_one {x1 : Vec Ideal S1x64x4 .i32} {x2 : Vec Ideal S1x4x64 .i32} {n : Fin 64} {h w : ℕ}
    (hb : InBoxBlk x1 x2 n h w) : boxTerm x1 x2 n h w = 1 := by
  unfold boxTerm
  rw [if_pos ⟨hb.1, hb.2.1⟩, if_pos ⟨hb.2.2.1, hb.2.2.2⟩, one_mul]

/-- … and any other box 0. -/
theorem boxTerm_eq_zero {x1 : Vec Ideal S1x64x4 .i32} {x2 : Vec Ideal S1x4x64 .i32} {n : Fin 64} {h w : ℕ}
    (hb : ¬ InBoxBlk x1 x2 n h w) : boxTerm x1 x2 n h w = 0 := by
  unfold boxTerm
  by_cases hy : Cert.Spec.clamp (x2 (ix3 (0 : Fin 1) (1 : Fin 4) n)) ≤ h ∧ h < Cert.Spec.clamp (x2 (ix3 (0 : Fin 1) (3 : Fin 4) n))
  · rw [if_pos hy, if_neg (fun hx => hb ⟨hy.1, hy.2, hx.1, hx.2⟩), mul_zero]
  · rw [if_neg hy, zero_mul]

theorem boxTerm_nonneg (x1 : Vec Ideal S1x64x4 .i32) (x2 : Vec Ideal S1x4x64 .i32) (n : Fin 64) (h w : ℕ) :
    0 ≤ boxTerm x1 x2 n h w := by
  by_cases hb : InBoxBlk x1 x2 n h w
  · rw [boxTerm_eq_one hb]; exact zero_le_one
  · rw [boxTerm_eq_zero hb]

/-! ## The stored block at a pixel -/

/-- The stored block at pixel (h, w): the loss there times 1 + 9·min(count, 1), scaled; the count is the sum of the
    boxes' terms. -/
theorem out_eq (x0 : Vec Ideal S1x1024x1024 .f32) (x1 : Vec Ideal S1x64x4 .i32) (x2 : Vec Ideal S1x4x64 .i32) (h w : Fin 1024) :
    out0_3 (F := Ideal) x0 x1 x2 (ix3 (0 : Fin 1) h w)
      = x0 (ix3 (0 : Fin 1) h w)
          * (((1 : ℝ) : EReal) + ((9 : ℝ) : EReal) * min (∑ n : Fin 64, boxTerm x1 x2 n h.val w.val) ((1 : ℝ) : EReal))
          * ((1 / 1048576 : ℝ) : EReal) * ((1 / 8 : ℝ) : EReal) := by
  unfold out0_3
  rw [View.canon_unit_zero hz3]
  simp only [View.ld_unit_zero (S := S1x64x4) hz3, View.ld_unit_zero (S := S1x4x64) hz3,
    View.ld_unit_zero (S := S1x1024x1024) hz3]
  rw [pay1_apply, one_bits, nine_bits, invhw_bits, invb_bits]
  refine congrArg (fun s => x0 (ix3 (0 : Fin 1) h w) * (((1 : ℝ) : EReal) + ((9 : ℝ) : EReal) * min s ((1 : ℝ) : EReal))
      * ((1 / 1048576 : ℝ) : EReal) * ((1 / 8 : ℝ) : EReal)) (Finset.sum_congr rfl fun n _ => ?_)
  rw [pay4_apply, iota_single_apply, pay5_apply, pay3_apply]
  show _ * ((((IntOp.andi (IntOp.cmpi .sge (BitVec.ofNat 32 w.val) (clampWord _)) (IntOp.cmpi .slt (BitVec.ofNat 32 w.val) (clampWord _))).setWidth 32).toInt : ℝ) : EReal) = _
  rw [indicator_word w.val w.isLt]
  rfl

/-- WHERE SOME BOX COVERS the pixel, the body's stored block holds the loss there times 10, scaled by 1/1048576 and 1/8:
    the matmul of the two 0/1 indicator matrices counts the covering boxes, `min(count, 1)` is 1, and 1 + 9·1 = 10. -/
theorem out_covered (x0 : Vec Ideal S1x1024x1024 .f32) (x1 : Vec Ideal S1x64x4 .i32) (x2 : Vec Ideal S1x4x64 .i32)
    (h w : Fin 1024) (hc : ∃ n : Fin 64, InBoxBlk x1 x2 n h.val w.val) :
    out0_3 (F := Ideal) x0 x1 x2 (ix3 (0 : Fin 1) h w)
      = x0 (ix3 (0 : Fin 1) h w) * ((10 : ℝ) : EReal) * ((1 / 1048576 : ℝ) : EReal) * ((1 / 8 : ℝ) : EReal) := by
  obtain ⟨n, hn⟩ := hc
  have hmin : min (∑ n : Fin 64, boxTerm x1 x2 n h.val w.val) ((1 : ℝ) : EReal) = ((1 : ℝ) : EReal) := by
    refine min_eq_right ?_
    calc ((1 : ℝ) : EReal) = boxTerm x1 x2 n h.val w.val := by rw [boxTerm_eq_one hn]; rfl
      _ ≤ ∑ n : Fin 64, boxTerm x1 x2 n h.val w.val :=
        Finset.single_le_sum (f := fun n => boxTerm x1 x2 n h.val w.val) (fun i _ => boxTerm_nonneg x1 x2 i h.val w.val) (Finset.mem_univ n)
  have h10 : ((1 : ℝ) : EReal) + ((9 : ℝ) : EReal) * ((1 : ℝ) : EReal) = ((10 : ℝ) : EReal) := by
    rw [← EReal.coe_mul, ← EReal.coe_add]; norm_num
  rw [out_eq, hmin, h10]

/-- WHERE NO BOX COVERS the pixel the count is 0, `min(0, 1) = 0`, and the weight is 1 + 9·0 = 1. -/
theorem out_not_covered (x0 : Vec Ideal S1x1024x1024 .f32) (x1 : Vec Ideal S1x64x4 .i32) (x2 : Vec Ideal S1x4x64 .i32)
    (h w : Fin 1024) (hc : ¬ ∃ n : Fin 64, InBoxBlk x1 x2 n h.val w.val) :
    out0_3 (F := Ideal) x0 x1 x2 (ix3 (0 : Fin 1) h w)
      = x0 (ix3 (0 : Fin 1) h w) * ((1 : ℝ) : EReal) * ((1 / 1048576 : ℝ) : EReal) * ((1 / 8 : ℝ) : EReal) := by
  have hsum : ∑ n : Fin 64, boxTerm x1 x2 n h.val w.val = 0 :=
    Finset.sum_eq_zero fun n _ => boxTerm_eq_zero fun hb => hc ⟨n, hb⟩
  have hmin : min (0 : EReal) ((1 : ℝ) : EReal) = 0 := min_eq_left (by rw [EReal.coe_one]; exact zero_le_one)
  rw [out_eq, hsum, hmin, mul_zero, add_zero]

end Cert.KernelIdeal.Payload

end
-- ==== Proof.KernelValue.lean ====
/-
  The idealized kernel's run with its result array named: from blocks to the whole array.
-/
import proofs.«416528_j24180665877233_3_alg».proof.Proof.Gen.KernelIdeal.Value
import proofs.«416528_j24180665877233_3_alg».proof.Proof.Payload
import proofs.«416528_j24180665877233_3_alg».proof.Proof.Spec
import Idealize.ShloMosaic.Lib.Pipeline.Value
import Idealize.ShloMosaic.Lib.ValueIdx
import Idealize.ShloMosaic.Lib.StableHlo.Run

noncomputable section

namespace Cert.KernelIdeal.KV

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-! ## Where each window's block sits at a grid point -/

/-- At grid point `t` every one of the four windows has block index (t, 0, 0): the block is image `t`, whole on the
    other two axes. The grid has 8 points, so this is a finite check. -/
theorem index_at_point : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The grid has 8 points, one per image. -/
theorem grid_points : cfg0.N = 8 := N_0

/-- The image grid point `t` works on: image `t`. -/
def img (t : Fin cfg0.N) : Fin 8 := ⟨t.val, t.isLt.trans_eq grid_points⟩

/-! ## The input blocks as entries of the argument arrays

  A block's array coordinate on an axis is (block index) × (block size) + 1 × (coordinate inside the block); with block
  index (t, 0, 0) and blocks of extent 1 on the image axis and whole on the others, entry (0, a, b) of a block is entry
  (t, a, b) of its array. -/

/-- Entry (0, h, w) of the loss block at point `t` is the loss array at (t, h, w). -/
theorem loss_block_apply (c : Dev nD) (t : Fin cfg0.N) (h w : Fin 1024) :
    (iblk m c 0 t : Vec Ideal S1x1024x1024 .f32) (ix3 (0 : Fin 1) h w)
      = (m ((c : Thread nD τ).loc main_arg0) : S8x1024x1024.Idx → EReal) (ix3 (img t) h w) := by
  obtain ⟨⟨e0, e1, e2⟩, -⟩ := index_at_point t
  unfold iblk
  rw [View.read_apply]
  show V m c main_arg0 _ = _
  rw [V_main_arg0]
  congr 1
  funext a
  apply Fin.ext
  match a with
  | ⟨0, _⟩ => show win0_0.index t (0 : Fin 3) * 1 + 1 * (0 : Fin 1).val = t.val; rw [e0]; simp
  | ⟨1, _⟩ => show win0_0.index t (1 : Fin 3) * 1024 + 1 * h.val = h.val; rw [e1]; omega
  | ⟨2, _⟩ => show win0_0.index t (2 : Fin 3) * 1024 + 1 * w.val = w.val; rw [e2]; omega

/-- Entry (0, n, k) of the box block at point `t` is the box table at (t, n, k). -/
theorem box_block_apply (c : Dev nD) (t : Fin cfg0.N) (n : Fin 64) (k : Fin 4) :
    (iblk m c 1 t : Vec Ideal S1x64x4 .i32) (ix3 (0 : Fin 1) n k)
      = (m ((c : Thread nD τ).loc main_arg2) : S8x64x4.Idx → BitVec 32) (ix3 (img t) n k) := by
  obtain ⟨-, ⟨e0, e1, e2⟩, -⟩ := index_at_point t
  unfold iblk
  rw [View.read_apply]
  show V m c main_arg2 _ = _
  rw [V_main_arg2]
  congr 1
  funext a
  apply Fin.ext
  match a with
  | ⟨0, _⟩ => show win0_1.index t (0 : Fin 3) * 1 + 1 * (0 : Fin 1).val = t.val; rw [e0]; simp
  | ⟨1, _⟩ => show win0_1.index t (1 : Fin 3) * 64 + 1 * n.val = n.val; rw [e1]; omega
  | ⟨2, _⟩ => show win0_1.index t (2 : Fin 3) * 4 + 1 * k.val = k.val; rw [e2]; omega

/-- When the grid starts, the third window's array holds the box table with its last two axes exchanged: the one
    operation of the program before the grid writes exactly that. -/
theorem transposed_boxes (c : Dev nD) :
    (V m c main_v0 : S8x4x64.Idx → BitVec 32)
      = transpose S8x4x64 [0, 2, 1] (m ((c : Thread nD τ).loc main_arg2)) transposes_S8x64x4_S8x4x64_0_2_1 := by
  dsimp only [Gen.V, Gen.hostOps0]; after_results

/-- Entry (0, k, n) of the transposed box block at point `t` is the box table at (t, n, k): the transposed array at
    (t, k, n) is the table at the index whose axes 1 and 2 are exchanged. -/
theorem boxT_block_apply (c : Dev nD) (t : Fin cfg0.N) (k : Fin 4) (n : Fin 64) :
    (iblk m c 2 t : Vec Ideal S1x4x64 .i32) (ix3 (0 : Fin 1) k n)
      = (m ((c : Thread nD τ).loc main_arg2) : S8x64x4.Idx → BitVec 32) (ix3 (img t) n k) := by
  obtain ⟨-, -, ⟨e0, e1, e2⟩, -⟩ := index_at_point t
  unfold iblk
  rw [View.read_apply]
  show V m c main_v0 _ = _
  rw [transposed_boxes]
  refine transpose_apply _ _ _ _ _ (fun b => ?_)
  match b with
  | ⟨0, _⟩ => show t.val = win0_2.index t (0 : Fin 3) * 1 + 1 * (0 : Fin 1).val; rw [e0]; simp
  | ⟨1, _⟩ => show k.val = win0_2.index t (1 : Fin 3) * 4 + 1 * k.val; rw [e1]; omega
  | ⟨2, _⟩ => show n.val = win0_2.index t (2 : Fin 3) * 64 + 1 * n.val; rw [e2]; omega

/-- So box `n` of the two staged box blocks at point `t` covers a pixel exactly when box `n` of image `t` does: the
    four corners read from the blocks are the four corners of the table's row (t, n). -/
theorem inBoxBlk_iff (c : Dev nD) (t : Fin cfg0.N) (n : Fin 64) (h w : ℕ) :
    Payload.InBoxBlk (iblk m c 1 t) (iblk m c 2 t) n h w
      ↔ Cert.Spec.InBox (m ((c : Thread nD τ).loc main_arg2)) (img t) n h w := by
  unfold Payload.InBoxBlk Cert.Spec.InBox
  rw [boxT_block_apply m c t 1 n, boxT_block_apply m c t 3 n, box_block_apply m c t n 0, box_block_apply m c t n 2]

/-! ## What a grid point writes back -/

/-- Entry (0, h, w) of the result block at point `t` is entry (t, h, w) of the result array. -/
theorem result_block_emb (t : Fin cfg0.N) (h w : Fin 1024) :
    ((cfg0.win 3).blk t).view.emb (ix3 (0 : Fin 1) h w) = (ix3 (img t) h w : S8x1024x1024.Idx) := by
  obtain ⟨-, -, -, ⟨e0, e1, e2⟩⟩ := index_at_point t
  funext a
  apply Fin.ext
  match a with
  | ⟨0, _⟩ => show win0_3.index t (0 : Fin 3) * 1 + 1 * (0 : Fin 1).val = t.val; rw [e0]; simp
  | ⟨1, _⟩ => show win0_3.index t (1 : Fin 3) * 1024 + 1 * h.val = h.val; rw [e1]; omega
  | ⟨2, _⟩ => show win0_3.index t (2 : Fin 3) * 1024 + 1 * w.val = w.val; rw [e2]; omega

/-- Grid point `t` writes back image `t` of `Spec.G`: at pixel (h, w) the body leaves the loss there times 10 when some
    box of the staged blocks covers the pixel and times 1 otherwise, then scaled; the staged blocks' boxes are image
    `t`'s, and the staged loss is image `t`'s, so this is `Spec.Gat` at (t, h, w). -/
theorem flushed_eq (c : Dev nD) (t : Fin cfg0.N) :
    (dats m 0 c).flushed 3 t = ((cfg0.win 3).blk t).view.read (Elt Ideal)
      (Cert.Spec.G (m ((c : Thread nD τ).loc main_arg0)) (m ((c : Thread nD τ).loc main_arg2))) := by
  rw [Cert.KernelIdeal.Value.flushed3]
  funext y
  obtain ⟨a, h, w, rfl⟩ : ∃ (a : Fin 1) (h w : Fin 1024), y = ix3 a h w := ⟨y 0, y 1, y 2, eq_ix3 y⟩
  obtain rfl : a = 0 := Subsingleton.elim _ _
  show out0_3 (iblk m c 0 t) (iblk m c 1 t) (iblk m c 2 t) (ix3 (0 : Fin 1) h w)
      = Cert.Spec.G (m ((c : Thread nD τ).loc main_arg0)) (m ((c : Thread nD τ).loc main_arg2))
          (((cfg0.win 3).blk t).view.emb (ix3 (0 : Fin 1) h w))
  rw [result_block_emb, Cert.Spec.G_apply]
  by_cases hc : Cert.Spec.Covered (m ((c : Thread nD τ).loc main_arg2)) (img t) h.val w.val
  · have hb : ∃ n : Fin 64, Payload.InBoxBlk (iblk m c 1 t) (iblk m c 2 t) n h.val w.val := by
      obtain ⟨n, hn⟩ := hc
      exact ⟨n, (inBoxBlk_iff m c t n _ _).mpr hn⟩
    refine (Payload.out_covered _ _ _ h w hb).trans ?_
    rw [Cert.Spec.Gat_of_covered hc, loss_block_apply]
  · have hb : ¬ ∃ n : Fin 64, Payload.InBoxBlk (iblk m c 1 t) (iblk m c 2 t) n h.val w.val := by
      rintro ⟨n, hn⟩
      exact hc ⟨n, (inBoxBlk_iff m c t n _ _).mp hn⟩
    refine (Payload.out_not_covered _ _ _ h w hb).trans ?_
    rw [Cert.Spec.Gat_of_not_covered hc, loss_block_apply]

/-! ## The blocks cover the array -/

/-- An index of the result array is in point `t`'s block iff each coordinate is in the block's range on its axis. -/
theorem mem_blk (t : Fin cfg0.N) (i : S8x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v1).slice (win0_3.rect t)).set ↔ _
  rw [View.set_slice_whole, Rect.mem_set_unit]
  exact Iff.rfl

/-- Every index (b, h, w) of the result array is in the block of the point that works on image `b`. -/
theorem cover (i : S8x1024x1024.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1024 := (i 2).isLt
  obtain ⟨t, ht⟩ : ∃ t : Fin cfg0.N, t.val = (i 0).val := ⟨⟨(i 0).val, hi0.trans_eq grid_points.symm⟩, rfl⟩
  obtain ⟨-, -, -, ⟨e0, e1, e2⟩⟩ := index_at_point t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-! ## The result array, and the run -/

/-- After the region the result array is `Spec.G` of the loss array and the box table: grid point `t` writes image `t`,
    whose pixel (h, w) is the body's block at (0, h, w) of image `t`'s loss block, box block and transposed box block. -/
theorem final (c : Dev nD) :
    (dats m 0 c).arrAt 3 cfg0.N
      = Cert.Spec.G (m ((c : Thread nD τ).loc main_arg0)) (m ((c : Thread nD τ).loc main_arg2)) :=
  (dats m 0 c).arrAt_eq_of_cover 3
    (Cert.Spec.G (m ((c : Thread nD τ).loc main_arg0)) (m ((c : Thread nD τ).loc main_arg2)))
    (fun t _ => flushed_eq m c t) cover

/-- The idealized kernel's run: the result at `Spec.G`, the three arguments unchanged. -/
theorem run : θ_run defs (onTc (τ := τ) (main (F := Ideal))) ⟨m, fun _ => 0, ρ⟩ fun r => ∀ c : Dev nD,
      r.2.mem ((c : Thread nD τ).loc main_v1)
          = Cert.Spec.G (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.KV

end
-- ==== Proof.RefTerm.lean ====
/-
  The reference's result as one pure term of its argument arrays, operation by operation.

  The four corner columns of the box table are clamped to [0, 1024]; a zero array of [8, 1025, 1025] words takes
  +1 at (b, y1, x1), −1 at (b, y1, x2), −1 at (b, y2, x1) and +1 at (b, y2, x2) for every box (four integer
  scatter-adds whose index triples are the image number and two clamped corners, each passed through jnp's wrap of a
  negative index); the running sum down the rows and then along the columns, cut back to [8, 1024, 1024], is the
  number of boxes over each pixel; where it is positive the loss is weighted 10, elsewhere 1, and the product is
  divided by 1048576 and by 8.
-/
import proofs.«416528_j24180665877233_3_alg».proof.ReferenceIdeal

noncomputable section

namespace Cert.ReferenceIdeal.RefTerm

open Idealize.ShloMosaic Cert.ReferenceIdeal

variable {F : FTy → Type} [FloatOps F] [Facts]
open Facts₀ Facts

/-- A word laid over the [8, 64] table of boxes. -/
def splat (w : BitVec 32) : IVec S8x64 32 := broadcastInDim S8x64 ![] bcast_S_S8x64 (constantI S_ 32 w)

/-- jnp.clip(·, 0, 1024): the larger of 0 and the word, then the smaller of 1024 and that. -/
def clip (x : IVec S8x64 32) : IVec S8x64 32 := minsi (splat 1024#32) (maxsi (splat 0#32) x)

/-- Column 0 of the box table (x1), as an [8, 64] table. -/
def col0 (bb : IVec S8x64x4 32) : IVec S8x64 32 :=
  shapeCast S8x64 (extractStridedSlice S8x64x1 ![0, 0, 0] bb slices_S8x64x4_S8x64x1_0_0_0) shapeCasts_S8x64x1_S8x64
/-- Column 1 (y1). -/
def col1 (bb : IVec S8x64x4 32) : IVec S8x64 32 :=
  shapeCast S8x64 (extractStridedSlice S8x64x1 ![0, 0, 1] bb slices_S8x64x4_S8x64x1_0_0_1) shapeCasts_S8x64x1_S8x64
/-- Column 2 (x2). -/
def col2 (bb : IVec S8x64x4 32) : IVec S8x64 32 :=
  shapeCast S8x64 (extractStridedSlice S8x64x1 ![0, 0, 2] bb slices_S8x64x4_S8x64x1_0_0_2) shapeCasts_S8x64x1_S8x64
/-- Column 3 (y2). -/
def col3 (bb : IVec S8x64x4 32) : IVec S8x64 32 :=
  shapeCast S8x64 (extractStridedSlice S8x64x1 ![0, 0, 3] bb slices_S8x64x4_S8x64x1_0_0_3) shapeCasts_S8x64x1_S8x64

/-- The clamped corners. -/
def x1c (bb : IVec S8x64x4 32) : IVec S8x64 32 := clip (col0 bb)
def y1c (bb : IVec S8x64x4 32) : IVec S8x64 32 := clip (col1 bb)
def x2c (bb : IVec S8x64x4 32) : IVec S8x64 32 := clip (col2 bb)
def y2c (bb : IVec S8x64x4 32) : IVec S8x64 32 := clip (col3 bb)

/-- The image number of each box: an iota over the 8 images laid along the boxes. -/
def bidx : IVec S8x64 32 :=
  broadcastInDim S8x64 ![0, 1] bcast_S8x1_S8x64_0_1 (broadcastInDim S8x1 ![0] bcast_S8_S8x1_0 (iotaInDim S8 32 0))

/-- jnp's wrap of a negative index on an axis of extent `n`: `i + n` where `i < 0`, else `i`. -/
def wrap (n : BitVec 32) (x : IVec S8x64 32) : IVec S8x64 32 :=
  select (cmpi .slt x (splat 0#32)) (addi x (splat n)) x

/-- The update +1 for every box. -/
def ones : IVec S8x64 32 := splat 1#32

/-- An [8, 64] table as an [8, 64, 1] column of index components. -/
def comp (x : IVec S8x64 32) : IVec S8x64x1 32 := broadcastInDim S8x64x1 ![0, 1] bcast_S8x64_S8x64x1_0_1 x

/-- The scatter indices (image, row, column) of one corner of every box. -/
def corner (ys xs : IVec S8x64 32) : IVec S8x64x3 32 :=
  concatenate S8x64x3 2 [⟨S8x64x1, comp (wrap 8#32 bidx)⟩, ⟨S8x64x1, comp (wrap 1025#32 ys)⟩, ⟨S8x64x1, comp (wrap 1025#32 xs)⟩]
    concatenates_S8x64x1_S8x64x1_S8x64x1_S8x64x3_d2

/-- One scatter-add: `acc.at[b, ys, xs].add(upd)`. -/
def scat (acc : IVec S8x1025x1025 32) (ys xs upd : IVec S8x64 32) : IVec S8x1025x1025 32 :=
  Host.scatter scatter_S8x1025x1025_S8x64x3_S8x64_n_012_012_2 IntOp.addi acc (corner ys xs) upd

/-- The zero difference array. -/
def zeros : IVec S8x1025x1025 32 := broadcastInDim S8x1025x1025 ![] bcast_S_S8x1025x1025 (constantI S_ 32 0#32)

/-- The difference array: ±1 at the four corners of every box. -/
def diff (bb : IVec S8x64x4 32) : IVec S8x1025x1025 32 :=
  scat (scat (scat (scat zeros (y1c bb) (x1c bb) ones) (y1c bb) (x2c bb) (negi ones)) (y2c bb) (x1c bb) (negi ones))
    (y2c bb) (x2c bb) ones

/-- The running sums' initial value, zero. -/
def zero0 : IVec S_ 32 := broadcastInDim S_ ![] bcast_S_S_ (constantI S_ 32 0#32)

/-- jnp.cumsum along axis 1 (down the rows). -/
def cum1 (x : IVec S8x1025x1025 32) : IVec S8x1025x1025 32 :=
  Host.reduceWindow IntOp.addi ![1, 1025, 1] ![1, 1, 1] ![0, 1024, 0] ![0, 0, 0] x zero0
    reduceWindows_S8x1025x1025_S8x1025x1025_w1s1p0_0_w1025s1p1024_0_w1s1p0_0 h_S_

/-- jnp.cumsum along axis 2 (along the columns). -/
def cum2 (x : IVec S8x1025x1025 32) : IVec S8x1025x1025 32 :=
  Host.reduceWindow IntOp.addi ![1, 1, 1025] ![1, 1, 1] ![0, 0, 1024] ![0, 0, 0] x zero0
    reduceWindows_S8x1025x1025_S8x1025x1025_w1s1p0_0_w1s1p0_0_w1025s1p1024_0 h_S_

/-- The number of boxes over each pixel, as a word. -/
def cnt (bb : IVec S8x64x4 32) : IVec S8x1024x1024 32 :=
  extractStridedSlice S8x1024x1024 ![0, 0, 0] (cum2 (cum1 (diff bb))) slices_S8x1025x1025_S8x1024x1024_0_0_0

/-- The foreground mask: the count is positive, read signed. -/
def fg (bb : IVec S8x64x4 32) : IVec S8x1024x1024 1 :=
  cmpi .sgt (cnt bb) (broadcastInDim S8x1024x1024 ![] bcast_S_S8x1024x1024 (constantI S_ 32 0#32))

/-- The weights: 10 on the foreground, 1 elsewhere. -/
def weights (bb : IVec S8x64x4 32) : FVec F S8x1024x1024 .f32 :=
  select (fg bb) (broadcastInDim S8x1024x1024 ![] bcast_S_S8x1024x1024 (constant S_ .f32 0x41200000#32))
    (broadcastInDim S8x1024x1024 ![] bcast_S_S8x1024x1024 (constant S_ .f32 0x3F800000#32))

/-- The reference's result. -/
def out (loss : FVec F S8x1024x1024 .f32) (bb : IVec S8x64x4 32) : FVec F S8x1024x1024 .f32 :=
  Host.divf
    (Host.divf (mulf loss (weights bb)) (broadcastInDim S8x1024x1024 ![] bcast_S_S8x1024x1024 (constant S_ .f32 0x49800000#32)))
    (broadcastInDim S8x1024x1024 ![] bcast_S_S8x1024x1024 (constant S_ .f32 0x41000000#32))

end Cert.ReferenceIdeal.RefTerm

end
-- ==== Proof.RefOps.lean ====
/-
  The reference's @main as a line of host operations, in order, in fourteen consecutive stretches; a called function's
  operations stand at its call, over the call's buffers. With each stretch: every operation touches TensorCore buffers
  only, and none allocates.
-/
import proofs.«416528_j24180665877233_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Column 0 of the box table cut out, and clamped to [0, 1024]: ten operations, the last six `clip`'s own. -/
abbrev opsA0 : List (HloOp τ sig (Elt F)) :=
  [ unary main_arg2 main_v0 ((extractStridedSlice S8x64x1 ![0, 0, 0] · slices_S8x64x4_S8x64x1_0_0_0) : (⟨S8x64x4, .i32⟩ : BufTy).Contents (Elt F) → (⟨S8x64x1, .i32⟩ : BufTy).Contents (Elt F)),
    reshape main_v0 main_v1 rfl shapeCasts_S8x64x1_S8x64,
    nullary main_c (constantI S_ 32 0#32),
    nullary main_c_0 (constantI S_ 32 1024#32),
    TRef.unary (.of main_c : TRef sig ⟨S_, .i32⟩) main_call0.v0 id,
    TRef.unary main_call0.v0 main_call0.v1 (broadcastInDim S8x64 ![] bcast_S_S8x64),
    TRef.binary main_call0.v1 (.of main_v1 : TRef sig ⟨S8x64, .i32⟩) main_call0.v2 maxsi,
    TRef.unary (.of main_c_0 : TRef sig ⟨S_, .i32⟩) main_call0.v3 id,
    TRef.unary main_call0.v3 main_call0.v4 (broadcastInDim S8x64 ![] bcast_S_S8x64),
    TRef.binary main_call0.v4 main_call0.v2 main_call0.v5 minsi ]

theorem opsA0_sub : (opsA0 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub .., unary_bufs_sub .., binary_bufs_sub ..⟩

theorem opsA0_fresh : (opsA0 : List (HloOp τ sig (Elt F))).Forall fun op => op.fresh = ∅ :=
  ⟨rfl, rfl, rfl, rfl, rfl, rfl, rfl, rfl, rfl, rfl⟩

/-- Column 1, cut out and clamped. -/
abbrev opsA1 : List (HloOp τ sig (Elt F)) :=
  [ unary main_arg2 main_v3 ((extractStridedSlice S8x64x1 ![0, 0, 1] · slices_S8x64x4_S8x64x1_0_0_1) : (⟨S8x64x4, .i32⟩ : BufTy).Contents (Elt F) → (⟨S8x64x1, .i32⟩ : BufTy).Contents (Elt F)),
    reshape main_v3 main_v4 rfl shapeCasts_S8x64x1_S8x64,
    nullary main_c_1 (constantI S_ 32 0#32),
    nullary main_c_2 (constantI S_ 32 1024#32),
    TRef.unary (.of main_c_1 : TRef sig ⟨S_, .i32⟩) main_call1.v0 id,
    TRef.unary main_call1.v0 main_call1.v1 (broadcastInDim S8x64 ![] bcast_S_S8x64),
    TRef.binary main_call1.v1 (.of main_v4 : TRef sig ⟨S8x64, .i32⟩) main_call1.v2 maxsi,
    TRef.unary (.of main_c_2 : TRef sig ⟨S_, .i32⟩) main_call1.v3 id,
    TRef.unary main_call1.v3 main_call1.v4 (broadcastInDim S8x64 ![] bcast_S_S8x64),
    TRef.binary main_call1.v4 main_call1.v2 main_call1.v5 minsi ]

theorem opsA1_sub : (opsA1 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub .., unary_bufs_sub .., binary_bufs_sub ..⟩

theorem opsA1_fresh : (opsA1 : List (HloOp τ sig (Elt F))).Forall fun op => op.fresh = ∅ :=
  ⟨rfl, rfl, rfl, rfl, rfl, rfl, rfl, rfl, rfl, rfl⟩

/-- Column 2, cut out and clamped. -/
abbrev opsA2 : List (HloOp τ sig (Elt F)) :=
  [ unary main_arg2 main_v6 ((extractStridedSlice S8x64x1 ![0, 0, 2] · slices_S8x64x4_S8x64x1_0_0_2) : (⟨S8x64x4, .i32⟩ : BufTy).Contents (Elt F) → (⟨S8x64x1, .i32⟩ : BufTy).Contents (Elt F)),
    reshape main_v6 main_v7 rfl shapeCasts_S8x64x1_S8x64,
    nullary main_c_3 (constantI S_ 32 0#32),
    nullary main_c_4 (constantI S_ 32 1024#32),
    TRef.unary (.of main_c_3 : TRef sig ⟨S_, .i32⟩) main_call2.v0 id,
    TRef.unary main_call2.v0 main_call2.v1 (broadcastInDim S8x64 ![] bcast_S_S8x64),
    TRef.binary main_call2.v1 (.of main_v7 : TRef sig ⟨S8x64, .i32⟩) main_call2.v2 maxsi,
    TRef.unary (.of main_c_4 : TRef sig ⟨S_, .i32⟩) main_call2.v3 id,
    TRef.unary main_call2.v3 main_call2.v4 (broadcastInDim S8x64 ![] bcast_S_S8x64),
    TRef.binary main_call2.v4 main_call2.v2 main_call2.v5 minsi ]

theorem opsA2_sub : (opsA2 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub .., unary_bufs_sub .., binary_bufs_sub ..⟩

theorem opsA2_fresh : (opsA2 : List (HloOp τ sig (Elt F))).Forall fun op => op.fresh = ∅ :=
  ⟨rfl, rfl, rfl, rfl, rfl, rfl, rfl, rfl, rfl, rfl⟩

/-- Column 3, cut out and clamped. -/
abbrev opsA3 : List (HloOp τ sig (Elt F)) :=
  [ unary main_arg2 main_v9 ((extractStridedSlice S8x64x1 ![0, 0, 3] · slices_S8x64x4_S8x64x1_0_0_3) : (⟨S8x64x4, .i32⟩ : BufTy).Contents (Elt F) → (⟨S8x64x1, .i32⟩ : BufTy).Contents (Elt F)),
    reshape main_v9 main_v10 rfl shapeCasts_S8x64x1_S8x64,
    nullary main_c_5 (constantI S_ 32 0#32),
    nullary main_c_6 (constantI S_ 32 1024#32),
    TRef.unary (.of main_c_5 : TRef sig ⟨S_, .i32⟩) main_call3.v0 id,
    TRef.unary main_call3.v0 main_call3.v1 (broadcastInDim S8x64 ![] bcast_S_S8x64),
    TRef.binary main_call3.v1 (.of main_v10 : TRef sig ⟨S8x64, .i32⟩) main_call3.v2 maxsi,
    TRef.unary (.of main_c_6 : TRef sig ⟨S_, .i32⟩) main_call3.v3 id,
    TRef.unary main_call3.v3 main_call3.v4 (broadcastInDim S8x64 ![] bcast_S_S8x64),
    TRef.binary main_call3.v4 main_call3.v2 main_call3.v5 minsi ]

theorem opsA3_sub : (opsA3 : List (HloOp τ sig (Elt F))).Forall fun op => op.bufs ⊆ tcRefs τ sig :=
  ⟨unary_bufs_sub .., reshape_bufs_sub .., nullary_bufs_sub .., nullary_bufs_sub .., unary_bufs_sub .., unary_bufs_sub .., binary_bufs_sub .., unary_bufs_sub .., unary_bufs_sub .., binary_bufs_sub ..⟩

theorem opsA3_fresh : (opsA3 : List (HloOp τ sig (Elt F))).Forall fun op => op.fresh = ∅ :=
  ⟨rfl, rfl, rfl, rfl, rfl, rfl, rfl, rfl, rfl, rfl⟩

/-- The image number of every box (an iota broadcast twice), the update +1, and the zero difference array. -/
abbrev opsB : List (HloOp τ sig (Elt F)) :=
  [ nullary main_v12 (iotaInDim S8 32 0),
    unary main_v12 main_v13 (broadcastInDim S8x1 ![0] bcast_S8_S8x1_0 : (⟨S8, .i32⟩ : BufTy).Contents (Elt F) → (⟨S8x1, .i32⟩ : BufTy).Contents (Elt F)),
    unary main_v13 main_v14 (broadcastInDim S8x64 ![0, 1] bcast_S8x1_S8x64_0_1 : (⟨S8x1, .i32⟩ : BufTy).Contents (Elt F) → (⟨S8x64, .i32⟩ : BufTy).Contents (Elt F)),
    nullary main_c_7 (constantI S_ 32 1#32),
    unary main_c_7 main_v15 (broadcastInDim S8x64 ![] bcast_S_S8x64 : (⟨S_, .i32⟩ : BufTy).Contents (Elt F) → (⟨S8x64, .i32⟩ : BufTy).Contents (Elt F)),
    nullary main_c_8 (constantI S_ 32 0#32),
    unary main_c_8 main_v16 (broadcastInDim S8x1025x1025 ![] bcast_S_S8x1025x1025 : (⟨S_, .i32⟩ : BufTy).Contents (Elt F) → (⟨S8x1025x1025, .i32⟩ : BufTy).Contents (Elt F)) ]

theorem opsB_sub : (opsB : List (HloOp τ sig (Elt F))).Forall fun op => op.bufs ⊆ tcRefs τ sig :=
  ⟨nullary_bufs_sub .., unary_bufs_sub .., unary_bufs_sub .., nullary_bufs_sub .., unary_bufs_sub .., nullary_bufs_sub .., unary_bufs_sub ..⟩

theorem opsB_fresh : (opsB : List (HloOp τ sig (Elt F))).Forall fun op => op.fresh = ∅ :=
  ⟨rfl, rfl, rfl, rfl, rfl, rfl, rfl⟩

/-- The first scatter-add: the three index components wrapped and laid as columns, concatenated, and +1 added at (b, y1, x1). -/
abbrev opsS1 : List (HloOp τ sig (Elt F)) :=
  [ nullary main_c_9 (constantI S_ 32 0#32),
    unary main_c_9 main_v17 (broadcastInDim S8x64 ![] bcast_S_S8x64 : (⟨S_, .i32⟩ : BufTy).Contents (Elt F) → (⟨S8x64, .i32⟩ : BufTy).Contents (Elt F)),
    binary main_v14 main_v17 main_v18 (cmpi .slt : (⟨S8x64, .i32⟩ : BufTy).Contents (Elt F) → (⟨S8x64, .i32⟩ : BufTy).Contents (Elt F) → (⟨S8x64, .i1⟩ : BufTy).Contents (Elt F)),
    nullary main_c_10 (constantI S_ 32 8#32),
    unary main_c_10 main_v19 (broadcastInDim S8x64 ![] bcast_S_S8x64 : (⟨S_, .i32⟩ : BufTy).Contents (Elt F) → (⟨S8x64, .i32⟩ : BufTy).Contents (Elt F)),
    binary main_v14 main_v19 main_v20 (addi : (⟨S8x64, .i32⟩ : BufTy).Contents (Elt F) → (⟨S8x64, .i32⟩ : BufTy).Contents (Elt F) → (⟨S8x64, .i32⟩ : BufTy).Contents (Elt F)),
    ternary main_v18 main_v20 main_v14 main_v21 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_11 (constantI S_ 32 0#32),
    unary main_c_11 main_v22 (broadcastInDim S8x64 ![] bcast_S_S8x64 : (⟨S_, .i32⟩ : BufTy).Contents (Elt F) → (⟨S8x64, .i32⟩ : BufTy).Contents (Elt F)),
    binary main_v5 main_v22 main_v23 (cmpi .slt : (⟨S8x64, .i32⟩ : BufTy).Contents (Elt F) → (⟨S8x64, .i32⟩ : BufTy).Contents (Elt F) → (⟨S8x64, .i1⟩ : BufTy).Contents (Elt F)),
    nullary main_c_12 (constantI S_ 32 1025#32),
    unary main_c_12 main_v24 (broadcastInDim S8x64 ![] bcast_S_S8x64 : (⟨S_, .i32⟩ : BufTy).Contents (Elt F) → (⟨S8x64, .i32⟩ : BufTy).Contents (Elt F)),
    binary main_v5 main_v24 main_v25 (addi : (⟨S8x64, .i32⟩ : BufTy).Contents (Elt F) → (⟨S8x64, .i32⟩ : BufTy).Contents (Elt F) → (⟨S8x64, .i32⟩ : BufTy).Contents (Elt F)),
    ternary main_v23 main_v25 main_v5 main_v26 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_13 (constantI S_ 32 0#32),
    unary main_c_13 main_v27 (broadcastInDim S8x64 ![] bcast_S_S8x64 : (⟨S_, .i32⟩ : BufTy).Contents (Elt F) → (⟨S8x64, .i32⟩ : BufTy).Contents (Elt F)),
    binary main_v2 main_v27 main_v28 (cmpi .slt : (⟨S8x64, .i32⟩ : BufTy).Contents (Elt F) → (⟨S8x64, .i32⟩ : BufTy).Contents (Elt F) → (⟨S8x64, .i1⟩ : BufTy).Contents (Elt F)),
    nullary main_c_14 (constantI S_ 32 1025#32),
    unary main_c_14 main_v29 (broadcastInDim S8x64 ![] bcast_S_S8x64 : (⟨S_, .i32⟩ : BufTy).Contents (Elt F) → (⟨S8x64, .i32⟩ : BufTy).Contents (Elt F)),
    binary main_v2 main_v29 main_v30 (addi : (⟨S8x64, .i32⟩ : BufTy).Contents (Elt F) → (⟨S8x64, .i32⟩ : BufTy).Contents (Elt F) → (⟨S8x64, .i32⟩ : BufTy).Contents (Elt F)),
    ternary main_v28 main_v30 main_v2 main_v31 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_v21 main_v32 (broadcastInDim S8x64x1 ![0, 1] bcast_S8x64_S8x64x1_0_1 : (⟨S8x64, .i32⟩ : BufTy).Contents (Elt F) → (⟨S8x64x1, .i32⟩ : BufTy).Contents (Elt F)),
    unary main_v26 main_v33 (broadcastInDim S8x64x1 ![0, 1] bcast_S8x64_S8x64x1_0_1 : (⟨S8x64, .i32⟩ : BufTy).Contents (Elt F) → (⟨S8x64x1, .i32⟩ : BufTy).Contents (Elt F)),
    unary main_v31 main_v34 (broadcastInDim S8x64x1 ![0, 1] bcast_S8x64_S8x64x1_0_1 : (⟨S8x64, .i32⟩ : BufTy).Contents (Elt F) → (⟨S8x64x1, .i32⟩ : BufTy).Contents (Elt F)),
    nary ![main_v32, main_v33, main_v34] main_v35 (fun u => concatenate S8x64x3 2 [⟨S8x64x1, u 0⟩, ⟨S8x64x1, u 1⟩, ⟨S8x64x1, u 2⟩] concatenates_S8x64x1_S8x64x1_S8x64x1_S8x64x3_d2),
    ternary main_v16 main_v35 main_v15 main_v36 ((fun x i u => Host.scatter scatter_S8x1025x1025_S8x64x3_S8x64_n_012_012_2 IntOp.addi x i u) : (⟨S8x1025x1025, .i32⟩ : BufTy).Contents (Elt F) → (⟨S8x64x3, .i32⟩ : BufTy).Contents (Elt F) → (⟨S8x64, .i32⟩ : BufTy).Contents (Elt F) → (⟨S8x1025x1025, .i32⟩ : BufTy).Contents (Elt F)) ]

theorem opsS1_sub : (opsS1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub ..⟩

theorem opsS1_fresh : (opsS1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The second scatter-add, its first seven operations (the negated update and the image component's comparison and sum). -/
abbrev opsS2a : List (HloOp τ sig (Elt F)) :=
  [ unary main_v15 main_v37 (negi : (⟨S8x64, .i32⟩ : BufTy).Contents (Elt F) → (⟨S8x64, .i32⟩ : BufTy).Contents (Elt F)),
    nullary main_c_15 (constantI S_ 32 0#32),
    unary main_c_15 main_v38 (broadcastInDim S8x64 ![] bcast_S_S8x64 : (⟨S_, .i32⟩ : BufTy).Contents (Elt F) → (⟨S8x64, .i32⟩ : BufTy).Contents (Elt F)),
    binary main_v14 main_v38 main_v39 (cmpi .slt : (⟨S8x64, .i32⟩ : BufTy).Contents (Elt F) → (⟨S8x64, .i32⟩ : BufTy).Contents (Elt F) → (⟨S8x64, .i1⟩ : BufTy).Contents (Elt F)),
    nullary main_c_16 (constantI S_ 32 8#32),
    unary main_c_16 main_v40 (broadcastInDim S8x64 ![] bcast_S_S8x64 : (⟨S_, .i32⟩ : BufTy).Contents (Elt F) → (⟨S8x64, .i32⟩ : BufTy).Contents (Elt F)),
    binary main_v14 main_v40 main_v41 (addi : (⟨S8x64, .i32⟩ : BufTy).Contents (Elt F) → (⟨S8x64, .i32⟩ : BufTy).Contents (Elt F) → (⟨S8x64, .i32⟩ : BufTy).Contents (Elt F)) ]

theorem opsS2a_sub : (opsS2a : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub ..⟩

theorem opsS2a_fresh : (opsS2a : List (HloOp τ sig (Elt F))).Forall fun op => op.fresh = ∅ :=
  ⟨rfl, rfl, rfl, rfl, rfl, rfl, rfl⟩

/-- The second scatter-add, the rest: −1 added at (b, y1, x2). -/
abbrev opsS2b : List (HloOp τ sig (Elt F)) :=
  [ ternary main_v39 main_v41 main_v14 main_v42 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_17 (constantI S_ 32 0#32),
    unary main_c_17 main_v43 (broadcastInDim S8x64 ![] bcast_S_S8x64 : (⟨S_, .i32⟩ : BufTy).Contents (Elt F) → (⟨S8x64, .i32⟩ : BufTy).Contents (Elt F)),
    binary main_v5 main_v43 main_v44 (cmpi .slt : (⟨S8x64, .i32⟩ : BufTy).Contents (Elt F) → (⟨S8x64, .i32⟩ : BufTy).Contents (Elt F) → (⟨S8x64, .i1⟩ : BufTy).Contents (Elt F)),
    nullary main_c_18 (constantI S_ 32 1025#32),
    unary main_c_18 main_v45 (broadcastInDim S8x64 ![] bcast_S_S8x64 : (⟨S_, .i32⟩ : BufTy).Contents (Elt F) → (⟨S8x64, .i32⟩ : BufTy).Contents (Elt F)),
    binary main_v5 main_v45 main_v46 (addi : (⟨S8x64, .i32⟩ : BufTy).Contents (Elt F) → (⟨S8x64, .i32⟩ : BufTy).Contents (Elt F) → (⟨S8x64, .i32⟩ : BufTy).Contents (Elt F)),
    ternary main_v44 main_v46 main_v5 main_v47 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_19 (constantI S_ 32 0#32),
    unary main_c_19 main_v48 (broadcastInDim S8x64 ![] bcast_S_S8x64 : (⟨S_, .i32⟩ : BufTy).Contents (Elt F) → (⟨S8x64, .i32⟩ : BufTy).Contents (Elt F)),
    binary main_v8 main_v48 main_v49 (cmpi .slt : (⟨S8x64, .i32⟩ : BufTy).Contents (Elt F) → (⟨S8x64, .i32⟩ : BufTy).Contents (Elt F) → (⟨S8x64, .i1⟩ : BufTy).Contents (Elt F)),
    nullary main_c_20 (constantI S_ 32 1025#32),
    unary main_c_20 main_v50 (broadcastInDim S8x64 ![] bcast_S_S8x64 : (⟨S_, .i32⟩ : BufTy).Contents (Elt F) → (⟨S8x64, .i32⟩ : BufTy).Contents (Elt F)),
    binary main_v8 main_v50 main_v51 (addi : (⟨S8x64, .i32⟩ : BufTy).Contents (Elt F) → (⟨S8x64, .i32⟩ : BufTy).Contents (Elt F) → (⟨S8x64, .i32⟩ : BufTy).Contents (Elt F)),
    ternary main_v49 main_v51 main_v8 main_v52 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_v42 main_v53 (broadcastInDim S8x64x1 ![0, 1] bcast_S8x64_S8x64x1_0_1 : (⟨S8x64, .i32⟩ : BufTy).Contents (Elt F) → (⟨S8x64x1, .i32⟩ : BufTy).Contents (Elt F)),
    unary main_v47 main_v54 (broadcastInDim S8x64x1 ![0, 1] bcast_S8x64_S8x64x1_0_1 : (⟨S8x64, .i32⟩ : BufTy).Contents (Elt F) → (⟨S8x64x1, .i32⟩ : BufTy).Contents (Elt F)),
    unary main_v52 main_v55 (broadcastInDim S8x64x1 ![0, 1] bcast_S8x64_S8x64x1_0_1 : (⟨S8x64, .i32⟩ : BufTy).Contents (Elt F) → (⟨S8x64x1, .i32⟩ : BufTy).Contents (Elt F)),
    nary ![main_v53, main_v54, main_v55] main_v56 (fun u => concatenate S8x64x3 2 [⟨S8x64x1, u 0⟩, ⟨S8x64x1, u 1⟩, ⟨S8x64x1, u 2⟩] concatenates_S8x64x1_S8x64x1_S8x64x1_S8x64x3_d2),
    ternary main_v36 main_v56 main_v37 main_v57 ((fun x i u => Host.scatter scatter_S8x1025x1025_S8x64x3_S8x64_n_012_012_2 IntOp.addi x i u) : (⟨S8x1025x1025, .i32⟩ : BufTy).Contents (Elt F) → (⟨S8x64x3, .i32⟩ : BufTy).Contents (Elt F) → (⟨S8x64, .i32⟩ : BufTy).Contents (Elt F) → (⟨S8x1025x1025, .i32⟩ : BufTy).Contents (Elt F)) ]

theorem opsS2b_sub : (opsS2b : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub ..⟩

theorem opsS2b_fresh : (opsS2b : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The third scatter-add: −1 added at (b, y2, x1). -/
abbrev opsS3 : List (HloOp τ sig (Elt F)) :=
  [ unary main_v15 main_v58 (negi : (⟨S8x64, .i32⟩ : BufTy).Contents (Elt F) → (⟨S8x64, .i32⟩ : BufTy).Contents (Elt F)),
    nullary main_c_21 (constantI S_ 32 0#32),
    unary main_c_21 main_v59 (broadcastInDim S8x64 ![] bcast_S_S8x64 : (⟨S_, .i32⟩ : BufTy).Contents (Elt F) → (⟨S8x64, .i32⟩ : BufTy).Contents (Elt F)),
    binary main_v14 main_v59 main_v60 (cmpi .slt : (⟨S8x64, .i32⟩ : BufTy).Contents (Elt F) → (⟨S8x64, .i32⟩ : BufTy).Contents (Elt F) → (⟨S8x64, .i1⟩ : BufTy).Contents (Elt F)),
    nullary main_c_22 (constantI S_ 32 8#32),
    unary main_c_22 main_v61 (broadcastInDim S8x64 ![] bcast_S_S8x64 : (⟨S_, .i32⟩ : BufTy).Contents (Elt F) → (⟨S8x64, .i32⟩ : BufTy).Contents (Elt F)),
    binary main_v14 main_v61 main_v62 (addi : (⟨S8x64, .i32⟩ : BufTy).Contents (Elt F) → (⟨S8x64, .i32⟩ : BufTy).Contents (Elt F) → (⟨S8x64, .i32⟩ : BufTy).Contents (Elt F)),
    ternary main_v60 main_v62 main_v14 main_v63 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_23 (constantI S_ 32 0#32),
    unary main_c_23 main_v64 (broadcastInDim S8x64 ![] bcast_S_S8x64 : (⟨S_, .i32⟩ : BufTy).Contents (Elt F) → (⟨S8x64, .i32⟩ : BufTy).Contents (Elt F)),
    binary main_v11 main_v64 main_v65 (cmpi .slt : (⟨S8x64, .i32⟩ : BufTy).Contents (Elt F) → (⟨S8x64, .i32⟩ : BufTy).Contents (Elt F) → (⟨S8x64, .i1⟩ : BufTy).Contents (Elt F)),
    nullary main_c_24 (constantI S_ 32 1025#32),
    unary main_c_24 main_v66 (broadcastInDim S8x64 ![] bcast_S_S8x64 : (⟨S_, .i32⟩ : BufTy).Contents (Elt F) → (⟨S8x64, .i32⟩ : BufTy).Contents (Elt F)),
    binary main_v11 main_v66 main_v67 (addi : (⟨S8x64, .i32⟩ : BufTy).Contents (Elt F) → (⟨S8x64, .i32⟩ : BufTy).Contents (Elt F) → (⟨S8x64, .i32⟩ : BufTy).Contents (Elt F)),
    ternary main_v65 main_v67 main_v11 main_v68 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_25 (constantI S_ 32 0#32),
    unary main_c_25 main_v69 (broadcastInDim S8x64 ![] bcast_S_S8x64 : (⟨S_, .i32⟩ : BufTy).Contents (Elt F) → (⟨S8x64, .i32⟩ : BufTy).Contents (Elt F)),
    binary main_v2 main_v69 main_v70 (cmpi .slt : (⟨S8x64, .i32⟩ : BufTy).Contents (Elt F) → (⟨S8x64, .i32⟩ : BufTy).Contents (Elt F) → (⟨S8x64, .i1⟩ : BufTy).Contents (Elt F)),
    nullary main_c_26 (constantI S_ 32 1025#32),
    unary main_c_26 main_v71 (broadcastInDim S8x64 ![] bcast_S_S8x64 : (⟨S_, .i32⟩ : BufTy).Contents (Elt F) → (⟨S8x64, .i32⟩ : BufTy).Contents (Elt F)),
    binary main_v2 main_v71 main_v72 (addi : (⟨S8x64, .i32⟩ : BufTy).Contents (Elt F) → (⟨S8x64, .i32⟩ : BufTy).Contents (Elt F) → (⟨S8x64, .i32⟩ : BufTy).Contents (Elt F)),
    ternary main_v70 main_v72 main_v2 main_v73 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_v63 main_v74 (broadcastInDim S8x64x1 ![0, 1] bcast_S8x64_S8x64x1_0_1 : (⟨S8x64, .i32⟩ : BufTy).Contents (Elt F) → (⟨S8x64x1, .i32⟩ : BufTy).Contents (Elt F)),
    unary main_v68 main_v75 (broadcastInDim S8x64x1 ![0, 1] bcast_S8x64_S8x64x1_0_1 : (⟨S8x64, .i32⟩ : BufTy).Contents (Elt F) → (⟨S8x64x1, .i32⟩ : BufTy).Contents (Elt F)),
    unary main_v73 main_v76 (broadcastInDim S8x64x1 ![0, 1] bcast_S8x64_S8x64x1_0_1 : (⟨S8x64, .i32⟩ : BufTy).Contents (Elt F) → (⟨S8x64x1, .i32⟩ : BufTy).Contents (Elt F)),
    nary ![main_v74, main_v75, main_v76] main_v77 (fun u => concatenate S8x64x3 2 [⟨S8x64x1, u 0⟩, ⟨S8x64x1, u 1⟩, ⟨S8x64x1, u 2⟩] concatenates_S8x64x1_S8x64x1_S8x64x1_S8x64x3_d2),
    ternary main_v57 main_v77 main_v58 main_v78 ((fun x i u => Host.scatter scatter_S8x1025x1025_S8x64x3_S8x64_n_012_012_2 IntOp.addi x i u) : (⟨S8x1025x1025, .i32⟩ : BufTy).Contents (Elt F) → (⟨S8x64x3, .i32⟩ : BufTy).Contents (Elt F) → (⟨S8x64, .i32⟩ : BufTy).Contents (Elt F) → (⟨S8x1025x1025, .i32⟩ : BufTy).Contents (Elt F)) ]

theorem opsS3_sub : (opsS3 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub ..⟩

theorem opsS3_fresh : (opsS3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The fourth scatter-add, its first thirteen operations. -/
abbrev opsS4a : List (HloOp τ sig (Elt F)) :=
  [ nullary main_c_27 (constantI S_ 32 0#32),
    unary main_c_27 main_v79 (broadcastInDim S8x64 ![] bcast_S_S8x64 : (⟨S_, .i32⟩ : BufTy).Contents (Elt F) → (⟨S8x64, .i32⟩ : BufTy).Contents (Elt F)),
    binary main_v14 main_v79 main_v80 (cmpi .slt : (⟨S8x64, .i32⟩ : BufTy).Contents (Elt F) → (⟨S8x64, .i32⟩ : BufTy).Contents (Elt F) → (⟨S8x64, .i1⟩ : BufTy).Contents (Elt F)),
    nullary main_c_28 (constantI S_ 32 8#32),
    unary main_c_28 main_v81 (broadcastInDim S8x64 ![] bcast_S_S8x64 : (⟨S_, .i32⟩ : BufTy).Contents (Elt F) → (⟨S8x64, .i32⟩ : BufTy).Contents (Elt F)),
    binary main_v14 main_v81 main_v82 (addi : (⟨S8x64, .i32⟩ : BufTy).Contents (Elt F) → (⟨S8x64, .i32⟩ : BufTy).Contents (Elt F) → (⟨S8x64, .i32⟩ : BufTy).Contents (Elt F)),
    ternary main_v80 main_v82 main_v14 main_v83 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_29 (constantI S_ 32 0#32),
    unary main_c_29 main_v84 (broadcastInDim S8x64 ![] bcast_S_S8x64 : (⟨S_, .i32⟩ : BufTy).Contents (Elt F) → (⟨S8x64, .i32⟩ : BufTy).Contents (Elt F)),
    binary main_v11 main_v84 main_v85 (cmpi .slt : (⟨S8x64, .i32⟩ : BufTy).Contents (Elt F) → (⟨S8x64, .i32⟩ : BufTy).Contents (Elt F) → (⟨S8x64, .i1⟩ : BufTy).Contents (Elt F)),
    nullary main_c_30 (constantI S_ 32 1025#32),
    unary main_c_30 main_v86 (broadcastInDim S8x64 ![] bcast_S_S8x64 : (⟨S_, .i32⟩ : BufTy).Contents (Elt F) → (⟨S8x64, .i32⟩ : BufTy).Contents (Elt F)),
    binary main_v11 main_v86 main_v87 (addi : (⟨S8x64, .i32⟩ : BufTy).Contents (Elt F) → (⟨S8x64, .i32⟩ : BufTy).Contents (Elt F) → (⟨S8x64, .i32⟩ : BufTy).Contents (Elt F)) ]

theorem opsS4a_sub : (opsS4a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

theorem opsS4a_fresh : (opsS4a : List (HloOp τ sig (Elt F))).Forall fun op => op.fresh = ∅ :=
  ⟨rfl, rfl, rfl, rfl, rfl, rfl, rfl, rfl, rfl, rfl, rfl, rfl, rfl⟩

/-- The fourth scatter-add, the rest: +1 added at (b, y2, x2). -/
abbrev opsS4b : List (HloOp τ sig (Elt F)) :=
  [ ternary main_v85 main_v87 main_v11 main_v88 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    nullary main_c_31 (constantI S_ 32 0#32),
    unary main_c_31 main_v89 (broadcastInDim S8x64 ![] bcast_S_S8x64 : (⟨S_, .i32⟩ : BufTy).Contents (Elt F) → (⟨S8x64, .i32⟩ : BufTy).Contents (Elt F)),
    binary main_v8 main_v89 main_v90 (cmpi .slt : (⟨S8x64, .i32⟩ : BufTy).Contents (Elt F) → (⟨S8x64, .i32⟩ : BufTy).Contents (Elt F) → (⟨S8x64, .i1⟩ : BufTy).Contents (Elt F)),
    nullary main_c_32 (constantI S_ 32 1025#32),
    unary main_c_32 main_v91 (broadcastInDim S8x64 ![] bcast_S_S8x64 : (⟨S_, .i32⟩ : BufTy).Contents (Elt F) → (⟨S8x64, .i32⟩ : BufTy).Contents (Elt F)),
    binary main_v8 main_v91 main_v92 (addi : (⟨S8x64, .i32⟩ : BufTy).Contents (Elt F) → (⟨S8x64, .i32⟩ : BufTy).Contents (Elt F) → (⟨S8x64, .i32⟩ : BufTy).Contents (Elt F)),
    ternary main_v90 main_v92 main_v8 main_v93 (select : (⟨S8x64, .i1⟩ : BufTy).Contents (Elt F) → (⟨S8x64, .i32⟩ : BufTy).Contents (Elt F) → (⟨S8x64, .i32⟩ : BufTy).Contents (Elt F) → (⟨S8x64, .i32⟩ : BufTy).Contents (Elt F)),
    unary main_v83 main_v94 (broadcastInDim S8x64x1 ![0, 1] bcast_S8x64_S8x64x1_0_1 : (⟨S8x64, .i32⟩ : BufTy).Contents (Elt F) → (⟨S8x64x1, .i32⟩ : BufTy).Contents (Elt F)),
    unary main_v88 main_v95 (broadcastInDim S8x64x1 ![0, 1] bcast_S8x64_S8x64x1_0_1 : (⟨S8x64, .i32⟩ : BufTy).Contents (Elt F) → (⟨S8x64x1, .i32⟩ : BufTy).Contents (Elt F)),
    unary main_v93 main_v96 (broadcastInDim S8x64x1 ![0, 1] bcast_S8x64_S8x64x1_0_1 : (⟨S8x64, .i32⟩ : BufTy).Contents (Elt F) → (⟨S8x64x1, .i32⟩ : BufTy).Contents (Elt F)),
    nary ![main_v94, main_v95, main_v96] main_v97 (fun u => concatenate S8x64x3 2 [⟨S8x64x1, u 0⟩, ⟨S8x64x1, u 1⟩, ⟨S8x64x1, u 2⟩] concatenates_S8x64x1_S8x64x1_S8x64x1_S8x64x3_d2),
    ternary main_v78 main_v97 main_v15 main_v98 ((fun x i u => Host.scatter scatter_S8x1025x1025_S8x64x3_S8x64_n_012_012_2 IntOp.addi x i u) : (⟨S8x1025x1025, .i32⟩ : BufTy).Contents (Elt F) → (⟨S8x64x3, .i32⟩ : BufTy).Contents (Elt F) → (⟨S8x64, .i32⟩ : BufTy).Contents (Elt F) → (⟨S8x1025x1025, .i32⟩ : BufTy).Contents (Elt F)) ]

theorem opsS4b_sub : (opsS4b : List (HloOp τ sig (Elt F))).Forall fun op => op.bufs ⊆ tcRefs τ sig :=
  ⟨ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., ternary_bufs_sub ..⟩

theorem opsS4b_fresh : (opsS4b : List (HloOp τ sig (Elt F))).Forall fun op => op.fresh = ∅ :=
  ⟨rfl, rfl, rfl, rfl, rfl, rfl, rfl, rfl, rfl, rfl, rfl, rfl, rfl⟩

/-- The running sum down the rows. -/
abbrev opsC1 : List (HloOp τ sig (Elt F)) :=
  [ TRef.nullary main_call4.call0.c (constantI S_ 32 0#32),
    TRef.unary main_call4.call0.c main_call4.call0.v0 (broadcastInDim S_ ![] bcast_S_S_),
    TRef.binary (.of main_v98 : TRef sig ⟨S8x1025x1025, .i32⟩) main_call4.call0.v0 main_call4.call0.v1 (fun x v => Host.reduceWindow IntOp.addi ![1, 1025, 1] ![1, 1, 1] ![0, 1024, 0] ![0, 0, 0] x v reduceWindows_S8x1025x1025_S8x1025x1025_w1s1p0_0_w1025s1p1024_0_w1s1p0_0 h_S_) ]

theorem opsC1_sub : (opsC1 : List (HloOp τ sig (Elt F))).Forall fun op => op.bufs ⊆ tcRefs τ sig :=
  ⟨nullary_bufs_sub .., unary_bufs_sub .., binary_bufs_sub ..⟩

theorem opsC1_fresh : (opsC1 : List (HloOp τ sig (Elt F))).Forall fun op => op.fresh = ∅ :=
  ⟨rfl, rfl, rfl⟩

/-- The running sum along the columns. -/
abbrev opsC2 : List (HloOp τ sig (Elt F)) :=
  [ TRef.nullary main_call5.call0.c (constantI S_ 32 0#32),
    TRef.unary main_call5.call0.c main_call5.call0.v0 (broadcastInDim S_ ![] bcast_S_S_),
    TRef.binary (.of main_v99 : TRef sig ⟨S8x1025x1025, .i32⟩) main_call5.call0.v0 main_call5.call0.v1 (fun x v => Host.reduceWindow IntOp.addi ![1, 1, 1025] ![1, 1, 1] ![0, 0, 1024] ![0, 0, 0] x v reduceWindows_S8x1025x1025_S8x1025x1025_w1s1p0_0_w1s1p0_0_w1025s1p1024_0 h_S_) ]

theorem opsC2_sub : (opsC2 : List (HloOp τ sig (Elt F))).Forall fun op => op.bufs ⊆ tcRefs τ sig :=
  ⟨nullary_bufs_sub .., unary_bufs_sub .., binary_bufs_sub ..⟩

theorem opsC2_fresh : (opsC2 : List (HloOp τ sig (Elt F))).Forall fun op => op.fresh = ∅ :=
  ⟨rfl, rfl, rfl⟩

/-- The cut back to [8, 1024, 1024], the foreground mask, the weights, the product with the loss and the two divisions. -/
abbrev opsT : List (HloOp τ sig (Elt F)) :=
  [ unary main_v100 main_v101 ((extractStridedSlice S8x1024x1024 ![0, 0, 0] · slices_S8x1025x1025_S8x1024x1024_0_0_0) : (⟨S8x1025x1025, .i32⟩ : BufTy).Contents (Elt F) → (⟨S8x1024x1024, .i32⟩ : BufTy).Contents (Elt F)),
    nullary main_c_33 (constantI S_ 32 0#32),
    unary main_c_33 main_v102 (broadcastInDim S8x1024x1024 ![] bcast_S_S8x1024x1024 : (⟨S_, .i32⟩ : BufTy).Contents (Elt F) → (⟨S8x1024x1024, .i32⟩ : BufTy).Contents (Elt F)),
    binary main_v101 main_v102 main_v103 (cmpi .sgt : (⟨S8x1024x1024, .i32⟩ : BufTy).Contents (Elt F) → (⟨S8x1024x1024, .i32⟩ : BufTy).Contents (Elt F) → (⟨S8x1024x1024, .i1⟩ : BufTy).Contents (Elt F)),
    nullary main_cst (constant S_ .f32 0x41200000#32),
    nullary main_cst_34 (constant S_ .f32 0x3F800000#32),
    TRef.unary (.of main_cst : TRef sig ⟨S_, .f32⟩) main_call6.v0 (broadcastInDim S8x1024x1024 ![] bcast_S_S8x1024x1024),
    TRef.unary (.of main_cst_34 : TRef sig ⟨S_, .f32⟩) main_call6.v1 (broadcastInDim S8x1024x1024 ![] bcast_S_S8x1024x1024),
    TRef.ternary (.of main_v103 : TRef sig ⟨S8x1024x1024, .i1⟩) main_call6.v0 main_call6.v1 main_call6.v2 select,
    binary main_arg0 main_v104 main_v105 (mulf : (⟨S8x1024x1024, .f32⟩ : BufTy).Contents (Elt F) → (⟨S8x1024x1024, .f32⟩ : BufTy).Contents (Elt F) → (⟨S8x1024x1024, .f32⟩ : BufTy).Contents (Elt F)),
    nullary main_cst_35 (constant S_ .f32 0x49800000#32),
    unary main_cst_35 main_v106 (broadcastInDim S8x1024x1024 ![] bcast_S_S8x1024x1024 : (⟨S_, .f32⟩ : BufTy).Contents (Elt F) → (⟨S8x1024x1024, .f32⟩ : BufTy).Contents (Elt F)),
    binary main_v105 main_v106 main_v107 (Host.divf : (⟨S8x1024x1024, .f32⟩ : BufTy).Contents (Elt F) → (⟨S8x1024x1024, .f32⟩ : BufTy).Contents (Elt F) → (⟨S8x1024x1024, .f32⟩ : BufTy).Contents (Elt F)),
    nullary main_cst_36 (constant S_ .f32 0x41000000#32),
    unary main_cst_36 main_v108 (broadcastInDim S8x1024x1024 ![] bcast_S_S8x1024x1024 : (⟨S_, .f32⟩ : BufTy).Contents (Elt F) → (⟨S8x1024x1024, .f32⟩ : BufTy).Contents (Elt F)),
    binary main_v107 main_v108 main_v109 (Host.divf : (⟨S8x1024x1024, .f32⟩ : BufTy).Contents (Elt F) → (⟨S8x1024x1024, .f32⟩ : BufTy).Contents (Elt F) → (⟨S8x1024x1024, .f32⟩ : BufTy).Contents (Elt F)) ]

theorem opsT_sub : (opsT : List (HloOp τ sig (Elt F))).Forall fun op => op.bufs ⊆ tcRefs τ sig :=
  ⟨unary_bufs_sub .., nullary_bufs_sub .., unary_bufs_sub .., binary_bufs_sub .., nullary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub ..⟩

theorem opsT_fresh : (opsT : List (HloOp τ sig (Elt F))).Forall fun op => op.fresh = ∅ :=
  ⟨rfl, rfl, rfl, rfl, rfl, rfl, rfl, rfl, rfl, rfl, rfl, rfl, rfl, rfl, rfl, rfl⟩

end Cert.ReferenceIdeal.RefRun

end
-- ==== Proof.RefRun.lean ====
/-
  The reference's run: @main is a straight line of host operations (its module-local functions unfolded at their calls),
  so every weakly fair execution terminates with the result buffer at the operations' composed term of the arguments
  (RefTerm.out) and the arguments unchanged.
-/
import proofs.«416528_j24180665877233_3_alg».proof.Proof.Gen.ReferenceIdeal
import proofs.«416528_j24180665877233_3_alg».proof.Proof.RefTerm
import proofs.«416528_j24180665877233_3_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the folds are never opened here: every equation below is between terms built from the same operations
attribute [local irreducible] Host.reduceWindow Host.scatter concatenate broadcastInDim extractStridedSlice shapeCast

/-- @main's three printed windows as lists of operations, and the whole line. -/
abbrev ops0 : List (HloOp τ sig (Elt F)) := opsA0 ++ opsA1 ++ opsA2 ++ opsA3 ++ opsB ++ opsS1 ++ opsS2a
abbrev ops1 : List (HloOp τ sig (Elt F)) := opsS2b ++ opsS3 ++ opsS4a
abbrev ops2 : List (HloOp τ sig (Elt F)) := opsS4b ++ opsC1 ++ opsC2 ++ opsT
abbrev ops : List (HloOp τ sig (Elt F)) := ops0 ++ ops1 ++ ops2

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl

theorem main_eq (c : Dev nD) : main (F := F) c = seq ops := by
  simp only [ops, seq_append, ← main_part0_eq c, ← main_part1_eq c, ← main_part2_eq c]
  rfl

/-! ## What a buffer holds after a stretch of the line -/

/-- Running two stretches one after the other is running their concatenation. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A three-operand operation leaves at its result buffer its function's value of the three operands' contents,
    each read at its own buffer (the family of contents at the indices 0, 1, 2 is the three contents in turn). -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Reads a buffer after a literal stretch of operations: the fold is unrolled, and each operation, outermost first,
    leaves its function's value of its operands' contents at its own result buffer and, at any other buffer, what was
    there (the two buffers told apart as references). -/
local macro "read_results" : tactic =>
  `(tactic| (simp only [after_cons, after_nil]
             repeat (first
               | rewrite [nullary_result] | rewrite [unary_result] | rewrite [binary_result] | rewrite [ternary_result]
               | rewrite [reshape_result] | rewrite [nary3_result]
               | (rewrite [nullary_result_ne]; rotate_left; decide)
               | (rewrite [unary_result_ne]; rotate_left; decide)
               | (rewrite [binary_result_ne]; rotate_left; decide)
               | (rewrite [ternary_result_ne]; rotate_left; decide)
               | (rewrite [reshape_result_ne]; rotate_left; decide)
               | (rewrite [nary_result_ne]; rotate_left; decide))))

/-- What the buffers read by the four scatter-adds and by the tail hold, of a loss array l0 and a box table bb: the loss
    argument, the four clamped corner columns, the image numbers and the update +1. No operation after the stretch that
    computes them writes any of these buffers, so each later stretch keeps all of it. -/
structure Known (l0 : FVec F S8x1024x1024 .f32) (bb : IVec S8x64x4 32) (W : Valuation τ sig (Elt F)) : Prop where
  loss : W (main_arg0 : DevRef τ sig) = l0
  x1 : W (main_v2 : DevRef τ sig) = RefTerm.x1c bb
  y1 : W (main_v5 : DevRef τ sig) = RefTerm.y1c bb
  x2 : W (main_v8 : DevRef τ sig) = RefTerm.x2c bb
  y2 : W (main_v11 : DevRef τ sig) = RefTerm.y2c bb
  b : W (main_v14 : DevRef τ sig) = RefTerm.bidx
  o : W (main_v15 : DevRef τ sig) = RefTerm.ones

set_option maxHeartbeats 1000000 in
/-- The first forty-seven operations: the four columns of the box table cut out and clamped, the image numbers, the
    update and the zero array, each at its buffer; the loss argument untouched. -/
theorem stageAB (V : Valuation τ sig (Elt F)) :
    Known (V (main_arg0 : DevRef τ sig)) (V (main_arg2 : DevRef τ sig))
        (after opsB (after opsA3 (after opsA2 (after opsA1 (after opsA0 V)))))
      ∧ after opsB (after opsA3 (after opsA2 (after opsA1 (after opsA0 V)))) (main_v16 : DevRef τ sig) = RefTerm.zeros := by
  refine ⟨⟨rfl, ?_, ?_, ?_, ?_, ?_, ?_⟩, ?_⟩
  all_goals read_results
  all_goals rfl

set_option maxHeartbeats 1000000 in
/-- The first scatter-add: +1 at (image, y1, x1) of every box, onto what the zero array's buffer held. -/
theorem stageS1 {l0 : FVec F S8x1024x1024 .f32} {bb : IVec S8x64x4 32} {acc : IVec S8x1025x1025 32}
    {W : Valuation τ sig (Elt F)} (h : Known l0 bb W) (hd : W (main_v16 : DevRef τ sig) = acc) :
    Known l0 bb (after opsS1 W)
      ∧ after opsS1 W (main_v36 : DevRef τ sig) = RefTerm.scat acc (RefTerm.y1c bb) (RefTerm.x1c bb) RefTerm.ones := by
  refine ⟨⟨h.loss, h.x1, h.y1, h.x2, h.y2, h.b, h.o⟩, ?_⟩
  read_results
  rewrite [h.b, h.y1, h.x1, h.o, hd]
  rfl

set_option maxHeartbeats 1000000 in
/-- The second scatter-add: −1 at (image, y1, x2). -/
theorem stageS2 {l0 : FVec F S8x1024x1024 .f32} {bb : IVec S8x64x4 32} {acc : IVec S8x1025x1025 32}
    {W : Valuation τ sig (Elt F)} (h : Known l0 bb W) (hd : W (main_v36 : DevRef τ sig) = acc) :
    Known l0 bb (after opsS2b (after opsS2a W))
      ∧ after opsS2b (after opsS2a W) (main_v57 : DevRef τ sig)
          = RefTerm.scat acc (RefTerm.y1c bb) (RefTerm.x2c bb) (negi RefTerm.ones) := by
  refine ⟨⟨h.loss, h.x1, h.y1, h.x2, h.y2, h.b, h.o⟩, ?_⟩
  read_results
  rewrite [h.b, h.y1, h.x2, h.o, hd]
  rfl

set_option maxHeartbeats 1000000 in
/-- The third scatter-add: −1 at (image, y2, x1). -/
theorem stageS3 {l0 : FVec F S8x1024x1024 .f32} {bb : IVec S8x64x4 32} {acc : IVec S8x1025x1025 32}
    {W : Valuation τ sig (Elt F)} (h : Known l0 bb W) (hd : W (main_v57 : DevRef τ sig) = acc) :
    Known l0 bb (after opsS3 W)
      ∧ after opsS3 W (main_v78 : DevRef τ sig)
          = RefTerm.scat acc (RefTerm.y2c bb) (RefTerm.x1c bb) (negi RefTerm.ones) := by
  refine ⟨⟨h.loss, h.x1, h.y1, h.x2, h.y2, h.b, h.o⟩, ?_⟩
  read_results
  rewrite [h.b, h.y2, h.x1, h.o, hd]
  rfl

set_option maxHeartbeats 1000000 in
/-- The fourth scatter-add: +1 at (image, y2, x2). -/
theorem stageS4 {l0 : FVec F S8x1024x1024 .f32} {bb : IVec S8x64x4 32} {acc : IVec S8x1025x1025 32}
    {W : Valuation τ sig (Elt F)} (h : Known l0 bb W) (hd : W (main_v78 : DevRef τ sig) = acc) :
    Known l0 bb (after opsS4b (after opsS4a W))
      ∧ after opsS4b (after opsS4a W) (main_v98 : DevRef τ sig)
          = RefTerm.scat acc (RefTerm.y2c bb) (RefTerm.x2c bb) RefTerm.ones := by
  refine ⟨⟨h.loss, h.x1, h.y1, h.x2, h.y2, h.b, h.o⟩, ?_⟩
  read_results
  rewrite [h.b, h.y2, h.x2, h.o, hd]
  rfl

set_option maxHeartbeats 1000000 in
/-- The last twenty-two operations, from the difference array at its buffer and the loss at its own: the two running sums,
    the cut, the mask, the weights, the product and the two divisions. -/
theorem stageCT {l0 : FVec F S8x1024x1024 .f32} {acc : IVec S8x1025x1025 32}
    {W : Valuation τ sig (Elt F)} (hl : W (main_arg0 : DevRef τ sig) = l0) (hd : W (main_v98 : DevRef τ sig) = acc) :
    after opsT (after opsC2 (after opsC1 W)) (main_v109 : DevRef τ sig)
      = Host.divf
          (Host.divf
            (mulf l0
              (select
                (cmpi .sgt
                  (extractStridedSlice S8x1024x1024 ![0, 0, 0] (RefTerm.cum2 (RefTerm.cum1 acc)) slices_S8x1025x1025_S8x1024x1024_0_0_0)
                  (broadcastInDim S8x1024x1024 ![] bcast_S_S8x1024x1024 (constantI S_ 32 0#32)))
                (broadcastInDim S8x1024x1024 ![] bcast_S_S8x1024x1024 (constant S_ .f32 0x41200000#32))
                (broadcastInDim S8x1024x1024 ![] bcast_S_S8x1024x1024 (constant S_ .f32 0x3F800000#32))))
            (broadcastInDim S8x1024x1024 ![] bcast_S_S8x1024x1024 (constant S_ .f32 0x49800000#32)))
          (broadcastInDim S8x1024x1024 ![] bcast_S_S8x1024x1024 (constant S_ .f32 0x41000000#32)) := by
  read_results
  rewrite [hl, hd]
  simp only [TRef.ofBuf, TRef.toBuf, cast_eq]
  rfl

/-! ## The whole line -/

/-- The result buffer after the whole line is the composed term of the loss argument and the box table: the stages in
    order, each handing the next what it reads. -/
theorem out_eq (V : Valuation τ sig (Elt F)) :
    after ops V (main_v109 : DevRef τ sig)
      = RefTerm.out (V (main_arg0 : DevRef τ sig)) (V (main_arg2 : DevRef τ sig)) := by
  simp only [ops, ops0, ops1, ops2, after_app]
  obtain ⟨k0, d0⟩ := stageAB V
  obtain ⟨k1, d1⟩ := stageS1 k0 d0
  obtain ⟨k2, d2⟩ := stageS2 k1 d1
  obtain ⟨k3, d3⟩ := stageS3 k2 d2
  obtain ⟨k4, d4⟩ := stageS4 k3 d3
  exact stageCT k4.loss d4

set_option maxRecDepth 16384 in
/-- No operation writes an argument's buffer: each test whether the buffer read is the one written fails by computation. -/
theorem arg0_eq (V : Valuation τ sig (Elt F)) :
    after ops V (main_arg0 : DevRef τ sig) = V (main_arg0 : DevRef τ sig) := rfl
set_option maxRecDepth 16384 in
theorem arg1_eq (V : Valuation τ sig (Elt F)) :
    after ops V (main_arg1 : DevRef τ sig) = V (main_arg1 : DevRef τ sig) := rfl
set_option maxRecDepth 16384 in
theorem arg2_eq (V : Valuation τ sig (Elt F)) :
    after ops V (main_arg2 : DevRef τ sig) = V (main_arg2 : DevRef τ sig) := rfl

/-- A property of every operation of two stretches holds of every operation of their concatenation. -/
theorem forall_app {p : HloOp τ sig (Elt F) → Prop} {l₁ l₂ : List (HloOp τ sig (Elt F))}
    (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- Every operation touches TensorCore buffers only. -/
theorem ops_sub : (ops : List (HloOp τ sig (Elt F))).Forall fun op => op.bufs ⊆ tcRefs τ sig :=
  forall_app
    (forall_app
      (forall_app (forall_app (forall_app (forall_app (forall_app (forall_app opsA0_sub opsA1_sub) opsA2_sub) opsA3_sub)
        opsB_sub) opsS1_sub) opsS2a_sub)
      (forall_app (forall_app opsS2b_sub opsS3_sub) opsS4a_sub))
    (forall_app (forall_app (forall_app opsS4b_sub opsC1_sub) opsC2_sub) opsT_sub)

/-- Every operation determines its result. -/
theorem ops_fresh : (ops : List (HloOp τ sig (Elt F))).Forall fun op => op.fresh = ∅ :=
  forall_app
    (forall_app
      (forall_app (forall_app (forall_app (forall_app (forall_app (forall_app opsA0_fresh opsA1_fresh) opsA2_fresh) opsA3_fresh)
        opsB_fresh) opsS1_fresh) opsS2a_fresh)
      (forall_app (forall_app opsS2b_fresh opsS3_fresh) opsS4a_fresh))
    (forall_app (forall_app (forall_app opsS4b_fresh opsC1_fresh) opsC2_fresh) opsT_fresh)

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with the result
    at `RefTerm.out` of the loss array and the box table, and the three arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v109)
          = RefTerm.out (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v109).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ
      (fun _ => List.forall_iff_forall_mem.mp ops_fresh))

end Cert.ReferenceIdeal.RefRun

end
-- ==== Proof.RefIdx.lean ====
/-
  The reference's integer tables read at an index: the clamped corner columns, the scatter index triples, the updates.
-/
import proofs.«416528_j24180665877233_3_alg».proof.Proof.Gen.ReferenceIdeal
import proofs.«416528_j24180665877233_3_alg».proof.Proof.RefTerm
import proofs.«416528_j24180665877233_3_alg».proof.Proof.Spec
import Idealize.ShloMosaic.Lib.Pipeline.Value
import Idealize.ShloMosaic.Lib.ValueIdx
import Idealize.ShloMosaic.Lib.StableHlo.Predicate

noncomputable section

namespace Cert.ReferenceIdeal.RefIdx

open Cert.ReferenceIdeal Cert.ReferenceIdeal.Gen Cert.ReferenceIdeal.RefTerm Idealize.ShloMosaic Idealize.ShloMosaic.ValueIdx

/-- A corner word clamped to the image as the reference and the kernel both compute it: the smaller of 1024 and the larger
    of 0 and the word, both compares signed. -/
def cw (w : BitVec 32) : BitVec 32 := IntOp.minsi 1024#32 (IntOp.maxsi 0#32 w)

/-- The clamped word's signed value is `Spec.clamp` of the word (a number in [0, 1024]): the signed compares are
    compares of the signed values, and the three cases (below 0, within [0, 1024], above 1024) each agree. -/
theorem cw_toInt (w : BitVec 32) : (cw w).toInt = (Cert.Spec.clamp w : ℤ) := by
  have h0 : (0#32 : BitVec 32).toInt = 0 := by decide
  have h1 : (1024#32 : BitVec 32).toInt = 1024 := by decide
  unfold cw IntOp.minsi IntOp.maxsi Cert.Spec.clamp
  split_ifs with hA hB hB
  · have hA' := BitVec.slt_iff_toInt_lt.mp hA
    have hB' := BitVec.slt_iff_toInt_lt.mp hB
    omega
  · have hA' := BitVec.slt_iff_toInt_lt.mp hA
    omega
  · have hA' : ¬ w.toInt < (0#32 : BitVec 32).toInt := fun h => hA (BitVec.slt_iff_toInt_lt.mpr h)
    have hB' := BitVec.slt_iff_toInt_lt.mp hB
    omega
  · have hA' : ¬ w.toInt < (0#32 : BitVec 32).toInt := fun h => hA (BitVec.slt_iff_toInt_lt.mpr h)
    have hB' : ¬ (1024#32 : BitVec 32).toInt < w.toInt := fun h => hB (BitVec.slt_iff_toInt_lt.mpr h)
    omega

/-- Column `c` of a box table as an [8, 64] table, read at (b, n): entry (b, n, c) of the table. The reshape keeps
    the row-major position, b·64 + n on both sides, and the slice shifts the last coordinate by `c`. -/
theorem col_apply (c : Nat) (hc : c < 4) (x : IVec S8x64x4 32) (h : S8x64x4.Slices ![0, 0, c] S8x64x1)
    (h' : S8x64x1.ShapeCasts S8x64) (b : Fin 8) (n : Fin 64) :
    shapeCast S8x64 (extractStridedSlice S8x64x1 ![0, 0, c] x h) h' (ix2 b n) = x (ix3 b n (⟨c, hc⟩ : Fin 4)) := by
  refine (shapeCast_apply _ h' (ix2 b n) (ix3 b n (0 : Fin 1)) ?_).trans ?_
  · rw [Shape.rowMajor_val_three, Shape.rowMajor_val_two]
    show (b.val * 64 + n.val) * 1 + 0 = b.val * 64 + n.val
    omega
  · refine extractStridedSlice_apply _ x h _ (ix3 b n (⟨c, hc⟩ : Fin 4)) fun a => ?_
    match a with
    | ⟨0, _⟩ => show b.val = 0 + b.val; omega
    | ⟨1, _⟩ => show n.val = 0 + n.val; omega
    | ⟨2, _⟩ => show c = c + 0; omega

/-- The clip of a table at an index is the clamp of the entry: the two bounds are constant tables and the signed
    minimum and maximum act entry by entry. -/
theorem clip_apply (x : IVec S8x64 32) (j : S8x64.Idx) : clip x j = cw (x j) := rfl

/-- The four clamped corner tables at box (b, n): the clamped entry (b, n, k) of the box table. -/
theorem x1c_apply (bb : IVec S8x64x4 32) (b : Fin 8) (n : Fin 64) : x1c bb (ix2 b n) = cw (bb (ix3 b n (0 : Fin 4))) := by
  show cw (col0 bb (ix2 b n)) = _
  exact congrArg cw (col_apply 0 (by omega) bb _ _ b n)
theorem y1c_apply (bb : IVec S8x64x4 32) (b : Fin 8) (n : Fin 64) : y1c bb (ix2 b n) = cw (bb (ix3 b n (1 : Fin 4))) := by
  show cw (col1 bb (ix2 b n)) = _
  exact congrArg cw (col_apply 1 (by omega) bb _ _ b n)
theorem x2c_apply (bb : IVec S8x64x4 32) (b : Fin 8) (n : Fin 64) : x2c bb (ix2 b n) = cw (bb (ix3 b n (2 : Fin 4))) := by
  show cw (col2 bb (ix2 b n)) = _
  exact congrArg cw (col_apply 2 (by omega) bb _ _ b n)
theorem y2c_apply (bb : IVec S8x64x4 32) (b : Fin 8) (n : Fin 64) : y2c bb (ix2 b n) = cw (bb (ix3 b n (3 : Fin 4))) := by
  show cw (col3 bb (ix2 b n)) = _
  exact congrArg cw (col_apply 3 (by omega) bb _ _ b n)

/-- An [8, 64] table laid out as an [8, 64, 1] column reads, at (b, n, 0), its entry (b, n). -/
theorem comp_apply (x : IVec S8x64 32) (b : Fin 8) (n : Fin 64) : comp x (ix3 b n (0 : Fin 1)) = x (ix2 b n) := by
  unfold comp
  refine broadcastInDim_apply _ _ x _ (ix2 b n) fun a => ?_
  match a with
  | ⟨0, _⟩ => rfl
  | ⟨1, _⟩ => rfl

/-- The wrap of a negative index leaves an entry that is not negative: the signed compare with 0 answers no, and the
    select takes its second branch. -/
theorem wrap_apply_nonneg (m : BitVec 32) (x : IVec S8x64 32) (j : S8x64.Idx) (h : 0 ≤ (x j).toInt) : wrap m x j = x j := by
  have h0 : (0#32 : BitVec 32).toInt = 0 := by decide
  have hs : (x j).slt 0#32 = false := by
    rw [Bool.eq_false_iff]
    intro hh
    have := BitVec.slt_iff_toInt_lt.mp hh
    omega
  show Scalar.select (IntOp.cmpi .slt (x j) 0#32) (IntOp.addi (x j) m) (x j) = x j
  show Scalar.select (BitVec.ofBool ((x j).slt 0#32)) (IntOp.addi (x j) m) (x j) = x j
  rw [hs]
  exact select_zero _ _

/-- The image-number table at box (b, n) is the word b: an iota along the 8 images, broadcast along the boxes. -/
theorem bidx_apply (b : Fin 8) (n : Fin 64) : bidx (ix2 b n) = BitVec.ofNat 32 b.val := by
  unfold bidx
  refine (broadcastInDim_apply _ _ _ (ix2 b n) (ix2 b (0 : Fin 1)) fun a => ?_).trans ?_
  · match a with
    | ⟨0, _⟩ => rfl
    | ⟨1, _⟩ => rfl
  · refine (broadcastInDim_apply _ _ _ (ix2 b (0 : Fin 1)) (ix1 b) fun a => ?_).trans ?_
    · match a with
      | ⟨0, _⟩ => rfl
    · rfl

/-- Its signed value is b (a number below 8). -/
theorem bidx_toInt (b : Fin 8) (n : Fin 64) : (bidx (ix2 b n)).toInt = (b.val : ℤ) := by
  rw [bidx_apply]
  exact StableHlo.Predicate.toInt_ofNat_small b.val (by have := b.isLt; omega)

/-- Three [8, 64, 1] columns laid side by side along the last axis, read at (b, n, k): column k at (b, n, 0). The
    columns before column k take up k positions of the axis, one each. -/
theorem concat3_apply0 (p0 p1 p2 : IVec S8x64x1 32) (h : Shape.Concatenates [S8x64x1, S8x64x1, S8x64x1] S8x64x3 2)
    (b : Fin 8) (n : Fin 64) :
    concatenate S8x64x3 2 [⟨S8x64x1, p0⟩, ⟨S8x64x1, p1⟩, ⟨S8x64x1, p2⟩] h (ix3 b n (0 : Fin 3)) = p0 (ix3 b n (0 : Fin 1)) := by
  refine concatenate_apply_piece (t := S8x64x3) (2 : Fin 3) [⟨S8x64x1, p0⟩, ⟨S8x64x1, p1⟩, ⟨S8x64x1, p2⟩] h (ix3 b n (0 : Fin 3)) 0
    (by show 0 < 3; omega)
    S8x64x1 p0 rfl rfl 0 rfl (ix3 b n (0 : Fin 1)) (fun a => ?_) rfl
  match a with
  | ⟨0, _⟩ => exact fun _ => rfl
  | ⟨1, _⟩ => exact fun _ => rfl
  | ⟨2, _⟩ => exact fun hne => absurd rfl hne
theorem concat3_apply1 (p0 p1 p2 : IVec S8x64x1 32) (h : Shape.Concatenates [S8x64x1, S8x64x1, S8x64x1] S8x64x3 2)
    (b : Fin 8) (n : Fin 64) :
    concatenate S8x64x3 2 [⟨S8x64x1, p0⟩, ⟨S8x64x1, p1⟩, ⟨S8x64x1, p2⟩] h (ix3 b n (1 : Fin 3)) = p1 (ix3 b n (0 : Fin 1)) := by
  refine concatenate_apply_piece (t := S8x64x3) (2 : Fin 3) [⟨S8x64x1, p0⟩, ⟨S8x64x1, p1⟩, ⟨S8x64x1, p2⟩] h (ix3 b n (1 : Fin 3)) 1
    (by show 1 < 3; omega)
    S8x64x1 p1 rfl rfl 1 rfl (ix3 b n (0 : Fin 1)) (fun a => ?_) rfl
  match a with
  | ⟨0, _⟩ => exact fun _ => rfl
  | ⟨1, _⟩ => exact fun _ => rfl
  | ⟨2, _⟩ => exact fun hne => absurd rfl hne
theorem concat3_apply2 (p0 p1 p2 : IVec S8x64x1 32) (h : Shape.Concatenates [S8x64x1, S8x64x1, S8x64x1] S8x64x3 2)
    (b : Fin 8) (n : Fin 64) :
    concatenate S8x64x3 2 [⟨S8x64x1, p0⟩, ⟨S8x64x1, p1⟩, ⟨S8x64x1, p2⟩] h (ix3 b n (2 : Fin 3)) = p2 (ix3 b n (0 : Fin 1)) := by
  refine concatenate_apply_piece (t := S8x64x3) (2 : Fin 3) [⟨S8x64x1, p0⟩, ⟨S8x64x1, p1⟩, ⟨S8x64x1, p2⟩] h (ix3 b n (2 : Fin 3)) 2
    (by show 2 < 3; omega)
    S8x64x1 p2 rfl rfl 2 rfl (ix3 b n (0 : Fin 1)) (fun a => ?_) rfl
  match a with
  | ⟨0, _⟩ => exact fun _ => rfl
  | ⟨1, _⟩ => exact fun _ => rfl
  | ⟨2, _⟩ => exact fun hne => absurd rfl hne

/-- The three index components of a corner at (b, n): the image number, the row and the column, each passed through
    the wrap. -/
theorem corner_piece0 (ys xs : IVec S8x64 32) (b : Fin 8) (n : Fin 64) :
    corner ys xs (ix3 b n (0 : Fin 3)) = wrap 8#32 bidx (ix2 b n) :=
  (concat3_apply0 _ _ _ _ b n).trans (comp_apply _ b n)
theorem corner_piece1 (ys xs : IVec S8x64 32) (b : Fin 8) (n : Fin 64) :
    corner ys xs (ix3 b n (1 : Fin 3)) = wrap 1025#32 ys (ix2 b n) :=
  (concat3_apply1 _ _ _ _ b n).trans (comp_apply _ b n)
theorem corner_piece2 (ys xs : IVec S8x64 32) (b : Fin 8) (n : Fin 64) :
    corner ys xs (ix3 b n (2 : Fin 3)) = wrap 1025#32 xs (ix2 b n) :=
  (concat3_apply2 _ _ _ _ b n).trans (comp_apply _ b n)

/-- Component 0 of a corner's index triple is the image number (an iota, never negative, so the wrap leaves it). -/
theorem corner_apply0 (ys xs : IVec S8x64 32) (b : Fin 8) (n : Fin 64) :
    (corner ys xs (ix3 b n (0 : Fin 3))).toInt = (b.val : ℤ) := by
  rw [corner_piece0, wrap_apply_nonneg _ _ _ (by rw [bidx_toInt]; omega), bidx_toInt]

/-- Component 1 is the row table's entry where that is not negative (the wrap of a negative index leaves it). -/
theorem corner_apply1 (ys xs : IVec S8x64 32) (b : Fin 8) (n : Fin 64) (h : 0 ≤ (ys (ix2 b n)).toInt) :
    corner ys xs (ix3 b n (1 : Fin 3)) = ys (ix2 b n) := by
  rw [corner_piece1, wrap_apply_nonneg _ _ _ h]

/-- Component 2 is the column table's entry where that is not negative. -/
theorem corner_apply2 (ys xs : IVec S8x64 32) (b : Fin 8) (n : Fin 64) (h : 0 ≤ (xs (ix2 b n)).toInt) :
    corner ys xs (ix3 b n (2 : Fin 3)) = xs (ix2 b n) := by
  rw [corner_piece2, wrap_apply_nonneg _ _ _ h]

/-- The update tables and the zero tables are constant: a broadcast scalar reads its word everywhere, and a negated
    table the negated word. -/
theorem ones_apply (j : S8x64.Idx) : ones j = 1#32 := rfl
theorem negi_ones_apply (j : S8x64.Idx) : negi ones j = -(1#32) := rfl
theorem zeros_apply (j : S8x1025x1025.Idx) : zeros j = 0#32 := rfl
theorem zero0_apply (j : S_.Idx) : zero0 j = 0#32 := rfl

/-- The count table is the double running sum read at the same coordinates (the cut keeps rows and columns 0 … 1023):
    a slice with offsets 0 reads its operand at the same coordinates. -/
theorem cnt_apply (bb : IVec S8x64x4 32) (b : Fin 8) (y x : Fin 1024) :
    cnt bb (ix3 b y x)
      = cum2 (cum1 (diff bb)) (ix3 b (⟨y.val, by omega⟩ : Fin 1025) (⟨x.val, by omega⟩ : Fin 1025)) := by
  unfold cnt
  generalize cum2 (cum1 (diff bb)) = z
  refine extractStridedSlice_apply _ z _ (ix3 b y x) _ fun a => ?_
  match a with
  | ⟨0, _⟩ => show b.val = 0 + b.val; omega
  | ⟨1, _⟩ => show y.val = 0 + y.val; omega
  | ⟨2, _⟩ => show x.val = 0 + x.val; omega

end Cert.ReferenceIdeal.RefIdx

end
-- ==== Proof.Count.lean ====
/-
  Counting boxes by a difference array.

  A box with corners Y1 ≤ Y2, X1 ≤ X2 puts +1 at (Y1, X1), −1 at (Y1, X2), −1 at (Y2, X1), +1 at (Y2, X2) of a
  difference array; the two-dimensional prefix sum of the array at (y, x) is then the number of boxes with
  Y1 ≤ y < Y2 and X1 ≤ x < X2. Over words (arithmetic modulo 2³²) the count of at most 64 boxes does not wrap, so
  it is positive, read signed, exactly when some box covers the pixel.
-/
import Mathlib.Algebra.BigOperators.Group.Finset.Basic
import Mathlib.Algebra.BigOperators.Ring.Finset
import Mathlib.Data.Fintype.BigOperators
import Mathlib.Data.BitVec
import Mathlib.Tactic.Ring
import Idealize.ShloMosaic.Lib.StableHlo.Predicate

namespace Cert.Count

open scoped BigOperators

/-- The two-dimensional prefix sum at (y, x) of a [N, N] array of words. -/
def pre2 {N : ℕ} (D : Fin N → Fin N → BitVec 32) (y x : ℕ) : BitVec 32 :=
  ∑ q : Fin N, if q.val ≤ x then (∑ p : Fin N, if p.val ≤ y then D p q else 0) else 0

theorem pre2_zero {N : ℕ} (y x : ℕ) : pre2 (fun (_ _ : Fin N) => (0 : BitVec 32)) y x = 0 := by
  simp [pre2]

theorem pre2_add {N : ℕ} (D E : Fin N → Fin N → BitVec 32) (y x : ℕ) :
    pre2 (fun p q => D p q + E p q) y x = pre2 D y x + pre2 E y x := by
  unfold pre2
  rw [← Finset.sum_add_distrib]
  refine Finset.sum_congr rfl fun q _ => ?_
  by_cases hq : q.val ≤ x
  · simp only [if_pos hq]
    rw [← Finset.sum_add_distrib]
    refine Finset.sum_congr rfl fun p _ => ?_
    by_cases hp : p.val ≤ y <;> simp [hp]
  · simp [hq]

/-- The prefix sum of point masses: an array holding, at (p, q), the sum of the words `u k` over the points `k` of a finite
    family placed at (Y k, X k) (all inside the array) has prefix sum at (y, x) the sum of `u k` over the points with
    Y k ≤ y and X k ≤ x. -/
theorem pre2_points {N : ℕ} {κ : Type} [Fintype κ] (Y X : κ → ℕ) (hY : ∀ k, Y k < N) (hX : ∀ k, X k < N)
    (u : κ → BitVec 32) (y x : ℕ) :
    pre2 (fun (p q : Fin N) => ∑ k : κ, if Y k = p.val ∧ X k = q.val then u k else 0) y x
      = ∑ k : κ, if Y k ≤ y ∧ X k ≤ x then u k else 0 := by
  classical
  unfold pre2
  -- move the conditions inside and exchange the sums: for each point k, exactly one (p, q) holds it
  have h1 : ∀ q : Fin N, (if q.val ≤ x then (∑ p : Fin N, if p.val ≤ y then
        (∑ k : κ, if Y k = p.val ∧ X k = q.val then u k else 0) else 0) else 0)
      = ∑ k : κ, ∑ p : Fin N, if (q.val ≤ x ∧ p.val ≤ y ∧ Y k = p.val ∧ X k = q.val) then u k else 0 := by
    intro q
    rw [Finset.sum_comm]
    by_cases hq : q.val ≤ x
    · rw [if_pos hq]
      refine Finset.sum_congr rfl fun p _ => ?_
      by_cases hp : p.val ≤ y
      · rw [if_pos hp]; refine Finset.sum_congr rfl fun k _ => ?_
        by_cases hk : Y k = p.val ∧ X k = q.val
        · rw [if_pos hk, if_pos ⟨hq, hp, hk.1, hk.2⟩]
        · rw [if_neg hk, if_neg (fun h => hk ⟨h.2.2.1, h.2.2.2⟩)]
      · rw [if_neg hp]; symm; refine Finset.sum_eq_zero fun k _ => ?_
        rw [if_neg (fun h => hp h.2.1)]
    · rw [if_neg hq]; symm
      refine Finset.sum_eq_zero fun p _ => Finset.sum_eq_zero fun k _ => ?_
      rw [if_neg (fun h => hq h.1)]
  simp only [h1]
  rw [Finset.sum_comm]
  refine Finset.sum_congr rfl fun k _ => ?_
  rw [Finset.sum_comm]
  -- the double sum over (p, q) has the single non-zero term p = Y k, q = X k
  rw [Finset.sum_eq_single (⟨Y k, hY k⟩ : Fin N)]
  · rw [Finset.sum_eq_single (⟨X k, hX k⟩ : Fin N)]
    · by_cases h : Y k ≤ y ∧ X k ≤ x
      · rw [if_pos h, if_pos ⟨h.2, h.1, rfl, rfl⟩]
      · rw [if_neg h, if_neg (fun h' => h ⟨h'.2.1, h'.1⟩)]
    · intro q _ hq
      rw [if_neg]
      rintro ⟨-, -, -, h4⟩
      exact hq (Fin.ext h4.symm)
    · intro h; exact absurd (Finset.mem_univ _) h
  · intro p _ hp
    refine Finset.sum_eq_zero fun q _ => ?_
    rw [if_neg]
    rintro ⟨-, -, h3, -⟩
    exact hp (Fin.ext h3.symm)
  · intro h; exact absurd (Finset.mem_univ _) h

/-- One box with ordered corners: the four corner terms add up to the indicator of the box. -/
theorem corners {Y1 Y2 X1 X2 y x : ℕ} (hY : Y1 ≤ Y2) (hX : X1 ≤ X2) :
    (if Y1 ≤ y ∧ X1 ≤ x then (1 : BitVec 32) else 0) + (if Y1 ≤ y ∧ X2 ≤ x then -(1 : BitVec 32) else 0)
        + (if Y2 ≤ y ∧ X1 ≤ x then -(1 : BitVec 32) else 0) + (if Y2 ≤ y ∧ X2 ≤ x then (1 : BitVec 32) else 0)
      = if Y1 ≤ y ∧ y < Y2 ∧ X1 ≤ x ∧ x < X2 then 1 else 0 := by
  by_cases a : Y1 ≤ y <;> by_cases b : Y2 ≤ y <;> by_cases c : X1 ≤ x <;> by_cases d : X2 ≤ x <;>
    simp only [a, b, c, d, and_self, and_true, and_false, true_and, false_and, if_true, if_false] <;>
    (try split_ifs) <;>
    first
      | rfl
      | (exfalso; omega)
      | ring
      | simp

/-- A sum of at most 64 zero-or-one words is positive, read signed, exactly when one of them is one. -/
theorem pos_iff (P : Fin 64 → Prop) [DecidablePred P] :
    (BitVec.slt (0 : BitVec 32) (∑ n : Fin 64, if P n then (1 : BitVec 32) else 0) = true) ↔ ∃ n, P n := by
  classical
  have hs : (∑ n : Fin 64, if P n then (1 : BitVec 32) else 0)
      = BitVec.ofNat 32 (Finset.univ.filter P).card := by
    rw [Finset.sum_boole]
    rfl
  have hc : (Finset.univ.filter P).card ≤ 64 := (Finset.card_filter_le _ _).trans (by simp)
  rw [hs]
  have hpos : (∃ n, P n) ↔ 0 < (Finset.univ.filter P).card := by
    rw [Finset.card_pos]
    constructor
    · rintro ⟨n, hn⟩; exact ⟨n, Finset.mem_filter.2 ⟨Finset.mem_univ _, hn⟩⟩
    · rintro ⟨n, hn⟩; exact ⟨n, (Finset.mem_filter.1 hn).2⟩
  rw [hpos]
  generalize (Finset.univ.filter P).card = k at hc
  rw [BitVec.slt_iff_toInt_lt]
  rw [Idealize.ShloMosaic.StableHlo.Predicate.toInt_ofNat_small k (by omega)]
  simp

end Cert.Count
-- ==== Proof.LibScatterAdd.lean ====
/-
  An integer scatter-add read at an index: the operand's word there plus the sum of the update words landing on it.
-/
import Idealize.ShloMosaic.PureOps.ShapeOps
import Idealize.ShloMosaic.PureOps.Vector
import Idealize.ShloMosaic.Lib.ValueIdx
import Mathlib.Algebra.BigOperators.Group.Finset.Basic
import Mathlib.Data.Fintype.BigOperators
import Mathlib.Data.BitVec

noncomputable section

namespace Cert.Lib.ScatterAdd

open Idealize.ShloMosaic Idealize.ShloMosaic.ValueIdx
open scoped BigOperators

/-! ## The fold as a sum -/

/-- A left fold whose step adds, at every position `i`, a term `c n i` that depends on the step's item `n` only:
    its value at `i` is the initial value there plus the sum of the terms over the list (induction on the list; the
    sum is re-associated once per item). -/
theorem foldl_add_apply {ι κ M : Type} [AddCommMonoid M] (c : κ → ι → M) (f : (ι → M) → κ → (ι → M))
    (hf : ∀ r n i, f r n i = r i + c n i) (L : List κ) (x : ι → M) (i : ι) :
    L.foldl f x i = x i + (L.map fun n => c n i).sum := by
  induction L generalizing x with
  | nil => simp
  | cons n L ih => rw [List.foldl_cons, ih, hf, List.map_cons, List.sum_cons, add_assoc]

/-- An integer `.at[idx].add(upd)` read at an operand index `i`: the operand's word there plus the sum of the
    update words whose result index is `i` (word addition is commutative, so the fold's order does not matter).
    One step of the fold adds, at `i`, the update's word when its result index is `i` and nothing otherwise; the
    fold is then the sum of those terms over the row-major enumeration, which is a bijection onto the update
    indices. -/
theorem scatter_addi_apply {s si u : Shape} {w wi : ℕ} (d : ScatterDims s si u) (x : IVec s w) (idx : IVec si wi)
    (upd : IVec u w) (i : s.Idx) :
    Host.scatter d IntOp.addi x idx upd i = x i + ∑ j : u.Idx, if d.resultIdx? j idx = some i then upd j else 0 := by
  unfold Host.scatter
  refine (foldl_add_apply
    (fun n i => if d.resultIdx? (u.rowMajor.symm n) idx = some i then upd (u.rowMajor.symm n) else 0) _ ?_ _ _ _).trans ?_
  · intro r n k
    cases h : d.resultIdx? (u.rowMajor.symm n) idx with
    | none => simp
    | some k' =>
      by_cases hk : k = k'
      · subst hk; simp [IntOp.addi]
      · have hk' : ¬ k' = k := fun e => hk e.symm
        simp [hk, hk']
  · congr 1
    rw [← Equiv.sum_comp u.rowMajor.symm, Fin.sum_univ_def]

/-! ## The result index -/

/-- An update lands on the operand index `i` exactly when start plus window coordinate is `i`'s coordinate on every
    axis (the in-bounds condition is then `i`'s own bounds). -/
theorem resultIdx?_eq_some_iff {s si u : Shape} {wi : ℕ} (d : ScatterDims s si u) (j : u.Idx) (idx : IVec si wi)
    (i : s.Idx) :
    d.resultIdx? j idx = some i ↔ ∀ a, d.start j idx a + (d.window j a : ℤ) = ((i a).val : ℤ) := by
  unfold ScatterDims.resultIdx?
  split_ifs with h
  · rw [Option.some_inj]
    constructor
    · intro hi a
      have h' := h a
      have := congrArg Fin.val (congrFun hi a)
      simp only at this
      omega
    · intro hi
      funext a
      apply Fin.ext
      simp only
      rw [hi a]
      simp
  · constructor
    · intro h'; cases h'
    · intro hi
      exact absurd (fun a => by rw [hi a]; exact ⟨by omega, by exact_mod_cast (i a).isLt⟩) h

/-! ## A point scatter into a rank-3 operand -/

/-- The dimension numbers of a point scatter into a rank-3 operand: no window axes in the updates, every operand
    axis inserted, operand axis `a` read off component `a` of the index vector, which lies along the indices' last
    axis. -/
abbrev pointDims (N0 N1 N2 B E : ℕ)
    (wf : ScatterDims.WF ⟨3, ![N0, N1, N2]⟩ ⟨3, ![B, E, 3]⟩ ⟨2, ![B, E]⟩ [] [0, 1, 2] [0, 1, 2] 2) :
    ScatterDims ⟨3, ![N0, N1, N2]⟩ ⟨3, ![B, E, 3]⟩ ⟨2, ![B, E]⟩ where
  updateWindowDims := []
  insertedWindowDims := [0, 1, 2]
  scatterDimsToOperandDims := [0, 1, 2]
  indexVectorDim := 2
  wf := wf

/-- No axis of a rank-3 operand is kept when all three are inserted. -/
theorem not_mem_kept3 : ∀ a : Fin 3, a ∉ (List.finRange 3).filter (· ∉ ([0, 1, 2] : List (Fin 3))) := by decide

/-- Every axis of a rank-3 operand is named by the map `[0, 1, 2]`. -/
theorem mem_axes3 : ∀ a : Fin 3, a ∈ ([0, 1, 2] : List (Fin 3)) := by decide

section Point
variable {N0 N1 N2 B E wi : ℕ}
  (wf : ScatterDims.WF ⟨3, ![N0, N1, N2]⟩ ⟨3, ![B, E, 3]⟩ ⟨2, ![B, E]⟩ [] [0, 1, 2] [0, 1, 2] 2)

/-- Every operand axis is inserted, so the window coordinate is `0` on each. -/
theorem pointDims_window (j : (⟨2, ![B, E]⟩ : Shape).Idx) (a : Fin 3) :
    (pointDims N0 N1 N2 B E wf).window j a = 0 := by
  unfold ScatterDims.window
  rw [dif_neg]
  exact not_mem_kept3 a

/-- The start on operand axis 0 for update (b, e): component 0 of its index vector, read signed. -/
theorem pointDims_start0 (idx : IVec ⟨3, ![B, E, 3]⟩ wi) (b : Fin B) (e : Fin E) :
    (pointDims N0 N1 N2 B E wf).start (ix2 b e) idx (0 : Fin 3) = (idx (ix3 b e (0 : Fin 3))).toInt := by
  unfold ScatterDims.start
  rw [dif_pos (mem_axes3 0)]
  congr 2
  funext a; apply Fin.ext
  match a with
  | ⟨0, _⟩ => rfl
  | ⟨1, _⟩ => rfl
  | ⟨2, _⟩ => rfl

/-- The start on operand axis 1 for update (b, e): component 1 of its index vector, read signed. -/
theorem pointDims_start1 (idx : IVec ⟨3, ![B, E, 3]⟩ wi) (b : Fin B) (e : Fin E) :
    (pointDims N0 N1 N2 B E wf).start (ix2 b e) idx (1 : Fin 3) = (idx (ix3 b e (1 : Fin 3))).toInt := by
  unfold ScatterDims.start
  rw [dif_pos (mem_axes3 1)]
  congr 2
  funext a; apply Fin.ext
  match a with
  | ⟨0, _⟩ => rfl
  | ⟨1, _⟩ => rfl
  | ⟨2, _⟩ => rfl

/-- The start on operand axis 2 for update (b, e): component 2 of its index vector, read signed. -/
theorem pointDims_start2 (idx : IVec ⟨3, ![B, E, 3]⟩ wi) (b : Fin B) (e : Fin E) :
    (pointDims N0 N1 N2 B E wf).start (ix2 b e) idx (2 : Fin 3) = (idx (ix3 b e (2 : Fin 3))).toInt := by
  unfold ScatterDims.start
  rw [dif_pos (mem_axes3 2)]
  congr 2
  funext a; apply Fin.ext
  match a with
  | ⟨0, _⟩ => rfl
  | ⟨1, _⟩ => rfl
  | ⟨2, _⟩ => rfl

/-- Update (b, e) lands on (i0, i1, i2) exactly when its three components, read signed, are those coordinates:
    on each axis the start is the component and the window coordinate is `0`. -/
theorem pointDims_resultIdx?_iff (idx : IVec ⟨3, ![B, E, 3]⟩ wi) (b : Fin B) (e : Fin E)
    (i0 : Fin N0) (i1 : Fin N1) (i2 : Fin N2) :
    (pointDims N0 N1 N2 B E wf).resultIdx? (ix2 b e) idx = some (ix3 i0 i1 i2)
      ↔ (idx (ix3 b e (0 : Fin 3))).toInt = (i0.val : ℤ) ∧ (idx (ix3 b e (1 : Fin 3))).toInt = (i1.val : ℤ)
          ∧ (idx (ix3 b e (2 : Fin 3))).toInt = (i2.val : ℤ) := by
  rw [resultIdx?_eq_some_iff]
  constructor
  · intro h
    have h0 := h (0 : Fin 3)
    have h1 := h (1 : Fin 3)
    have h2 := h (2 : Fin 3)
    rw [pointDims_start0 wf idx b e, pointDims_window wf (ix2 b e) 0] at h0
    rw [pointDims_start1 wf idx b e, pointDims_window wf (ix2 b e) 1] at h1
    rw [pointDims_start2 wf idx b e, pointDims_window wf (ix2 b e) 2] at h2
    have h0' : (idx (ix3 b e (0 : Fin 3))).toInt + ((0 : ℕ) : ℤ) = (i0.val : ℤ) := h0
    have h1' : (idx (ix3 b e (1 : Fin 3))).toInt + ((0 : ℕ) : ℤ) = (i1.val : ℤ) := h1
    have h2' : (idx (ix3 b e (2 : Fin 3))).toInt + ((0 : ℕ) : ℤ) = (i2.val : ℤ) := h2
    exact ⟨by omega, by omega, by omega⟩
  · rintro ⟨h0, h1, h2⟩ a
    match a with
    | ⟨0, _⟩ =>
      show (pointDims N0 N1 N2 B E wf).start (ix2 b e) idx (0 : Fin 3)
        + (((pointDims N0 N1 N2 B E wf).window (ix2 b e) (0 : Fin 3) : ℕ) : ℤ) = (i0.val : ℤ)
      rw [pointDims_start0 wf idx b e, pointDims_window wf (ix2 b e) 0, h0]; simp
    | ⟨1, _⟩ =>
      show (pointDims N0 N1 N2 B E wf).start (ix2 b e) idx (1 : Fin 3)
        + (((pointDims N0 N1 N2 B E wf).window (ix2 b e) (1 : Fin 3) : ℕ) : ℤ) = (i1.val : ℤ)
      rw [pointDims_start1 wf idx b e, pointDims_window wf (ix2 b e) 1, h1]; simp
    | ⟨2, _⟩ =>
      show (pointDims N0 N1 N2 B E wf).start (ix2 b e) idx (2 : Fin 3)
        + (((pointDims N0 N1 N2 B E wf).window (ix2 b e) (2 : Fin 3) : ℕ) : ℤ) = (i2.val : ℤ)
      rw [pointDims_start2 wf idx b e, pointDims_window wf (ix2 b e) 2, h2]; simp

end Point

/-- A POINT scatter into a rank-3 operand — one update word per (b, e), its index vector the three components
    `idx (b, e, ·)` along the last axis of the indices, every operand axis an inserted window axis —: update (b, e)
    lands on (i0, i1, i2) exactly when its three components, read signed, are those coordinates. (A record with
    these four fields is the point record above: its remaining field is a proof.) -/
theorem point3_resultIdx?_iff {N0 N1 N2 B E wi : ℕ} (d : ScatterDims ⟨3, ![N0, N1, N2]⟩ ⟨3, ![B, E, 3]⟩ ⟨2, ![B, E]⟩)
    (h1 : d.updateWindowDims = []) (h2 : d.insertedWindowDims = [0, 1, 2]) (h3 : d.scatterDimsToOperandDims = [0, 1, 2])
    (h4 : d.indexVectorDim = 2) (idx : IVec ⟨3, ![B, E, 3]⟩ wi) (b : Fin B) (e : Fin E)
    (i0 : Fin N0) (i1 : Fin N1) (i2 : Fin N2) :
    d.resultIdx? (ix2 b e) idx = some (ix3 i0 i1 i2)
      ↔ (idx (ix3 b e (0 : Fin 3))).toInt = (i0.val : ℤ) ∧ (idx (ix3 b e (1 : Fin 3))).toInt = (i1.val : ℤ)
          ∧ (idx (ix3 b e (2 : Fin 3))).toInt = (i2.val : ℤ) := by
  obtain ⟨uw, iw, sd, iv, wf⟩ := d
  simp only at h1 h2 h3 h4
  subst h1 h2 h3 h4
  exact pointDims_resultIdx?_iff wf idx b e i0 i1 i2

/-- The point scatter-add read at (i0, i1, i2): the operand's word plus the sum over the boxes (b, e) whose index
    triple is (i0, i1, i2) of their update words. -/
theorem scatter_point3_apply {N0 N1 N2 B E w wi : ℕ} (d : ScatterDims ⟨3, ![N0, N1, N2]⟩ ⟨3, ![B, E, 3]⟩ ⟨2, ![B, E]⟩)
    (h1 : d.updateWindowDims = []) (h2 : d.insertedWindowDims = [0, 1, 2]) (h3 : d.scatterDimsToOperandDims = [0, 1, 2])
    (h4 : d.indexVectorDim = 2) (x : IVec ⟨3, ![N0, N1, N2]⟩ w) (idx : IVec ⟨3, ![B, E, 3]⟩ wi) (upd : IVec ⟨2, ![B, E]⟩ w)
    (i0 : Fin N0) (i1 : Fin N1) (i2 : Fin N2) :
    Host.scatter d IntOp.addi x idx upd (ix3 i0 i1 i2)
      = x (ix3 i0 i1 i2) + ∑ b : Fin B, ∑ e : Fin E,
          if (idx (ix3 b e (0 : Fin 3))).toInt = (i0.val : ℤ) ∧ (idx (ix3 b e (1 : Fin 3))).toInt = (i1.val : ℤ)
              ∧ (idx (ix3 b e (2 : Fin 3))).toInt = (i2.val : ℤ)
          then upd (ix2 b e) else 0 := by
  rw [scatter_addi_apply, sum_idx2]
  congr 1
  refine Finset.sum_congr rfl fun b _ => Finset.sum_congr rfl fun e _ => ?_
  exact if_congr (point3_resultIdx?_iff d h1 h2 h3 h4 idx b e i0 i1 i2) rfl rfl

end Cert.Lib.ScatterAdd

end
-- ==== Proof.LibCumsum.lean ====
/-
  jnp.cumsum of integer words along one axis of a rank-3 array (a reduce_window of additions, padded low) read at an index
  (general lemma; the library only).
-/
import Idealize.ShloMosaic.PureOps.Contract
import Idealize.ShloMosaic.PureOps.Vector
import Idealize.ShloMosaic.Lib.ValueIdx
import Mathlib.Algebra.BigOperators.Group.Finset.Basic
import Mathlib.Algebra.BigOperators.Fin
import Mathlib.Data.Fintype.BigOperators
import Mathlib.Data.BitVec

noncomputable section

namespace Cert.Lib.Cumsum

open Idealize.ShloMosaic Idealize.ShloMosaic.ValueIdx
open scoped BigOperators

/-- A left fold of word additions from `a` over a list is `a` plus the sum of the summands. -/
theorem foldl_addi_eq_sum_aux {ι : Type} (g : ι → BitVec 32) (L : List ι) (a : BitVec 32) :
    L.foldl (fun r n => IntOp.addi r (g n)) a = a + (L.map g).sum := by
  induction L generalizing a with
  | nil => simp
  | cons n L ih => rw [List.foldl_cons, ih, List.map_cons, List.sum_cons]; simp only [IntOp.addi, add_assoc]

/-- The left fold of word additions from zero over all of `Fin m`, in order, is the sum over `Fin m`. -/
theorem foldl_addi_finRange {m : ℕ} (g : Fin m → BitVec 32) :
    (List.finRange m).foldl (fun r n => IntOp.addi r (g n)) 0 = ∑ n, g n := by
  rw [foldl_addi_eq_sum_aux, zero_add, Fin.sum_univ_def]

/-- A reduce_window of word additions from a zero initial value, read at `j`: the sum over the window's positions `w`
    of the operand at `j · stride + w − lo` where that lies inside the operand, and of zero where it is padding.
    (The fold is a sum, and the row-major numbering of the window's positions is a bijection.) -/
theorem reduceWindow_addi_apply {s t u : Shape} (window strides lo hi : Fin s.rank → ℕ) (x : IVec s 32) (v : IVec u 32)
    (hv : ∀ j, v j = 0) (h : s.ReduceWindows window strides lo hi t) (hu : 0 < u.numel) (j : t.Idx) :
    Host.reduceWindow IntOp.addi window strides lo hi x v h hu j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  unfold Host.reduceWindow
  simp only [hv]
  rw [foldl_addi_finRange]
  rw [← Equiv.sum_comp (Shape.rowMajor ⟨s.rank, window⟩).symm]

/-- The positions of a window `[1, N, 1]` are its rows `k < N` (the other two coordinates are zero). -/
def winEquiv1 (N : ℕ) : Fin N ≃ (⟨3, ![1, N, 1]⟩ : Shape).Idx where
  toFun k := ix3 (0 : Fin 1) k (0 : Fin 1)
  invFun w := w (1 : Fin 3)
  left_inv k := rfl
  right_inv w := by
    funext a
    match a with
    | ⟨0, _⟩ => exact Fin.ext (by have h1 : (w (0 : Fin 3)).val < 1 := (w (0 : Fin 3)).isLt; show 0 = (w (0 : Fin 3)).val; omega)
    | ⟨1, _⟩ => rfl
    | ⟨2, _⟩ => exact Fin.ext (by have h1 : (w (2 : Fin 3)).val < 1 := (w (2 : Fin 3)).isLt; show 0 = (w (2 : Fin 3)).val; omega)

/-- Re-indexing the window's rows `k` by the row read, `p = y + k − M` (with `M + 1 = N`): the rows read are those `p ≤ y`. -/
theorem sum_shift {N M : ℕ} (hM : M + 1 = N) (y : Fin N) (g : Fin N → BitVec 32) :
    (∑ k : Fin N, if M ≤ y.val + k.val then g ⟨y.val + k.val - M, by omega⟩ else 0)
      = ∑ p : Fin N, if p.val ≤ y.val then g p else 0 := by
  rw [← Finset.sum_filter, ← Finset.sum_filter]
  refine Finset.sum_nbij' (fun k => ⟨y.val + k.val - M, by omega⟩) (fun p => ⟨min (p.val + M - y.val) M, by omega⟩) ?_ ?_ ?_ ?_ ?_
  · intro k hk
    simp only [Finset.mem_filter, Finset.mem_univ, true_and] at hk ⊢
    omega
  · intro p hp
    simp only [Finset.mem_filter, Finset.mem_univ, true_and] at hp ⊢
    omega
  · intro k hk
    simp only [Finset.mem_filter, Finset.mem_univ, true_and] at hk
    exact Fin.ext (by show min (y.val + k.val - M + M - y.val) M = k.val; omega)
  · intro p hp
    simp only [Finset.mem_filter, Finset.mem_univ, true_and] at hp
    exact Fin.ext (by show y.val + min (p.val + M - y.val) M - M = p.val; omega)
  · intro k hk
    rfl

/-- The running sum down axis 1 of an [A, N, C] array of words (window `[1, N, 1]`, `N − 1` rows of padding above),
    read at (b, y, q): window row `k` reads row `y + k − (N − 1)` when that is not negative and zero otherwise, so the
    sum is over the rows `p ≤ y`. -/
theorem cumsum_axis1_gen {A N M C : ℕ} (hM : M + 1 = N) (x : IVec ⟨3, ![A, N, C]⟩ 32) (v : IVec ⟨0, ![]⟩ 32) (hv : ∀ j, v j = 0)
    (h : (⟨3, ![A, N, C]⟩ : Shape).ReduceWindows (![1, N, 1] : Fin 3 → Nat) ![1, 1, 1] ![0, M, 0] ![0, 0, 0] ⟨3, ![A, N, C]⟩)
    (hu : 0 < (⟨0, ![]⟩ : Shape).numel) (b : Fin A) (y : Fin N) (q : Fin C) :
    Host.reduceWindow IntOp.addi ![1, N, 1] ![1, 1, 1] ![0, M, 0] ![0, 0, 0] x v h hu (ix3 b y q)
      = ∑ p : Fin N, if p.val ≤ y.val then x (ix3 b p q) else 0 := by
  rw [reduceWindow_addi_apply _ _ _ _ x v hv h hu, ← sum_shift hM y (fun p => x (ix3 b p q))]
  rw [← Equiv.sum_comp (winEquiv1 N)]
  refine Finset.sum_congr rfl (fun k _ => ?_)
  have hb := b.isLt
  have hy := y.isLt
  have hk := k.isLt
  have hq := q.isLt
  split_ifs with h1 h2 h2
  · congr 1
    funext a
    match a with
    | ⟨0, _⟩ => exact Fin.ext (by show b.val * 1 + 0 - 0 = b.val; omega)
    | ⟨1, _⟩ => exact Fin.ext (by show y.val * 1 + k.val - M = y.val + k.val - M; omega)
    | ⟨2, _⟩ => exact Fin.ext (by show q.val * 1 + 0 - 0 = q.val; omega)
  · exfalso
    have h3 : M ≤ y.val * 1 + k.val := (h1 (1 : Fin 3)).1
    omega
  · exfalso
    apply h1
    intro a
    match a with
    | ⟨0, _⟩ => show 0 ≤ b.val * 1 + 0 ∧ b.val * 1 + 0 - 0 < A; omega
    | ⟨1, _⟩ => show M ≤ y.val * 1 + k.val ∧ y.val * 1 + k.val - M < N; omega
    | ⟨2, _⟩ => show 0 ≤ q.val * 1 + 0 ∧ q.val * 1 + 0 - 0 < C; omega
  · rfl

/-- The positions of a window `[1, 1, N]` are its columns `k < N` (the other two coordinates are zero). -/
def winEquiv2 (N : ℕ) : Fin N ≃ (⟨3, ![1, 1, N]⟩ : Shape).Idx where
  toFun k := ix3 (0 : Fin 1) (0 : Fin 1) k
  invFun w := w (2 : Fin 3)
  left_inv k := rfl
  right_inv w := by
    funext a
    match a with
    | ⟨0, _⟩ => exact Fin.ext (by have h1 : (w (0 : Fin 3)).val < 1 := (w (0 : Fin 3)).isLt; show 0 = (w (0 : Fin 3)).val; omega)
    | ⟨1, _⟩ => exact Fin.ext (by have h1 : (w (1 : Fin 3)).val < 1 := (w (1 : Fin 3)).isLt; show 0 = (w (1 : Fin 3)).val; omega)
    | ⟨2, _⟩ => rfl

/-- The running sum along axis 2 of an [A, R, N] array of words (window `[1, 1, N]`, `N − 1` columns of padding before),
    read at (b, y, q): window column `k` reads column `q + k − (N − 1)` when that is not negative and zero otherwise, so
    the sum is over the columns `p ≤ q`. -/
theorem cumsum_axis2_gen {A R N M : ℕ} (hM : M + 1 = N) (x : IVec ⟨3, ![A, R, N]⟩ 32) (v : IVec ⟨0, ![]⟩ 32) (hv : ∀ j, v j = 0)
    (h : (⟨3, ![A, R, N]⟩ : Shape).ReduceWindows (![1, 1, N] : Fin 3 → Nat) ![1, 1, 1] ![0, 0, M] ![0, 0, 0] ⟨3, ![A, R, N]⟩)
    (hu : 0 < (⟨0, ![]⟩ : Shape).numel) (b : Fin A) (y : Fin R) (q : Fin N) :
    Host.reduceWindow IntOp.addi ![1, 1, N] ![1, 1, 1] ![0, 0, M] ![0, 0, 0] x v h hu (ix3 b y q)
      = ∑ p : Fin N, if p.val ≤ q.val then x (ix3 b y p) else 0 := by
  rw [reduceWindow_addi_apply _ _ _ _ x v hv h hu, ← sum_shift hM q (fun p => x (ix3 b y p))]
  rw [← Equiv.sum_comp (winEquiv2 N)]
  refine Finset.sum_congr rfl (fun k _ => ?_)
  have hb := b.isLt
  have hy := y.isLt
  have hk := k.isLt
  have hq := q.isLt
  split_ifs with h1 h2 h2
  · congr 1
    funext a
    match a with
    | ⟨0, _⟩ => exact Fin.ext (by show b.val * 1 + 0 - 0 = b.val; omega)
    | ⟨1, _⟩ => exact Fin.ext (by show y.val * 1 + 0 - 0 = y.val; omega)
    | ⟨2, _⟩ => exact Fin.ext (by show q.val * 1 + k.val - M = q.val + k.val - M; omega)
  · exfalso
    have h3 : M ≤ q.val * 1 + k.val := (h1 (2 : Fin 3)).1
    omega
  · exfalso
    apply h1
    intro a
    match a with
    | ⟨0, _⟩ => show 0 ≤ b.val * 1 + 0 ∧ b.val * 1 + 0 - 0 < A; omega
    | ⟨1, _⟩ => show 0 ≤ y.val * 1 + 0 ∧ y.val * 1 + 0 - 0 < R; omega
    | ⟨2, _⟩ => show M ≤ q.val * 1 + k.val ∧ q.val * 1 + k.val - M < N; omega
  · rfl

/-- The running sum down axis 1 of an [A, 1025, C] array of words, read at (b, y, q): the sum of the words at (b, p, q)
    over the rows p ≤ y. (The window of 1025 rows ending at row y reads the initial value, zero, above row 0.) -/
theorem cumsum_axis1_apply {A C : ℕ} (x : IVec ⟨3, ![A, 1025, C]⟩ 32) (v : IVec ⟨0, ![]⟩ 32) (hv : ∀ j, v j = 0)
    (h : (⟨3, ![A, 1025, C]⟩ : Shape).ReduceWindows (![1, 1025, 1] : Fin 3 → Nat) ![1, 1, 1] ![0, 1024, 0] ![0, 0, 0] ⟨3, ![A, 1025, C]⟩)
    (hu : 0 < (⟨0, ![]⟩ : Shape).numel) (b : Fin A) (y : Fin 1025) (q : Fin C) :
    Host.reduceWindow IntOp.addi ![1, 1025, 1] ![1, 1, 1] ![0, 1024, 0] ![0, 0, 0] x v h hu (ix3 b y q)
      = ∑ p : Fin 1025, if p.val ≤ y.val then x (ix3 b p q) else 0 :=
  cumsum_axis1_gen (N := 1025) (M := 1024) rfl x v hv h hu b y q

/-- The running sum along axis 2 of an [A, R, 1025] array of words, read at (b, y, q): the sum of the words at (b, y, p)
    over the columns p ≤ q. -/
theorem cumsum_axis2_apply {A R : ℕ} (x : IVec ⟨3, ![A, R, 1025]⟩ 32) (v : IVec ⟨0, ![]⟩ 32) (hv : ∀ j, v j = 0)
    (h : (⟨3, ![A, R, 1025]⟩ : Shape).ReduceWindows (![1, 1, 1025] : Fin 3 → Nat) ![1, 1, 1] ![0, 0, 1024] ![0, 0, 0] ⟨3, ![A, R, 1025]⟩)
    (hu : 0 < (⟨0, ![]⟩ : Shape).numel) (b : Fin A) (y : Fin R) (q : Fin 1025) :
    Host.reduceWindow IntOp.addi ![1, 1, 1025] ![1, 1, 1] ![0, 0, 1024] ![0, 0, 0] x v h hu (ix3 b y q)
      = ∑ p : Fin 1025, if p.val ≤ q.val then x (ix3 b y p) else 0 :=
  cumsum_axis2_gen (N := 1025) (M := 1024) rfl x v hv h hu b y q

end Cert.Lib.Cumsum

end
-- ==== Proof.Consts.lean ====
/-
  The float patterns the two programs spell, as the extended reals they denote at the exact instance:
  1, 8, 9, 10, 1048576 and the two dyadic reciprocals 1/8 and 1/1048576.
-/
import Idealize.ShloMosaic.PureOps.Ideal

noncomputable section

namespace Cert.Consts

open Idealize.ShloMosaic

/-- `1.0`. -/
theorem ofBits_one : Ideal.ofBits .f32 0x3F800000#32 = ((1 : ℝ) : EReal) := by
  simp [Ideal.ofBits, Ideal.ieee, -EReal.coe_mul]; norm_num

/-- `8.0`. -/
theorem ofBits_8 : Ideal.ofBits .f32 0x41000000#32 = ((8 : ℝ) : EReal) := by
  simp [Ideal.ofBits, Ideal.ieee, -EReal.coe_mul]; norm_num

/-- `9.0`. -/
theorem ofBits_9 : Ideal.ofBits .f32 0x41100000#32 = ((9 : ℝ) : EReal) := by
  simp [Ideal.ofBits, Ideal.ieee, -EReal.coe_mul]; norm_num

/-- `10.0`. -/
theorem ofBits_10 : Ideal.ofBits .f32 0x41200000#32 = ((10 : ℝ) : EReal) := by
  simp [Ideal.ofBits, Ideal.ieee, -EReal.coe_mul]; norm_num

/-- `1048576.0` = 2²⁰. -/
theorem ofBits_1048576 : Ideal.ofBits .f32 0x49800000#32 = ((1048576 : ℝ) : EReal) := by
  simp [Ideal.ofBits, Ideal.ieee, -EReal.coe_mul]; norm_num

/-- `0.125` = 1/8. -/
theorem ofBits_inv8 : Ideal.ofBits .f32 0x3E000000#32 = ((1 / 8 : ℝ) : EReal) := by
  simp [Ideal.ofBits, Ideal.ieee, -EReal.coe_mul]; norm_num

/-- `9.5367431640625e-07` = 2⁻²⁰ = 1/1048576. -/
theorem ofBits_inv1048576 : Ideal.ofBits .f32 0x35800000#32 = ((1 / 1048576 : ℝ) : EReal) := by
  simp [Ideal.ofBits, Ideal.ieee, -EReal.coe_mul]; norm_num

end Cert.Consts

end
-- ==== Proof.RefValue.lean ====
/-
  The reference's result read at a pixel, at the exact instance, for box tables with ordered corners.

  Each scatter-add puts its update word at (image, row, column) of every box; summed down the rows and along the
  columns, the four scatters give at pixel (y, x) of image b the sum over the boxes n of b of
  [Y1 ≤ y][X1 ≤ x] − [Y1 ≤ y][X2 ≤ x] − [Y2 ≤ y][X1 ≤ x] + [Y2 ≤ y][X2 ≤ x] on the clamped corners, which for ordered
  corners is the number of boxes covering the pixel; it is positive exactly on the foreground.
-/
import proofs.«416528_j24180665877233_3_alg».proof.Proof.RefIdx
import proofs.«416528_j24180665877233_3_alg».proof.Proof.Count
import proofs.«416528_j24180665877233_3_alg».proof.Proof.LibScatterAdd
import proofs.«416528_j24180665877233_3_alg».proof.Proof.LibCumsum
import proofs.«416528_j24180665877233_3_alg».proof.Proof.Consts
import proofs.«416528_j24180665877233_3_alg».proof.Proof.Spec
import Idealize.ShloMosaic.PureOps.Ideal
import Idealize.ShloMosaic.Lib.ValueIdx

noncomputable section

namespace Cert.ReferenceIdeal.RefValue

open Cert.ReferenceIdeal Cert.ReferenceIdeal.Gen Cert.ReferenceIdeal.RefTerm Cert.ReferenceIdeal.RefIdx
open Idealize.ShloMosaic Idealize.ShloMosaic.ValueIdx Cert.Spec Cert.Count
open scoped BigOperators

attribute [local irreducible] Host.reduceWindow Host.scatter

/-- A sum over the images that keeps only image `b`. -/
theorem sum_pick {M : Type} [AddCommMonoid M] (b : Fin 8) (f : Fin 8 → M) (P : Fin 8 → Prop) [DecidablePred P]
    (hP : ∀ b', P b' ↔ b' = b) : (∑ b' : Fin 8, if P b' then f b' else 0) = f b := by
  rw [Finset.sum_eq_single b]
  · rw [if_pos ((hP b).2 rfl)]
  · intro b' _ hb'; rw [if_neg (fun h => hb' ((hP b').1 h))]
  · intro h; exact absurd (Finset.mem_univ _) h

/-- ONE SCATTER-ADD read at (b, p, q), for corner tables that are never negative: the accumulator's word plus the sum over
    the boxes of image `b` whose corner is (p, q) of their update words. -/
theorem scat_apply (acc : IVec S8x1025x1025 32) (ys xs upd : IVec S8x64 32) (hy : ∀ j, 0 ≤ (ys j).toInt)
    (hx : ∀ j, 0 ≤ (xs j).toInt) (b : Fin 8) (p q : Fin 1025) :
    scat acc ys xs upd (ix3 b p q)
      = acc (ix3 b p q) + ∑ n : Fin 64,
          if (ys (ix2 b n)).toInt = (p.val : ℤ) ∧ (xs (ix2 b n)).toInt = (q.val : ℤ) then upd (ix2 b n) else 0 := by
  unfold scat
  refine (Cert.Lib.ScatterAdd.scatter_point3_apply (N0 := 8) (N1 := 1025) (N2 := 1025) (B := 8) (E := 64)
    scatter_S8x1025x1025_S8x64x3_S8x64_n_012_012_2 rfl rfl rfl rfl acc (corner ys xs) upd b p q).trans ?_
  refine congrArg (fun t => acc (ix3 b p q) + t) ?_
  have h1 : ∀ b' : Fin 8, (∑ n : Fin 64,
        if (corner ys xs (ix3 b' n (0 : Fin 3))).toInt = (b.val : ℤ) ∧ (corner ys xs (ix3 b' n (1 : Fin 3))).toInt = (p.val : ℤ)
            ∧ (corner ys xs (ix3 b' n (2 : Fin 3))).toInt = (q.val : ℤ)
        then upd (ix2 b' n) else 0)
      = if b' = b then (∑ n : Fin 64,
          if (ys (ix2 b' n)).toInt = (p.val : ℤ) ∧ (xs (ix2 b' n)).toInt = (q.val : ℤ) then upd (ix2 b' n) else 0) else 0 := by
    intro b'
    by_cases hb : b' = b
    · rw [if_pos hb]
      refine Finset.sum_congr rfl fun n _ => ?_
      rw [corner_apply0, corner_apply1 ys xs b' n (hy _), corner_apply2 ys xs b' n (hx _), hb]
      simp only [true_and]
    · rw [if_neg hb]
      refine Finset.sum_eq_zero fun n _ => ?_
      rw [if_neg]
      rw [corner_apply0]
      intro h
      exact hb (Fin.ext (by have := h.1; omega))
  simp only [h1]
  exact sum_pick b _ _ (fun _ => Iff.rfl)

section
variable (bb : IVec S8x64x4 32) (b : Fin 8)

/-- The clamped corners of box `n` of image `b`, as numbers. -/
def X1 (n : Fin 64) : ℕ := clamp (bb (ix3 b n (0 : Fin 4)))
def Y1 (n : Fin 64) : ℕ := clamp (bb (ix3 b n (1 : Fin 4)))
def X2 (n : Fin 64) : ℕ := clamp (bb (ix3 b n (2 : Fin 4)))
def Y2 (n : Fin 64) : ℕ := clamp (bb (ix3 b n (3 : Fin 4)))

/-- The point masses one scatter leaves in image `b`'s difference array. -/
def pts (Y X : Fin 64 → ℕ) (u : BitVec 32) (p q : Fin 1025) : BitVec 32 :=
  ∑ n : Fin 64, if Y n = p.val ∧ X n = q.val then u else 0

theorem nonneg_x1c (j : S8x64.Idx) : 0 ≤ (x1c bb j).toInt := by
  obtain ⟨b', n, rfl⟩ : ∃ (b' : Fin 8) (n : Fin 64), j = ix2 b' n := ⟨j 0, j 1, eq_ix2 j⟩
  rw [x1c_apply, cw_toInt]; exact Int.natCast_nonneg _
theorem nonneg_y1c (j : S8x64.Idx) : 0 ≤ (y1c bb j).toInt := by
  obtain ⟨b', n, rfl⟩ : ∃ (b' : Fin 8) (n : Fin 64), j = ix2 b' n := ⟨j 0, j 1, eq_ix2 j⟩
  rw [y1c_apply, cw_toInt]; exact Int.natCast_nonneg _
theorem nonneg_x2c (j : S8x64.Idx) : 0 ≤ (x2c bb j).toInt := by
  obtain ⟨b', n, rfl⟩ : ∃ (b' : Fin 8) (n : Fin 64), j = ix2 b' n := ⟨j 0, j 1, eq_ix2 j⟩
  rw [x2c_apply, cw_toInt]; exact Int.natCast_nonneg _
theorem nonneg_y2c (j : S8x64.Idx) : 0 ≤ (y2c bb j).toInt := by
  obtain ⟨b', n, rfl⟩ : ∃ (b' : Fin 8) (n : Fin 64), j = ix2 b' n := ⟨j 0, j 1, eq_ix2 j⟩
  rw [y2c_apply, cw_toInt]; exact Int.natCast_nonneg _

/-- THE DIFFERENCE ARRAY of image `b` at (p, q): +1 for every box with (Y1, X1) there, −1 for (Y1, X2), −1 for (Y2, X1),
    +1 for (Y2, X2). -/
theorem diff_apply (p q : Fin 1025) :
    diff bb (ix3 b p q)
      = pts (Y1 bb b) (X1 bb b) 1#32 p q + pts (Y1 bb b) (X2 bb b) (-(1#32)) p q
        + pts (Y2 bb b) (X1 bb b) (-(1#32)) p q + pts (Y2 bb b) (X2 bb b) 1#32 p q := by
  unfold diff pts Y1 X1 Y2 X2
  rw [scat_apply (scat (scat (scat zeros (y1c bb) (x1c bb) ones) (y1c bb) (x2c bb) (negi ones)) (y2c bb) (x1c bb) (negi ones))
      (y2c bb) (x2c bb) ones (nonneg_y2c bb) (nonneg_x2c bb) b p q,
    scat_apply (scat (scat zeros (y1c bb) (x1c bb) ones) (y1c bb) (x2c bb) (negi ones)) (y2c bb) (x1c bb) (negi ones)
      (nonneg_y2c bb) (nonneg_x1c bb) b p q,
    scat_apply (scat zeros (y1c bb) (x1c bb) ones) (y1c bb) (x2c bb) (negi ones) (nonneg_y1c bb) (nonneg_x2c bb) b p q,
    scat_apply zeros (y1c bb) (x1c bb) ones (nonneg_y1c bb) (nonneg_x1c bb) b p q, zeros_apply]
  simp only [x1c_apply, y1c_apply, x2c_apply, y2c_apply, cw_toInt, ones_apply, negi_ones_apply, Nat.cast_inj]
  rw [BitVec.zero_add]

/-- THE COUNT at pixel (y, x) of image `b` is the two-dimensional prefix sum of the image's difference array. -/
theorem cnt_eq_pre2 (y x : Fin 1024) :
    cnt bb (ix3 b y x) = pre2 (fun p q : Fin 1025 => diff bb (ix3 b p q)) y.val x.val := by
  rw [cnt_apply]
  unfold cum2
  rw [Cert.Lib.Cumsum.cumsum_axis2_apply _ _ (fun j => zero0_apply j)]
  unfold pre2
  refine Finset.sum_congr rfl fun q _ => ?_
  by_cases hq : q.val ≤ x.val
  · rw [if_pos (show q.val ≤ (⟨x.val, by omega⟩ : Fin 1025).val from hq), if_pos hq]
    unfold cum1
    rw [Cert.Lib.Cumsum.cumsum_axis1_apply _ _ (fun j => zero0_apply j)]
  · rw [if_neg (show ¬ q.val ≤ (⟨x.val, by omega⟩ : Fin 1025).val from hq), if_neg hq]

theorem X1_lt (n : Fin 64) : X1 bb b n < 1025 := by have := clamp_le (bb (ix3 b n (0 : Fin 4))); unfold X1; omega
theorem Y1_lt (n : Fin 64) : Y1 bb b n < 1025 := by have := clamp_le (bb (ix3 b n (1 : Fin 4))); unfold Y1; omega
theorem X2_lt (n : Fin 64) : X2 bb b n < 1025 := by have := clamp_le (bb (ix3 b n (2 : Fin 4))); unfold X2; omega
theorem Y2_lt (n : Fin 64) : Y2 bb b n < 1025 := by have := clamp_le (bb (ix3 b n (3 : Fin 4))); unfold Y2; omega

/-- For ordered corners THE COUNT is the number of boxes of image `b` covering the pixel, as a word. -/
theorem cnt_eq_count (hord : Ordered bb) (y x : Fin 1024) :
    cnt bb (ix3 b y x) = ∑ n : Fin 64,
      if Y1 bb b n ≤ y.val ∧ y.val < Y2 bb b n ∧ X1 bb b n ≤ x.val ∧ x.val < X2 bb b n then (1 : BitVec 32) else 0 := by
  rw [cnt_eq_pre2]
  have hd : (fun p q : Fin 1025 => diff bb (ix3 b p q))
      = fun p q => pts (Y1 bb b) (X1 bb b) 1#32 p q + pts (Y1 bb b) (X2 bb b) (-(1#32)) p q
        + pts (Y2 bb b) (X1 bb b) (-(1#32)) p q + pts (Y2 bb b) (X2 bb b) 1#32 p q := by
    funext p q; exact diff_apply bb b p q
  rw [hd, pre2_add, pre2_add, pre2_add]
  unfold pts
  rw [pre2_points _ _ (Y1_lt bb b) (X1_lt bb b), pre2_points _ _ (Y1_lt bb b) (X2_lt bb b),
    pre2_points _ _ (Y2_lt bb b) (X1_lt bb b), pre2_points _ _ (Y2_lt bb b) (X2_lt bb b)]
  rw [← Finset.sum_add_distrib, ← Finset.sum_add_distrib, ← Finset.sum_add_distrib]
  refine Finset.sum_congr rfl fun n _ => ?_
  have hY : Y1 bb b n ≤ Y2 bb b n := clamp_mono (hord b n).2
  have hX : X1 bb b n ≤ X2 bb b n := clamp_mono (hord b n).1
  exact corners hY hX

/-- For ordered corners THE FOREGROUND MASK is set exactly on the covered pixels. -/
theorem fg_eq_one_iff (hord : Ordered bb) (y x : Fin 1024) :
    fg bb (ix3 b y x) = 1#1 ↔ Covered bb b y.val x.val := by
  have h0 : (broadcastInDim S8x1024x1024 ![] Facts₀.bcast_S_S8x1024x1024 (constantI S_ 32 0#32) : IVec S8x1024x1024 32) (ix3 b y x) = 0#32 := rfl
  unfold fg cmpi
  dsimp only
  rw [h0, cnt_eq_count bb b hord]
  unfold IntOp.cmpi
  dsimp only
  rw [Idealize.ShloMosaic.StableHlo.Predicate.ofBool_eq_one_iff]
  exact pos_iff _

end

/-- THE REFERENCE'S RESULT at a pixel, for a box table with ordered corners, is `Spec.Gat` of the loss there. -/
theorem out_apply (loss : FVec Ideal S8x1024x1024 .f32) (bb : IVec S8x64x4 32) (hord : Ordered bb) (b : Fin 8) (y x : Fin 1024) :
    RefTerm.out (F := Ideal) loss bb (ix3 b y x) = Gat (loss (ix3 b y x)) bb b y x := by
  have hw : weights (F := Ideal) bb (ix3 b y x)
      = if fg bb (ix3 b y x) = 1#1 then ((10 : ℝ) : EReal) else ((1 : ℝ) : EReal) := by
    show Scalar.select (fg bb (ix3 b y x)) (Ideal.ofBits .f32 0x41200000#32) (Ideal.ofBits .f32 0x3F800000#32) = _
    rw [Cert.Consts.ofBits_10, Cert.Consts.ofBits_one]
    rfl
  have ho : RefTerm.out (F := Ideal) loss bb (ix3 b y x)
      = Ideal.div (Ideal.div (loss (ix3 b y x) * weights (F := Ideal) bb (ix3 b y x)) (Ideal.ofBits .f32 0x49800000#32))
          (Ideal.ofBits .f32 0x41000000#32) := rfl
  rw [ho, hw, Cert.Consts.ofBits_1048576, Cert.Consts.ofBits_8, Ideal.div_coe (by norm_num : (1048576 : ℝ) ≠ 0),
    Ideal.div_coe (by norm_num : (8 : ℝ) ≠ 0)]
  by_cases hc : Covered bb b y.val x.val
  · rw [if_pos ((fg_eq_one_iff bb b hord y x).2 hc), Gat_of_covered hc]
  · rw [if_neg (fun h => hc ((fg_eq_one_iff bb b hord y x).1 h)), Gat_of_not_covered hc]

/-- The reference's whole result array is `Spec.G`. -/
theorem out_eq (loss : FVec Ideal S8x1024x1024 .f32) (bb : IVec S8x64x4 32) (hord : Ordered bb) :
    RefTerm.out (F := Ideal) loss bb = G loss bb := by
  funext i
  rw [eq_ix3 i]
  exact out_apply loss bb hord (i 0) (i 1) (i 2)

end Cert.ReferenceIdeal.RefValue

end
-- ==== Proof.PreDecode.lean ====
/-
  The precondition read back: where it holds, every box of the table has its corners in order.
-/
import proofs.«416528_j24180665877233_3_alg».proof.Pre_finite_inputs
import proofs.«416528_j24180665877233_3_alg».proof.Proof.Gen.Pre_finite_inputs
import proofs.«416528_j24180665877233_3_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

variable {F : FTy → Type} [FloatOps F]

/-- A conjunction of four one-bit scalars that is 1 has its last two conjuncts 1. -/
private theorem last_two {c1 c2 c3 c4 : IVec Cert.Pre_finite_inputs.S_ 1}
    (h : andi (andi (andi c1 c2) c3) c4 ix0 = 1#1) : c3 ix0 = 1#1 ∧ c4 ix0 = 1#1 := by
  obtain ⟨h123, h4⟩ := IntOp.andi_eq_one.1 h
  obtain ⟨h12, h3⟩ := IntOp.andi_eq_one.1 h123
  exact ⟨h3, h4⟩

/-- A one-column slice of the box table, at columns offset k, reads column k of the same box. -/
private theorem slice_apply (bb : IVec Cert.Pre_finite_inputs.S8x64x4 32) (k : Fin 4) (off : Fin 3 → Nat)
    (hs : Cert.Pre_finite_inputs.S8x64x4.Slices off Cert.Pre_finite_inputs.S8x64x1)
    (h0 : off 0 = 0) (h1 : off 1 = 0) (h2 : off 2 = k.val) (b : Fin 8) (n : Fin 64) :
    extractStridedSlice Cert.Pre_finite_inputs.S8x64x1 off bb hs (ix3 b n (0 : Fin 1)) = bb (ix3 b n k) := by
  unfold extractStridedSlice
  congr 1
  funext a
  match a with
  | ⟨0, _⟩ => exact Fin.ext (by simp [h0])
  | ⟨1, _⟩ => exact Fin.ext (by simp [h1])
  | ⟨2, _⟩ => exact Fin.ext (by simp [h2])

/-- The precondition is a conjunction of four `all`s; its last two say, box by box, x1 ≤ x2 and y1 ≤ y2 read signed
    (`bboxes[:, :, 0:1] <= bboxes[:, :, 2:3]` and `bboxes[:, :, 1:2] <= bboxes[:, :, 3:4]`). -/
theorem ordered_of_pre [hP : Cert.Pre_finite_inputs.Facts] (a0 a1 : FVec F Cert.Pre_finite_inputs.S8x1024x1024 .f32)
    (bb : IVec Cert.Pre_finite_inputs.S8x64x4 32)
    (h : Cert.Pre_finite_inputs.fn (F := F) a0 a1 bb = fun _ => 1#1) : Cert.Spec.Ordered bb := by
  -- the claim at the scalar's one index, with the chain of operations in view
  have h0 := congrFun h ValueIdx.ix0
  dsimp only [Cert.Pre_finite_inputs.fn, Cert.Pre_finite_inputs.fn_part1] at h0
  obtain ⟨hx, hy⟩ := last_two h0
  intro b n
  -- the scalar shape has one index, so each `all` reduces every entry of its mask into that one result
  haveI : Subsingleton Cert.Pre_finite_inputs.S_.Idx := ⟨fun a b => funext fun d => d.elim0⟩
  have ex := Host.reduce_andi_all _ _ _ _ _ hx (ix3 b n (0 : Fin 1))
  have ey := Host.reduce_andi_all _ _ _ _ _ hy (ix3 b n (0 : Fin 1))
  -- an entry of a signed ≤ mask that is 1 says its two operands are in order, read signed
  have ex' := IntOp.cmpi_sle.1 ex
  have ey' := IntOp.cmpi_sle.1 ey
  -- the operands are the one-column slices at columns 0, 2 (x1, x2) and 1, 3 (y1, y2) of box (b, n)
  rw [slice_apply bb 0 _ _ rfl rfl rfl b n, slice_apply bb 2 _ _ rfl rfl rfl b n] at ex'
  rw [slice_apply bb 1 _ _ rfl rfl rfl b n, slice_apply bb 3 _ _ rfl rfl rfl b n] at ey'
  exact ⟨ex', ey'⟩

end Cert.PreDecode

end
-- ==== Proof.lean ====
/-
  A weighted loss over 8 images of 1024 × 1024 pixels: a pixel's loss is multiplied by 10 where one of the image's 64
  boxes (corners clamped to the image, half-open in both directions) covers it and by 1 elsewhere, then divided by
  the 1048576 pixels of an image and by the 8 images.

  The kernel counts the covering boxes of a pixel (y, x) as the product of two indicator matrices,
  Σ_n [y1 ≤ y < y2]·[x1 ≤ x < x2], takes min(count, 1) and weights by 1 + 9·min(count, 1), multiplying by the dyadic
  reciprocals 2⁻²⁰ and 2⁻³. The reference scatters ±1 at the four corners of every box into a difference array,
  takes the running sums down the rows and along the columns, and weights by 10 where the result is positive; for boxes
  whose corners are in order (x1 ≤ x2, y1 ≤ y2: the precondition) that double running sum is the same count. Both
  results are therefore the one function `Spec.G` of the loss array and the box table; a division by 1048576 or by 8
  is the product with the reciprocal on every extended real, so no finiteness of the loss is used.

  The word-level kernel's frame and the idealized kernel's frame are the launch's run; the reference's frame is its
  run with the result dropped; the idealization rewrote no operation.
-/
import proofs.«416528_j24180665877233_3_alg».proof.Defs
import proofs.«416528_j24180665877233_3_alg».proof.Proof.Gen.Kernel
import proofs.«416528_j24180665877233_3_alg».proof.Proof.Gen.Kernel.Skeleton
import proofs.«416528_j24180665877233_3_alg».proof.Proof.Gen.Kernel.Launch
import proofs.«416528_j24180665877233_3_alg».proof.Proof.Gen.Kernel.Points
import proofs.«416528_j24180665877233_3_alg».proof.Proof.Gen.Kernel.Frame
import proofs.«416528_j24180665877233_3_alg».proof.Proof.Gen.KernelIdeal
import proofs.«416528_j24180665877233_3_alg».proof.Proof.Gen.KernelIdeal.Skeleton
import proofs.«416528_j24180665877233_3_alg».proof.Proof.Gen.KernelIdeal.Launch
import proofs.«416528_j24180665877233_3_alg».proof.Proof.Gen.KernelIdeal.Points
import proofs.«416528_j24180665877233_3_alg».proof.Proof.Gen.KernelIdeal.Frame
import proofs.«416528_j24180665877233_3_alg».proof.Proof.Gen.KernelIdeal.Value
import proofs.«416528_j24180665877233_3_alg».proof.Proof.Gen.ReferenceIdeal
import proofs.«416528_j24180665877233_3_alg».proof.Proof.Gen.Pre_finite_inputs
import proofs.«416528_j24180665877233_3_alg».proof.Proof.KernelValue
import proofs.«416528_j24180665877233_3_alg».proof.Proof.RefRun
import proofs.«416528_j24180665877233_3_alg».proof.Proof.RefValue
import proofs.«416528_j24180665877233_3_alg».proof.Proof.PreDecode
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

/-- From memories agreeing on the arguments, with every box's corners in order, both idealized programs end with the result
    array at `Spec.G` of the loss array and the box table. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.2]
  exact Cert.ReferenceIdeal.RefValue.out_eq _ _ (Cert.PreDecode.ordered_of_pre _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
